-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S64x40 .f32) (main_arg5 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg4
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x64 : Shape := ⟨2, ![1, 64]⟩
abbrev S1x40 : Shape := ⟨2, ![1, 40]⟩
abbrev S10000x64 : Shape := ⟨2, ![10000, 64]⟩
abbrev S10000x40 : Shape := ⟨2, ![10000, 40]⟩
abbrev S400x10000 : Shape := ⟨2, ![400, 10000]⟩
abbrev S400x40 : Shape := ⟨2, ![400, 40]⟩
abbrev S400x64 : Shape := ⟨2, ![400, 64]⟩
abbrev S400 : Shape := ⟨1, ![400]⟩
abbrev S400x1 : Shape := ⟨2, ![400, 1]⟩

abbrev nBuf : Space → Nat
  | .hbm => 10
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S1x64, .f32⟩
  | .hbm, ⟨7, _⟩ => ⟨S1x40, .f32⟩
  | .hbm, ⟨8, _⟩ => ⟨S10000x64, .f32⟩
  | .hbm, ⟨9, _⟩ => ⟨S10000x40, .f32⟩
  | .local _ .vmem, ⟨0, _⟩ => ⟨S10000x128, .f32⟩
  | .local _ .vmem, ⟨1, _⟩ => ⟨S128x64, .f32⟩
  | .local _ .vmem, ⟨2, _⟩ => ⟨S1x64, .f32⟩
  | .local _ .vmem, ⟨3, _⟩ => ⟨S64x40, .f32⟩
  | .local _ .vmem, ⟨4, _⟩ => ⟨S1x40, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S400x40, .f32⟩
  | .local _ .vmem, ⟨9, _⟩ => ⟨S400x40, .f32⟩
  | .local _ .vmem, ⟨10, _⟩ => ⟨S10000x64, .f32⟩
  | .local _ .vmem, ⟨11, _⟩ => ⟨S10000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v28 : BitVec 32 := Scalar.muli arg1 c400_i32
  let v29 : Index := Scalar.indexCast v28
  let c0_15 : Index := 0#32
  ![v29.toNat, 0]
def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S10000x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S400x40 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S64_S1x64 : S64.ShapeCasts S1x64
  shapeCasts_S40_S1x40 : S40.ShapeCasts S1x40
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  h_S400x64 : 0 < S400x64.numel
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  inb_S400x40_S400x40_0_0 : ∀ a, (![0, 0] : Fin 2 → Nat) a + S400x40.size a ≤ S400x40.size a
  h_S400x40 : 0 < S400x40.numel
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S10000x64_S64x40_S10000x40_1_0_0_1_n_n_wf : DotDims.WF S10000x64 S64x40 S10000x40 [1] [0] [0] [1] [] []
  dot_S400x10000_S10000x40_S400x40_1_0_0_1_n_n_wf : DotDims.WF S400x10000 S10000x40 S400x40 [1] [0] [0] [1] [] []
  hrank0 : 0 < grid0.rank
  k0_off1_inb : ∀ i : grid0.Coords, ∀ (k0_h2 : k0_cond2 i = 1#1), ∀ a, (k0_off1 i) a + S400x64.size a ≤ S10000x64.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x40.size a ≤ S64x40.size a
  hwx0_3 : ∀ i : grid0.Coords, EltTy.bits .f32 = 32 ∨ (Rect.block (s := S64x40) S64x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x40.size a ≤ S1x40.size a
  hwx0_4 : ∀ i : grid0.Coords, EltTy.bits .f32 = 32 ∨ (Rect.block (s := S1x40) S1x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .f32 = 32 ∨ (Rect.block (s := S10000x10000) S400x10000.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S10000x64.size a
  hwx0_6 : ∀ i : grid0.Coords, EltTy.bits .f32 = 32 ∨ (Rect.block (s := S10000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x40.size a ≤ S10000x40.size a
  hwx0_7 : ∀ i : grid0.Coords, EltTy.bits .f32 = 32 ∨ (Rect.block (s := S10000x40) S400x40.size (cc0_transform_7 i) (hinb0_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S400x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S10000x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S400x40.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond4 i == 1#1) | ⟨_ + 8, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S10000x64 : Shape := ⟨2, ![10000, 64]⟩
abbrev S1x64 : Shape := ⟨2, ![1, 64]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 38
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S_, .f32⟩
  | .hbm, ⟨13, _⟩ => ⟨S10000x64, .f32⟩
  | .hbm, ⟨14, _⟩ => ⟨S10000x64, .i1⟩
  | .hbm, ⟨15, _⟩ => ⟨S_, .f32⟩
  | .hbm, ⟨16, _⟩ => ⟨S10000x64, .f32⟩
  | .hbm, ⟨17, _⟩ => ⟨S10000x64, .f32⟩
  | .hbm, ⟨18, _⟩ => ⟨S10000x64, .f32⟩
  | .hbm, ⟨19, _⟩ => ⟨S10000x40, .f32⟩
  | .hbm, ⟨20, _⟩ => ⟨S10000x40, .f32⟩
  | .hbm, ⟨21, _⟩ => ⟨S1x40, .f32⟩
  | .hbm, ⟨22, _⟩ => ⟨S10000x40, .f32⟩
  | .hbm, ⟨23, _⟩ => ⟨S10000x40, .f32⟩
  | .hbm, ⟨24, _⟩ => ⟨S_, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S10000x40, .f32⟩
  | .hbm, ⟨31, _⟩ => ⟨S10000x40, .f32⟩
  | .hbm, ⟨32, _⟩ => ⟨S10000x40, .f32⟩
  | .hbm, ⟨33, _⟩ => ⟨S_, .f32⟩
  | .hbm, ⟨34, _⟩ => ⟨S10000, .f32⟩
  | .hbm, ⟨35, _⟩ => ⟨S10000x1, .f32⟩
  | .hbm, ⟨36, _⟩ => ⟨S10000x40, .f32⟩
  | .hbm, ⟨37, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x40_S10000x40_1_0_0_1_n_n_wf : DotDims.WF S10000x64 S64x40 S10000x40 [1] [0] [0] [1] [] []
  dot_S10000x10000_S10000x40_S10000x40_1_0_0_1_n_n_wf : DotDims.WF S10000x10000 S10000x40 S10000x40 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.KData.lean ====
/-
  The relational proof data of the fused two-layer graph convolution.

  The grid has 50 points: pass 0 (points 0..24) and pass 1 (points 25..49), 25 row slabs of 400 rows each.
  Writing A for the adjacency matrix (window 5, one 400-row slab per point), y, W1, b1, W2, b2 for the other inputs:
    * at point 0 the body stores  s1 = y W1  whole into the first scratch buffer, which it keeps to the end;
    * at point t < 25 it stores rows 400 t .. 400 t + 399 of  h = leaky (A s1 + b1)  into the staging buffer of
      output window 6, whose block is the whole array: the other rows of that buffer stay as they were — before
      point 0 they are whatever the machine left there, so what the buffer holds after a point is a function of what
      it held before, and is stated as a RELATION between the two;
    * at point 25 it reads that buffer whole — by then every slab has been stored, so it is h — and stores
      s2 = h W2  whole into the second scratch buffer;
    * at point t >= 25 it stores the 400-row slab of  softmax (A s2 + b2)  whole into window 7's buffer.
  Window 6 is written back once, after the last point; window 7 after each point of pass 1.
-/
import proofs.«180651_g84250078479004_cont_9to1_m_1348_24_alg».proof.Proof.Gen.Kernel.Frame
import proofs.«180651_g84250078479004_cont_9to1_m_1348_24_alg».proof.Proof.Gen.Kernel.Skeleton
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The first point of pass 0 and the first point of pass 1. -/
abbrev tA : Fin cfg0.N := ⟨0, by decide⟩
abbrev tC : Fin cfg0.N := ⟨25, by decide⟩

/-- The two scratch buffers as memrefs. -/
abbrev scM0 : Memref sig .tc .vmem S10000x64 .f32 := Memref.whole cc0_scratch0
abbrev scM1 : Memref sig .tc .vmem S10000x40 .f32 := Memref.whole cc0_scratch1

/-- s1 = y W1, as the body computes it at point 0 from the blocks of windows 0 and 1 (each the whole array). -/
def s1v (c : Dev nD) : Vec F S10000x64 .f32 := k0_pay1 (iblk m c 0 tA) (iblk m c 1 tA)

/-- The slab of h the body stores at point t of pass 0: leaky (A_t s1 + b1), A_t the adjacency slab fetched there. -/
def hslab (c : Dev nD) (t : Fin cfg0.N) : Vec F S400x64 .f32 := k0_pay2 (iblk m c 5 t) (s1v m c) (iblk m c 2 t)

/-- A 10000 x 64 array with its rows o .. o + 399 replaced by the 400 x 64 slab S: row r of the slab lands on row
    o + r; every other row keeps what Y has. -/
def rowsPut (o : Nat) (Y : Vec F S10000x64 .f32) (S : Vec F S400x64 .f32) : Vec F S10000x64 .f32 :=
  fun y => if h : o ≤ (y 0).val ∧ (y 0).val < o + 400 then
      S (ValueIdx.ix2 (⟨(y 0).val - o, by omega⟩ : Fin 400) (⟨(y 1).val, (y 1).isLt⟩ : Fin 64))
    else Y y

/-- What window 6's buffer holds after point t of pass 0 if it held Y before: rows 400 t .. 400 t + 399 are the
    slab, every other row is as it was. -/
def hstep (c : Dev nD) (t : Fin cfg0.N) (Y : Vec F S10000x64 .f32) : Vec F S10000x64 .f32 :=
  rowsPut (400 * t.val) Y (hslab m c t)

/-- h whole: row r is row r % 400 of the slab stored at point r / 400. -/
def hfull (c : Dev nD) : Vec F S10000x64 .f32 :=
  fun y => hslab m c (⟨(y 0).val / 400, by have h : (y 0).val < 10000 := (y 0).isLt; show (y 0).val / 400 < 50; omega⟩ : Fin cfg0.N)
    (ValueIdx.ix2 (⟨(y 0).val % 400, Nat.mod_lt _ (by decide)⟩ : Fin 400) (⟨(y 1).val, (y 1).isLt⟩ : Fin 64))

/-- s2 = h W2, as the body computes it at point 25. -/
def s2v (c : Dev nD) : Vec F S10000x40 .f32 := k0_pay3 (hfull m c) (iblk m c 3 tC)

/-- The slab of the result the body stores at point t of pass 1: softmax over each row of A_t s2 + b2. -/
def oslab (c : Dev nD) (t : Fin cfg0.N) : Vec F S400x40 .f32 := k0_pay4 (iblk m c 5 t) (s2v m c) (iblk m c 4 t)

/-- The result whole: row r is row r % 400 of the slab stored at point 25 + r / 400. -/
def ofull (c : Dev nD) : Vec F S10000x40 .f32 :=
  fun y => oslab m c (⟨25 + (y 0).val / 400, by have h : (y 0).val < 10000 := (y 0).isLt; show 25 + (y 0).val / 400 < 50; omega⟩ : Fin cfg0.N)
    (ValueIdx.ix2 (⟨(y 0).val % 400, Nat.mod_lt _ (by decide)⟩ : Fin 400) (⟨(y 1).val, (y 1).isLt⟩ : Fin 40))

/-- The body's invariant before point t: the first scratch buffer holds s1 from point 1 on, the second holds s2
    from point 26 on; before that each holds something; and the generator register holds something. -/
def Phi (c : Dev nD) (t : Fin (cfg0.N + 1)) : sProp 𝕄 :=
  iprop((if t.val = 0 then iprop(∃ d, owns (c : Thread nD τ) scM0 fullShare d) else owns (c : Thread nD τ) scM0 fullShare (s1v m c))
    ∗ (if t.val ≤ 25 then iprop(∃ d, owns (c : Thread nD τ) scM1 fullShare d) else owns (c : Thread nD τ) scM1 fullShare (s2v m c))
    ∗ (∃ r, prngReg c r))

/-- The proof data: every input's buffer is left as found; window 6's buffer takes the slab in pass 0 and is left
    as found in pass 1; window 7's is left as found in pass 0 and holds the result's slab in pass 1. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => if t.val < 25 then X = hstep m c t Y else X = Y
    | ⟨7, _⟩ => fun Y X => if t.val < 25 then X = Y else X = oslab m c t
  Φ := Phi m c
  q _ := fullShare
  owed _ := 0

theorem A_eq (c : Dev nD) (w : Fin cfg0.W) : (rdat m c).A w = V m c (Pipeline.arrRef spec0 w) := by
  dsimp only [rdat]

theorem after_in0 (c : Dev nD) (t : Fin cfg0.N) (Y X) : (rdat m c).after 0 t Y X ↔ X = Y := by dsimp only [rdat]; exact Iff.rfl
theorem after_in1 (c : Dev nD) (t : Fin cfg0.N) (Y X) : (rdat m c).after 1 t Y X ↔ X = Y := by dsimp only [rdat]; exact Iff.rfl
theorem after_in2 (c : Dev nD) (t : Fin cfg0.N) (Y X) : (rdat m c).after 2 t Y X ↔ X = Y := by dsimp only [rdat]; exact Iff.rfl
theorem after_in3 (c : Dev nD) (t : Fin cfg0.N) (Y X) : (rdat m c).after 3 t Y X ↔ X = Y := by dsimp only [rdat]; exact Iff.rfl
theorem after_in4 (c : Dev nD) (t : Fin cfg0.N) (Y X) : (rdat m c).after 4 t Y X ↔ X = Y := by dsimp only [rdat]; exact Iff.rfl
theorem after_in5 (c : Dev nD) (t : Fin cfg0.N) (Y X) : (rdat m c).after 5 t Y X ↔ X = Y := by dsimp only [rdat]; exact Iff.rfl
theorem after_6 (c : Dev nD) (t : Fin cfg0.N) (Y X : Vec F S10000x64 .f32) :
    (rdat m c).after 6 t Y X ↔ (if t.val < 25 then X = hstep m c t Y else X = Y) := by dsimp only [rdat]; exact Iff.rfl
theorem after_7 (c : Dev nD) (t : Fin cfg0.N) (Y X : Vec F S400x40 .f32) :
    (rdat m c).after 7 t Y X ↔ (if t.val < 25 then X = Y else X = oslab m c t) := by dsimp only [rdat]; exact Iff.rfl

end Cert.Kernel.Hand

end
-- ==== Proof.KSched.lean ====
/-
  The schedule of the 50 grid points in closed form, each fact decided over the grid.
  Point t has coordinates (t / 25, t % 25). The body's four conditions: "first point of pass 0" holds at t = 0 only,
  "pass 0" at t < 25, "first point of pass 1" at t = 25 only, "pass 1" at 25 <= t. In pass 0 the slab's row offset is
  400 t. Windows 0..4 (whole-array blocks that never move) are fetched at point 0 only; window 5 (the adjacency slab)
  at every point; window 6 (block = whole array) is written back after the last point only; window 7's block index is
  0 through pass 0 and t - 25 in pass 1, so it is written back exactly after the points of pass 1.
-/
import proofs.«180651_g84250078479004_cont_9to1_m_1348_24_alg».proof.Proof.KData

set_option maxRecDepth 16384

noncomputable section

namespace Cert.Kernel.Hand

open Idealize.ShloMosaic Idealize.ShloMosaic.TcCoe
open Idealize.SL Idealize.SL.Sem
open Cert.Kernel Cert.Kernel.Gen

/-- "First point of pass 0", as the body computes it from the coordinates. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First point of pass 1", as the body computes it from the coordinates. -/
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1

theorem hcondA : ∀ t : Fin cfg0.N, condA (grid0.coords t) ↔ t.val = 0 :=
  (by decide +kernel : ∀ t : Fin grid0.N, condA (grid0.coords t) ↔ t.val = 0)
theorem hcond2 : ∀ t : Fin cfg0.N, k0_cond2 (grid0.coords t) = 1#1 ↔ t.val < 25 :=
  (by decide +kernel : ∀ t : Fin grid0.N, k0_cond2 (grid0.coords t) = 1#1 ↔ t.val < 25)
theorem hcondC : ∀ t : Fin cfg0.N, condC (grid0.coords t) ↔ t.val = 25 :=
  (by decide +kernel : ∀ t : Fin grid0.N, condC (grid0.coords t) ↔ t.val = 25)
theorem hcond4 : ∀ t : Fin cfg0.N, k0_cond4 (grid0.coords t) = 1#1 ↔ 25 ≤ t.val :=
  (by decide +kernel : ∀ t : Fin grid0.N, k0_cond4 (grid0.coords t) = 1#1 ↔ 25 ≤ t.val)

/-- In pass 0 the slab stored at point t starts at row 400 t, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The windows' fetches and write-backs. -/
theorem fetch_in : ∀ (w : Fin cfg0.W), w.val < 5 → ∀ t : Fin cfg0.N, (cfg0.win w).fetch t = true ↔ t.val = 0 :=
  (by decide +kernel : ∀ (w : Fin 8), w.val < 5 → ∀ t : Fin grid0.N, (win0 w).fetch t = true ↔ t.val = 0)
theorem fetch_5 : ∀ t : Fin cfg0.N, (cfg0.win 5).fetch t = true := fetch0_5
theorem fetch_6 : ∀ t : Fin cfg0.N, (cfg0.win 6).fetch t = false :=
  (by decide +kernel : ∀ t : Fin grid0.N, win0_6.fetch t = false)
theorem fetch_7 : ∀ t : Fin cfg0.N, (cfg0.win 7).fetch t = false :=
  (by decide +kernel : ∀ t : Fin grid0.N, win0_7.fetch t = false)
theorem flush_6 : ∀ t : Fin cfg0.N, (cfg0.win 6).flush t = true ↔ t.val = 49 :=
  (by decide +kernel : ∀ t : Fin grid0.N, win0_6.flush t = true ↔ t.val = 49)
theorem flush_7 : ∀ t : Fin cfg0.N, (cfg0.win 7).flush t = true ↔ 25 ≤ t.val :=
  (by decide +kernel : ∀ t : Fin grid0.N, win0_7.flush t = true ↔ 25 ≤ t.val)
/-- Window 7's block index: 0 through pass 0, t - 25 in pass 1 (rows 400 (t - 25) .. of the result). -/
theorem index_7 : ∀ t : Fin cfg0.N, (cfg0.win 7).index t = ![t.val - 25, 0] :=
  (by decide +kernel : ∀ t : Fin grid0.N, win0_7.index t = ![t.val - 25, 0])
theorem index_6 : ∀ t : Fin cfg0.N, (cfg0.win 6).index t = ![0, 0] :=
  (by decide +kernel : ∀ t : Fin grid0.N, win0_6.index t = ![0, 0])

end Cert.Kernel.Hand

end
-- ==== Proof.KFinds.lean ====
/-
  What the body may find in, and leave in, each window's staging buffer, read off the relational proof data.

  An input's relation leaves its buffer as found, so wherever the body is handed it the buffer holds what a fetch there
  would put in it, which for these uncut windows is the window's block: fetched at that point or not, since an
  unfetched window's block index has not moved.
  Window 6's buffer may hold anything before point 0. Each point t of pass 0 replaces rows 400 t .. 400 t + 399 by the
  slab and keeps the rest, and the buffer is neither fetched into nor written back before the last point; so by
  induction on t the rows below 400 t are h's, row r being row r % 400 of the slab of point r / 400. At t = 25 that is
  every row. Pass 1 leaves the buffer as found, so it is h whole at every later point, and so is what the body leaves.
  Window 7's relation in pass 1 names the slab the body stores, whatever it found.
-/
import proofs.«180651_g84250078479004_cont_9to1_m_1348_24_alg».proof.Proof.KSched
import Idealize.ShloMosaic.Lib.Pipeline.FrameBody
import Idealize.ShloMosaic.Lib.Pipeline.Value
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

variable (m : (ℓ : Loc nD τ sig) → Buf (Elt F) ℓ)

/-- An index inside the slab that starts at row o reads the slab there. -/
theorem finds_aux_put_in (o : Nat) (Y : Vec F S10000x64 .f32) (S : Vec F S400x64 .f32) (y : S10000x64.Idx)
    (h : o ≤ (y 0).val ∧ (y 0).val < o + 400) :
    rowsPut o Y S y = S (ValueIdx.ix2 (⟨(y 0).val - o, by omega⟩ : Fin 400) (⟨(y 1).val, (y 1).isLt⟩ : Fin 64)) := by
  unfold rowsPut
  exact dif_pos h

/-- An index outside the slab that starts at row o keeps what the array had. -/
theorem finds_aux_put_out (o : Nat) (Y : Vec F S10000x64 .f32) (S : Vec F S400x64 .f32) (y : S10000x64.Idx)
    (h : ¬ (o ≤ (y 0).val ∧ (y 0).val < o + 400)) : rowsPut o Y S y = Y y := by
  unfold rowsPut
  exact dif_neg h

/-- Row r with 400 t ≤ r < 400 t + 400 of h is row r - 400 t of the slab of point t: r / 400 = t and r % 400 = r - 400 t. -/
theorem finds_aux_slab (c : Dev nD) (t : Fin cfg0.N) (y : S10000x64.Idx) (h1 : 400 * t.val ≤ (y 0).val)
    (h2 : (y 0).val < 400 * t.val + 400) (hlt : (y 0).val - 400 * t.val < 400) :
    hslab m c t (ValueIdx.ix2 (⟨(y 0).val - 400 * t.val, hlt⟩ : Fin 400) (⟨(y 1).val, (y 1).isLt⟩ : Fin 64)) = hfull m c y := by
  unfold hfull
  have h0 : (y 0).val < 10000 := (y 0).isLt
  have e1 : ∀ (p : (y 0).val / 400 < cfg0.N), (⟨(y 0).val / 400, p⟩ : Fin cfg0.N) = t := fun p => Fin.ext (by show (y 0).val / 400 = t.val; omega)
  have e2 : ∀ (p : (y 0).val % 400 < 400), (⟨(y 0).val % 400, p⟩ : Fin 400) = ⟨(y 0).val - 400 * t.val, hlt⟩ :=
    fun p => Fin.ext (by show (y 0).val % 400 = (y 0).val - 400 * t.val; omega)
  rw [e1, e2]

/-- By induction on the point: what window 6's buffer may hold at point n ≤ 25 is h on the rows below 400 n. At point 0
    there is no such row. At point n + 1 the buffer is what the body left at point n: the slab of point n on rows
    400 n .. 400 n + 399 (those rows of h), and on the rows below what it found at point n (the induction hypothesis). -/
theorem finds_aux_rows (c : Dev nD) : ∀ (n : Nat) (t : Fin cfg0.N), t.val = n → n ≤ 25 → ∀ (Y : Vec F S10000x64 .f32),
    (rdat m c).Finds 6 t Y → ∀ y : S10000x64.Idx, (y 0).val < 400 * n → Y y = hfull m c y := by
  intro n
  induction n with
  | zero => intro t _ _ Y _ y hy; omega
  | succ n ih =>
    intro t ht hle Y h y hy
    have hN : t.val < 50 := lt_of_lt_of_eq t.isLt (show cfg0.N = 50 from N_0)
    have key := ((rdat m c).finds_of_pos (fetch_6 t) (by omega) Y).mp h
    generalize ht' : (⟨t.val - 1, Nat.lt_of_le_of_lt (Nat.sub_le _ _) t.isLt⟩ : Fin cfg0.N) = t' at key
    have hv : t'.val = n := by rw [← ht']; show t.val - 1 = n; omega
    rcases key with hfl | ⟨Y', hY', hR⟩
    · have h49 := (flush_6 t').mp hfl
      omega
    · have hR' := (after_6 m c t' Y' Y).mp hR
      rw [if_pos (by omega : t'.val < 25)] at hR'
      rw [hR']
      unfold hstep
      by_cases hin : 400 * t'.val ≤ (y 0).val
      · have hin' : 400 * t'.val ≤ (y 0).val ∧ (y 0).val < 400 * t'.val + 400 := ⟨hin, by omega⟩
        rw [finds_aux_put_in (400 * t'.val) Y' (hslab m c t') y hin']
        exact finds_aux_slab m c t' y hin hin'.2 _
      · rw [finds_aux_put_out (400 * t'.val) Y' (hslab m c t') y (fun hh => hin hh.1)]
        exact ih t' hv (by omega) Y' hY' y (by omega)

/-- From point 25 on window 6's buffer may hold h only: at point 25 every row is below 400 * 25; a later point finds
    what the body left at the point before, which in pass 1 is what it found there. -/
theorem finds_aux_full (c : Dev nD) : ∀ (k : Nat) (t : Fin cfg0.N), t.val = 25 + k → ∀ (Y : Vec F S10000x64 .f32),
    (rdat m c).Finds 6 t Y → Y = hfull m c := by
  intro k
  induction k with
  | zero =>
    intro t ht Y h
    funext y
    have h0 : (y 0).val < 10000 := (y 0).isLt
    exact finds_aux_rows m c 25 t ht (le_refl _) Y h y (by omega)
  | succ k ih =>
    intro t ht Y h
    have hN : t.val < 50 := lt_of_lt_of_eq t.isLt (show cfg0.N = 50 from N_0)
    have key := ((rdat m c).finds_of_pos (fetch_6 t) (by omega) Y).mp h
    generalize ht' : (⟨t.val - 1, Nat.lt_of_le_of_lt (Nat.sub_le _ _) t.isLt⟩ : Fin cfg0.N) = t' at key
    have hv : t'.val = 25 + k := by rw [← ht']; show t.val - 1 = 25 + k; omega
    rcases key with hfl | ⟨Y', hY', hR⟩
    · have h49 := (flush_6 t').mp hfl
      omega
    · have hR' := (after_6 m c t' Y' Y).mp hR
      rw [if_neg (by omega : ¬ t'.val < 25)] at hR'
      rw [hR']
      exact ih t' hv Y' hY'

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after_in0 m c t Y X).mp h) t Y h
  rw [hd]; unfold RDat.fetched RDat.blockOf iblk; rw [A_eq]; try rfl

theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after_in1 m c t Y X).mp h) t Y h
  rw [hd]; unfold RDat.fetched RDat.blockOf iblk; rw [A_eq]; try rfl

theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after_in2 m c t Y X).mp h) t Y h
  rw [hd]; unfold RDat.fetched RDat.blockOf iblk; rw [A_eq]; try rfl

theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after_in3 m c t Y X).mp h) t Y h
  rw [hd]; unfold RDat.fetched RDat.blockOf iblk; rw [A_eq]; try rfl

theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => (after_in4 m c t Y X).mp h) t Y h
  rw [hd]; unfold RDat.fetched RDat.blockOf iblk; rw [A_eq]; try rfl

theorem finds_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => (after_in5 m c t Y X).mp h) t Y h
  rw [hd]; unfold RDat.fetched RDat.blockOf iblk; rw [A_eq]; try rfl

theorem finds6_rows (c : Dev nD) (t : Fin cfg0.N) (ht : t.val ≤ 25) (Y : Vec F S10000x64 .f32) (h : (rdat m c).Finds 6 t Y) :
    ∀ y : S10000x64.Idx, (y 0).val < 400 * t.val → Y y = hfull m c y := by
  exact finds_aux_rows m c t.val t rfl ht Y h

theorem finds6_full (c : Dev nD) (t : Fin cfg0.N) (ht : 25 ≤ t.val) (Y : Vec F S10000x64 .f32) (h : (rdat m c).Finds 6 t Y) : Y = hfull m c := by
  exact finds_aux_full m c (t.val - 25) t (by omega) Y h

theorem leaves6_full (c : Dev nD) (t : Fin cfg0.N) (ht : 25 ≤ t.val) (X : Vec F S10000x64 .f32) (h : (rdat m c).Leaves 6 t X) : X = hfull m c := by
  obtain ⟨Y, hY, hR⟩ := h
  have hR' := (after_6 m c t Y X).mp hR
  rw [if_neg (by omega : ¬ t.val < 25)] at hR'
  rw [hR']
  exact finds6_full m c t ht Y hY

theorem leaves7 (c : Dev nD) (t : Fin cfg0.N) (ht : 25 ≤ t.val) (X : Vec F S400x40 .f32) (h : (rdat m c).Leaves 7 t X) : X = oslab m c t := by
  obtain ⟨Y, hY, hR⟩ := h
  have hR' := (after_7 m c t Y X).mp hR
  rw [if_neg (by omega : ¬ t.val < 25)] at hR'
  exact hR'

end Cert.Kernel.Hand

end
-- ==== Proof.KRunP0.lean ====
/-
  The body in its two pass-0 cases, over any whole memrefs.
  At the first point the body stores s1 = y W1 whole into the first scratch buffer and reads it back; at every point
  of pass 0 it stores the 400 x 64 slab leaky (A_t s1 + b1) into rows o .. o + 399 of window 6's 10000 x 64 buffer,
  o the offset it computes from the point. A load through a rectangle that starts at the origin and spans the buffer
  reads the buffer's contents; a store through such a rectangle leaves exactly the stored value. The slab store is
  partial: read back entry by entry, a row inside [o, o + 400) holds the slab's row at the local index, every other
  row what the buffer held before. Window 7's buffer and the second scratch buffer are not touched.
-/
import proofs.«180651_g84250078479004_cont_9to1_m_1348_24_alg».proof.Proof.KSched
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-! The body at a point of pass 0. It loads the adjacency slab, the first scratch buffer and the bias row and stores
the 400 x 64 slab  leaky (A_t s + b1)  into rows o .. o + 399 of the 10000 x 64 staging buffer, o the row offset
computed from the point's second coordinate; the other rows keep what they held. At the first point of pass 0 it first
stores  s1 = y W1  whole into the first scratch buffer, and the slab is computed from that buffer read back, that is
from s1. Every other buffer is left as found. -/

/-- The two zero offsets are the zero offset vector. -/
theorem run_zero2 : (![0, 0] : Fin 2 → ℕ) = fun _ => 0 := by
  funext a; match a with | ⟨0, _⟩ => rfl | ⟨1, _⟩ => rfl

/-- A load of a whole buffer through the whole-shape rectangle at zero offsets reads the contents the buffer holds. -/
theorem run_readAt_whole {S : Shape} {M : Memref sig .tc .vmem S .f32} (h : M.IsWhole) {off : Fin S.rank → ℕ}
    (hz : off = fun _ => 0) (inb : ∀ a, off a + S.size a ≤ S.size a) (x : Vec F S .f32) :
    View.readAt (Elt F) M.view (Rect.unit off S.size inb).toLoadRect (h.unread x) = x := by
  show View.readAt (Elt F) M.view (Rect.unit off S.size inb) (h.unread x) = x
  rw [View.readAt_eq_ld, h.read_unread]
  subst hz
  funext j
  show x ((Rect.whole S).emb j) = x j
  rw [Rect.emb_whole_apply]

/-- A store of a slab of 400 whole rows at row offset o into a whole 10000 x 64 buffer holding Y leaves Y with rows
    o .. o + 399 replaced by the slab. -/
theorem run_read_rowsPut {M : Memref sig .tc .vmem S10000x64 .f32} (h : M.IsWhole) {off : Fin 2 → ℕ}
    (hoff : off = ![off 0, 0]) (inb : ∀ a, off a + S400x64.size a ≤ S10000x64.size a)
    (Y : Vec F S10000x64 .f32) (w : Vec F S400x64 .f32) :
    View.read (Elt F) M.view (M.view.writes (Elt F) (h.unread Y)
        [(⟨Rect.unit (s := S10000x64) off S400x64.size inb, w⟩ : View.Piece (Elt F) S10000x64 .f32)])
      = rowsPut (off 0) Y w := by
  funext y
  rw [View.read_writes_cons_rows M.view (h.unread Y) inb w [] y hoff (W := 400) rfl rfl]
  unfold rowsPut
  by_cases hr : off 0 ≤ (y 0).val ∧ (y 0).val < off 0 + 400
  · rw [dif_pos hr, dif_pos hr]
    congr 1
    funext a
    match a with
    | ⟨0, _⟩ => exact Fin.ext rfl
    | ⟨1, _⟩ => exact Fin.ext (Nat.sub_zero _)
  · rw [dif_neg hr, dif_neg hr, View.writes_nil, h.read_unread]

/-- A store through the whole-shape rectangle at zero offsets leaves its payload, whatever the buffer held. -/
theorem run_read_whole_store {S : Shape} {M : Memref sig .tc .vmem S .f32} {off : Fin S.rank → ℕ}
    (hz : off = fun _ => 0) (inb : ∀ a, off a + S.size a ≤ S.size a) (f : M.view.ty.Contents (Elt F))
    (w : Vec F S .f32) :
    View.read (Elt F) M.view (M.view.writes (Elt F) f
        [(⟨Rect.unit off S.size inb, w⟩ : View.Piece (Elt F) S .f32)]) = w := by
  funext y
  exact View.read_writes_cons_unit_of_mem M.view f inb w [] y y hz fun a => (Nat.zero_add _).symm

set_option maxHeartbeats 1000000 in
theorem runA (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : condA i) (hc1 : k0_cond2 i = 1#1) (hc2 : ¬condC i) (hc3 : ¬(k0_cond4 i = 1#1))
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rowsPut ((k0_off1 i) 0) y6 (k0_pay2 x5 (k0_pay1 x0 x1) x2)) ∗ owns (c : Thread nD τ) arg9 fullShare y7 ∗ owns (c : Thread nD τ) arg10 fullShare (k0_pay1 x0 x1) ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
  intro E K
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_run_names
    rw [View.readCov_cons_toLoadRect, run_readAt_whole harg7 run_zero2, run_readAt_whole harg2 run_zero2,
      run_readAt_whole harg3 run_zero2, run_readAt_whole harg4 run_zero2]
    exact run_read_rowsPut harg8 (by funext a; match a with | ⟨0, _⟩ => rfl | ⟨1, _⟩ => rfl) _ y6 _
  isplitl [H7]
  · iexists _; isplitr; · ipureintro; exact harg9.read_unread _
    iexact H7
  isplitl [HS0]
  · iexists _; isplitr; swap; · iexact HS0
    ipureintro
    sl_unfold_run_names
    rw [run_readAt_whole harg2 run_zero2, run_readAt_whole harg3 run_zero2]
    exact run_read_whole_store run_zero2 _ fs0 _
  · iexists _, _; isplitr; swap; · iexact HS1
    ipureintro; rfl

set_option maxHeartbeats 1000000 in
theorem runB (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : k0_cond2 i = 1#1) (hc2 : ¬condC i) (hc3 : ¬(k0_cond4 i = 1#1))
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rowsPut ((k0_off1 i) 0) y6 (k0_pay2 x5 s0 x2)) ∗ owns (c : Thread nD τ) arg9 fullShare y7 ∗ owns (c : Thread nD τ) arg10 fullShare s0 ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
  intro E K
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hfs0
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [run_readAt_whole harg7 run_zero2, run_readAt_whole harg10 run_zero2, run_readAt_whole harg4 run_zero2]
    exact run_read_rowsPut harg8 (by funext a; match a with | ⟨0, _⟩ => rfl | ⟨1, _⟩ => rfl) _ y6 _
  isplitl [H7]
  · iexists _; isplitr; · ipureintro; exact harg9.read_unread _
    iexact H7
  isplitl [HS0]
  · iexists _; isplitr; · ipureintro; exact harg10.read_unread _
    iexact HS0
  · iexists _, _; isplitr; swap; · iexact HS1
    ipureintro; rfl

end Cert.Kernel.Hand

end
-- ==== Proof.KRunP1.lean ====
/-
  The body in its two pass-1 cases, over any whole memrefs.
  At the first point of pass 1 the body reads window 6's buffer whole (which holds h), stores s2 = h W2 whole into
  the second scratch buffer, reads it back, and stores the result's slab (the row softmax of A_t s2 + b2) whole into
  window 7's buffer; at a later point of pass 1 only the last of these. A load through a rectangle that starts at
  the origin and spans the buffer reads the buffer's contents; a store through such a rectangle leaves exactly the
  stored value, and a load after it reads that value. Window 6's buffer and the first scratch buffer are not stored
  into and are handed back as they were.
-/
import proofs.«180651_g84250078479004_cont_9to1_m_1348_24_alg».proof.Proof.KSched
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The offset vector of a rectangle that starts at row 0, column 0 is the zero vector. -/
theorem runP1_zero2 : (![0, 0] : Fin 2 → ℕ) = fun _ => 0 := by
  funext a
  match a with
  | ⟨0, _⟩ => rfl
  | ⟨1, _⟩ => rfl

/-- A load of a whole buffer through the rectangle of the buffer's own sizes at zero offsets reads exactly what the
    buffer holds: that rectangle's index map is the identity. -/
theorem runP1_readAt_whole {S : Shape} (M : Memref sig .tc .vmem S .f32) (hM : M.IsWhole) {off : Fin S.rank → ℕ}
    (hz : off = fun _ => 0) (inb : ∀ a, off a + S.size a ≤ S.size a) (x : Vec F S .f32) :
    View.readAt (Elt F) M.view (Rect.unit off S.size inb).toLoadRect (hM.unread x) = x := by
  subst hz
  rw [View.readAt_eq_ld, hM.read_unread]
  funext y
  show x ((Rect.whole S).emb y) = x y
  rw [Rect.emb_whole_apply]

/-- One store through the rectangle of the buffer's own sizes at zero offsets replaces everything: whatever the buffer
    held before, index y now reads the stored value at y (its position within the rectangle is y itself). -/
theorem runP1_read_store_whole {S : Shape} (M : Memref sig .tc .vmem S .f32) {off : Fin S.rank → ℕ}
    (hz : off = fun _ => 0) (inb : ∀ a, off a + S.size a ≤ S.size a) (f : M.view.ty.Contents (Elt F))
    (w : Vec F S .f32) :
    View.read (Elt F) M.view (M.view.writes (Elt F) f [⟨Rect.unit off S.size inb, w⟩]) = w := by
  funext y
  exact View.read_writes_cons_unit_of_mem M.view f inb w [] y y hz (fun a => (Nat.zero_add _).symm)

set_option maxHeartbeats 1000000 in
theorem runC (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : ¬(k0_cond2 i = 1#1)) (hc2 : condC i) (hc3 : k0_cond4 i = 1#1)
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay4 x5 (k0_pay3 y6 x3) x4) ∗ owns (c : Thread nD τ) arg10 fullShare s0 ∗ owns (c : Thread nD τ) arg11 fullShare (k0_pay3 y6 x3)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0
    sl_exec (disch := first | exact hc0 | exact hc1 | exact hc2 | exact hc3)
    sl_step
    iapply Hk
    -- the six inputs, the first result buffer and the first scratch buffer are only read: each is handed back as found
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- the second result buffer: one whole store of the softmax slab, computed from the adjacency slab, from s2 read back
    -- out of the second scratch buffer right after it was stored there, and from the second bias row
    isplitl [H7]
    · iexists _; isplitr; swap; · iexact H7
      ipureintro
      sl_unfold_run_names
      rw [runP1_read_store_whole arg9 runP1_zero2, runP1_readAt_whole arg7 harg7 runP1_zero2, View.readCov_cons_toLoadRect,
        runP1_readAt_whole arg8 harg8 runP1_zero2, runP1_readAt_whole arg5 harg5 runP1_zero2,
        runP1_readAt_whole arg6 harg6 runP1_zero2]
    isplitl [HS0]
    · iexists _; isplitr; · ipureintro; exact harg10.read_unread _
      iexact HS0
    -- the second scratch buffer: one whole store of s2 = h W2 over whatever it held
    iexists _; isplitr; swap; · iexact HS1
    ipureintro
    sl_unfold_run_names
    rw [runP1_read_store_whole arg11 runP1_zero2, runP1_readAt_whole arg8 harg8 runP1_zero2,
      runP1_readAt_whole arg5 harg5 runP1_zero2]

set_option maxHeartbeats 1000000 in
theorem runD (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : ¬(k0_cond2 i = 1#1)) (hc2 : ¬condC i) (hc3 : k0_cond4 i = 1#1)
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) (s1 : Vec F S10000x40 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay4 x5 s1 x4) ∗ owns (c : Thread nD τ) arg10 fullShare s0 ∗ owns (c : Thread nD τ) arg11 fullShare s1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | exact hc0 | exact hc1 | exact hc2 | exact hc3)
    sl_step
    iapply Hk
    -- the six inputs, the first result buffer and the first scratch buffer are only read: each is handed back as found
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- the second result buffer: one whole store of the softmax slab, computed from the adjacency slab, from s2 as the
    -- second scratch buffer holds it, and from the second bias row
    isplitl [H7]
    · iexists _; isplitr; swap; · iexact H7
      ipureintro
      rw [runP1_read_store_whole arg9 runP1_zero2, runP1_readAt_whole arg7 harg7 runP1_zero2,
        runP1_readAt_whole arg11 harg11 runP1_zero2, runP1_readAt_whole arg6 harg6 runP1_zero2]
    isplitl [HS0]
    · iexists _; isplitr; · ipureintro; exact harg10.read_unread _
      iexact HS0
    -- the second scratch buffer is only read
    iexists _; isplitr; · ipureintro; exact harg11.read_unread _
    iexact HS1

end Cert.Kernel.Hand

end
-- ==== Proof.KBody.lean ====
/-
  The body obligation of the relational proof data: at every point t, handed each window's buffer at contents the
  pipeline may then hold there, the body runs to the next point's invariant and leaves each buffer in the stated
  relation to what it was handed.
  What the body is handed: each input buffer holds its block (whatever the point, fetched there or not); window 6's
  buffer holds h whole from point 25 on. Which of the body's four conditions hold is decided by where t lies:
  t = 0 (both pass-0 branches), 0 < t < 25 (the slab store alone), t = 25 (both pass-1 branches), t > 25 (the result
  slab alone). The first scratch buffer holds s1 from point 1 on and the second s2 from point 26 on: point 0 and
  point 25 are where the invariant changes, and there the stored payload is s1 (resp. s2) because the point is the
  one the definition names and, at 25, because the buffer read is h.
-/
import proofs.«180651_g84250078479004_cont_9to1_m_1348_24_alg».proof.Proof.KFinds
import proofs.«180651_g84250078479004_cont_9to1_m_1348_24_alg».proof.Proof.KRunP0
import proofs.«180651_g84250078479004_cont_9to1_m_1348_24_alg».proof.Proof.KRunP1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The invariant before point 0: both scratch buffers hold something. -/
theorem Phi_first (c : Dev nD) (t : Fin (cfg0.N + 1)) (h : t.val = 0) :
    Phi m c t = iprop((∃ d, owns (c : Thread nD τ) scM0 fullShare d) ∗ (∃ d, owns (c : Thread nD τ) scM1 fullShare d) ∗ (∃ r, prngReg c r)) := by
  unfold Phi; rw [if_pos h, if_pos (by omega)]
/-- Before a point 1..25: the first holds s1. -/
theorem Phi_mid (c : Dev nD) (t : Fin (cfg0.N + 1)) (h0 : t.val ≠ 0) (h1 : t.val ≤ 25) :
    Phi m c t = iprop(owns (c : Thread nD τ) scM0 fullShare (s1v m c) ∗ (∃ d, owns (c : Thread nD τ) scM1 fullShare d) ∗ (∃ r, prngReg c r)) := by
  unfold Phi; rw [if_neg h0, if_pos h1]
/-- Before a point past 25: the second holds s2 as well. -/
theorem Phi_late (c : Dev nD) (t : Fin (cfg0.N + 1)) (h1 : 25 < t.val) :
    Phi m c t = iprop(owns (c : Thread nD τ) scM0 fullShare (s1v m c) ∗ owns (c : Thread nD τ) scM1 fullShare (s2v m c) ∗ (∃ r, prngReg c r)) := by
  unfold Phi; rw [if_neg (by omega), if_neg (by omega)]

set_option maxHeartbeats 3200000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7))
    ⊢ wp frame (wpE (defs₀ (F := F)) Variants.none c none) Set.univ (bodyAt0 t) (fun _ =>
      iprop((rdat m c).Φ t.succ ∗ (rdat m c).owesAt () t.succ
      ∗ (∃ X, ⌜(rdat m c).after 0 t (Y 0) X⌝ ∗ owns (c : Thread nD τ) (st0_0 t) fullShare X)
      ∗ (∃ X, ⌜(rdat m c).after 1 t (Y 1) X⌝ ∗ owns (c : Thread nD τ) (st0_1 t) fullShare X)
      ∗ (∃ X, ⌜(rdat m c).after 2 t (Y 2) X⌝ ∗ owns (c : Thread nD τ) (st0_2 t) fullShare X)
      ∗ (∃ X, ⌜(rdat m c).after 3 t (Y 3) X⌝ ∗ owns (c : Thread nD τ) (st0_3 t) fullShare X)
      ∗ (∃ X, ⌜(rdat m c).after 4 t (Y 4) X⌝ ∗ owns (c : Thread nD τ) (st0_4 t) fullShare X)
      ∗ (∃ X, ⌜(rdat m c).after 5 t (Y 5) X⌝ ∗ owns (c : Thread nD τ) (st0_5 t) fullShare X)
      ∗ (∃ X, ⌜(rdat m c).after 6 t (Y 6) X⌝ ∗ owns (c : Thread nD τ) (st0_6 t) fullShare X)
      ∗ (∃ X, ⌜(rdat m c).after 7 t (Y 7) X⌝ ∗ owns (c : Thread nD τ) (st0_7 t) fullShare X))) := by
  unfold bodyAt0
  rw [show (rdat m c).owesAt () t.succ = (rdat m c).owesAt () t.castSucc from rfl]
  rw [show (rdat m c).Φ t.succ = Phi m c t.succ from rfl, show (rdat m c).Φ t.castSucc = Phi m c t.castSucc from rfl]
  have hN : t.val < 50 := lt_of_lt_of_eq t.isLt (show cfg0.N = 50 from N_0)
  have hcs : t.castSucc.val = t.val := rfl
  have hsu : t.succ.val = t.val + 1 := rfl
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5)]
  by_cases h0 : t.val = 0
  · -- point 0: s1 is stored, then the first slab
    obtain rfl : t = tA := Fin.ext h0
    rw [Phi_first m c tA.castSucc rfl, Phi_mid m c tA.succ (by decide) (by decide)]
    iintro ⟨⟨HS0, HS1, Hg⟩, Ho, H0, H1, H2, H3, H4, H5, H6, H7⟩
    iapply ((runA c (grid0.coords tA) _ _ _ _ _ _ _ _ _ _ _ _ _ _ _ _ _ _ _ _ ((hcondA tA).mpr rfl) ((hcond2 tA).mpr (by decide)) (fun h => absurd ((hcondC tA).mp h) (by decide)) (fun h => absurd ((hcond4 tA).mp h) (by decide)) (iblk m c 0 tA) (iblk m c 1 tA) (iblk m c 2 tA) (iblk m c 3 tA) (iblk m c 4 tA) (iblk m c 5 tA) (Y 6) (Y 7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0]; · iexact HS0
      isplitl [HS1]; · iexact HS1
      iexact Hg
    isplitl [Ho]; · iexact Ho
    isplitl [H0]
    · iexists _; isplitr; · ipureintro; exact (after_in0 m c tA _ _).mpr rfl
      iexact H0
    isplitl [H1]
    · iexists _; isplitr; · ipureintro; exact (after_in1 m c tA _ _).mpr rfl
      iexact H1
    isplitl [H2]
    · iexists _; isplitr; · ipureintro; exact (after_in2 m c tA _ _).mpr rfl
      iexact H2
    isplitl [H3]
    · iexists _; isplitr; · ipureintro; exact (after_in3 m c tA _ _).mpr rfl
      iexact H3
    isplitl [H4]
    · iexists _; isplitr; · ipureintro; exact (after_in4 m c tA _ _).mpr rfl
      iexact H4
    isplitl [H5]
    · iexists _; isplitr; · ipureintro; exact (after_in5 m c tA _ _).mpr rfl
      iexact H5
    isplitl [H6]
    · iexists _; isplitr; swap; · iexact H6
      ipureintro; exact (after_6 m c tA _ _).mpr (by rw [if_pos (by decide)]; unfold hstep hslab s1v; rw [off1_eq tA (by decide)]; rfl)
    iexists _; isplitr; swap; · iexact H7
    ipureintro; exact (after_7 m c tA _ _).mpr (by rw [if_pos (by decide)])
  · by_cases h1 : t.val < 25
    · -- a later point of pass 0: one more slab
      rw [Phi_mid m c t.castSucc h0 (by omega), Phi_mid m c t.succ (by omega) (by omega)]
      iintro ⟨⟨HS0, HS1, Hg⟩, Ho, H0, H1, H2, H3, H4, H5, H6, H7⟩
      iapply ((runB c (grid0.coords t) _ _ _ _ _ _ _ _ _ _ _ _ _ _ _ _ _ _ _ _ (fun h => h0 ((hcondA t).mp h)) ((hcond2 t).mpr h1) (fun h => absurd ((hcondC t).mp h) (by omega)) (fun h => absurd ((hcond4 t).mp h) (by omega)) (iblk m c 0 t) (iblk m c 1 t) (iblk m c 2 t) (iblk m c 3 t) (iblk m c 4 t) (iblk m c 5 t) (Y 6) (Y 7) (s1v m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0]; · iexact HS0
        isplitl [HS1]; · iexact HS1
        iexact Hg
      isplitl [Ho]; · iexact Ho
      isplitl [H0]
      · iexists _; isplitr; · ipureintro; exact (after_in0 m c t _ _).mpr rfl
        iexact H0
      isplitl [H1]
      · iexists _; isplitr; · ipureintro; exact (after_in1 m c t _ _).mpr rfl
        iexact H1
      isplitl [H2]
      · iexists _; isplitr; · ipureintro; exact (after_in2 m c t _ _).mpr rfl
        iexact H2
      isplitl [H3]
      · iexists _; isplitr; · ipureintro; exact (after_in3 m c t _ _).mpr rfl
        iexact H3
      isplitl [H4]
      · iexists _; isplitr; · ipureintro; exact (after_in4 m c t _ _).mpr rfl
        iexact H4
      isplitl [H5]
      · iexists _; isplitr; · ipureintro; exact (after_in5 m c t _ _).mpr rfl
        iexact H5
      isplitl [H6]
      · iexists _; isplitr; swap; · iexact H6
        ipureintro; exact (after_6 m c t _ _).mpr (by rw [if_pos h1]; unfold hstep hslab; rw [off1_eq t h1]; rfl)
      iexists _; isplitr; swap; · iexact H7
      ipureintro; exact (after_7 m c t _ _).mpr (by rw [if_pos h1])
    · by_cases h2 : t.val = 25
      · -- point 25: the buffer of window 6 is h; s2 is stored, then the first slab of the result
        obtain rfl : t = tC := Fin.ext h2
        have hY6 : Y 6 = hfull m c := finds6_full m c tC (by decide) (Y 6) (hY 6)
        rw [Phi_mid m c tC.castSucc (by decide) (by decide), Phi_late m c tC.succ (by decide)]
        iintro ⟨⟨HS0, HS1, Hg⟩, Ho, H0, H1, H2, H3, H4, H5, H6, H7⟩
        iapply ((runC c (grid0.coords tC) _ _ _ _ _ _ _ _ _ _ _ _ _ _ _ _ _ _ _ _ (fun h => absurd ((hcondA tC).mp h) (by decide)) (fun h => absurd ((hcond2 tC).mp h) (by decide)) ((hcondC tC).mpr rfl) ((hcond4 tC).mpr (by decide)) (iblk m c 0 tC) (iblk m c 1 tC) (iblk m c 2 tC) (iblk m c 3 tC) (iblk m c 4 tC) (iblk m c 5 tC) (Y 6) (Y 7) (s1v m c)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0]; · iexact HS0
          isplitl [HS1]; · (unfold s2v; rw [← hY6]; iexact HS1)
          iexact Hg
        isplitl [Ho]; · iexact Ho
        isplitl [H0]
        · iexists _; isplitr; · ipureintro; exact (after_in0 m c tC _ _).mpr rfl
          iexact H0
        isplitl [H1]
        · iexists _; isplitr; · ipureintro; exact (after_in1 m c tC _ _).mpr rfl
          iexact H1
        isplitl [H2]
        · iexists _; isplitr; · ipureintro; exact (after_in2 m c tC _ _).mpr rfl
          iexact H2
        isplitl [H3]
        · iexists _; isplitr; · ipureintro; exact (after_in3 m c tC _ _).mpr rfl
          iexact H3
        isplitl [H4]
        · iexists _; isplitr; · ipureintro; exact (after_in4 m c tC _ _).mpr rfl
          iexact H4
        isplitl [H5]
        · iexists _; isplitr; · ipureintro; exact (after_in5 m c tC _ _).mpr rfl
          iexact H5
        isplitl [H6]
        · iexists _; isplitr; swap; · iexact H6
          ipureintro; exact (after_6 m c tC _ _).mpr (by rw [if_neg (by decide)])
        iexists _; isplitr; swap; · iexact H7
        ipureintro; exact (after_7 m c tC _ _).mpr (by rw [if_neg (by decide)]; unfold oslab s2v; rw [← hY6])
      · -- a later point of pass 1: one more slab of the result
        rw [Phi_late m c t.castSucc (by omega), Phi_late m c t.succ (by omega)]
        iintro ⟨⟨HS0, HS1, Hg⟩, Ho, H0, H1, H2, H3, H4, H5, H6, H7⟩
        iapply ((runD c (grid0.coords t) _ _ _ _ _ _ _ _ _ _ _ _ _ _ _ _ _ _ _ _ (fun h => h0 ((hcondA t).mp h)) (fun h => h1 ((hcond2 t).mp h)) (fun h => h2 ((hcondC t).mp h)) ((hcond4 t).mpr (by omega)) (iblk m c 0 t) (iblk m c 1 t) (iblk m c 2 t) (iblk m c 3 t) (iblk m c 4 t) (iblk m c 5 t) (Y 6) (Y 7) (s1v m c) (s2v m c)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0]; · iexact HS0
          isplitl [HS1]; · iexact HS1
          iexact Hg
        isplitl [Ho]; · iexact Ho
        isplitl [H0]
        · iexists _; isplitr; · ipureintro; exact (after_in0 m c t _ _).mpr rfl
          iexact H0
        isplitl [H1]
        · iexists _; isplitr; · ipureintro; exact (after_in1 m c t _ _).mpr rfl
          iexact H1
        isplitl [H2]
        · iexists _; isplitr; · ipureintro; exact (after_in2 m c t _ _).mpr rfl
          iexact H2
        isplitl [H3]
        · iexists _; isplitr; · ipureintro; exact (after_in3 m c t _ _).mpr rfl
          iexact H3
        isplitl [H4]
        · iexists _; isplitr; · ipureintro; exact (after_in4 m c t _ _).mpr rfl
          iexact H4
        isplitl [H5]
        · iexists _; isplitr; · ipureintro; exact (after_in5 m c t _ _).mpr rfl
          iexact H5
        isplitl [H6]
        · iexists _; isplitr; swap; · iexact H6
          ipureintro; exact (after_6 m c t _ _).mpr (by rw [if_neg h1])
        iexists _; isplitr; swap; · iexact H7
        ipureintro; exact (after_7 m c t _ _).mpr (by rw [if_neg h1]; rfl)

/-- The library's body obligation, at every point. -/
theorem body_obligation (c : Dev nD) : (rdat m c).BodyObligation (defs₀ (F := F)) Variants.none () Set.univ := fun t Y hY => by
  rw [bigSep_W0, bigSep_W0]
  exact sound_body m c t Y hY

end Cert.Kernel.Hand

end
-- ==== Proof.KRun.lean ====
/-
  The launch. The pipeline's library theorem for relational proof data with an invariant the certificate tracks
  point by point takes: the body obligation; that the class's own invariant (each scratch buffer at something, the
  generator register at something) gives the tracked invariant before point 0 and is given back by it after the last
  point (there the two scratch buffers hold s1 and s2, which is something); full shares; nothing owed. It concludes
  that every weakly fair execution of @main terminates, each windowed array then holding contents the data allow
  after all write-backs and every other buffer what it held when the region was entered. Read at the six argument
  arrays (four of them staged as inputs, never written; two bypassing the region), that is the frame claim.
-/
import proofs.«180651_g84250078479004_cont_9to1_m_1348_24_alg».proof.Proof.KBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant spelled over the two scratch memrefs: each owned at something, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point 0 the tracked invariant asks no more than the class's. -/
theorem phi_in (c : Dev nD) : (Pipeline.ΦA spec0 c : sProp 𝕄) ⊢ (rdat m c).Φ 0 := by
  rw [PhiA_eq, show (rdat m c).Φ 0 = Phi m c 0 from rfl, Phi_first m c 0 rfl]
  iintro ⟨⟨H0, H1⟩, Hg⟩
  isplitl [H0]; · iexact H0
  isplitl [H1]; · iexact H1
  iexact Hg

/-- After the last point it gives the class's back: s1 and s2 are contents like any other. -/
theorem phi_out (c : Dev nD) : (rdat m c).Φ (Fin.last cfg0.N) ⊢ (Pipeline.ΦA spec0 c : sProp 𝕄) := by
  rw [PhiA_eq, show (rdat m c).Φ (Fin.last cfg0.N) = Phi m c (Fin.last cfg0.N) from rfl,
    Phi_late m c (Fin.last cfg0.N) (by show 25 < cfg0.N; rw [show cfg0.N = 50 from N_0]; decide)]
  iintro ⟨H0, H1, Hg⟩
  isplitl [H0 H1]
  · isplitl [H0]
    · iexists _; iexact H0
    iexists _; iexact H1
  iexact Hg

set_option backward.isDefEq.respectTransparency.types false in
/-- Every weakly fair execution of @main terminates; each windowed array ends at contents the data allow after every
    write-back, every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m)
    (hin := phi_in m) (hout := phi_out m)

/-- The frame claim: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((A_eq m c 0).trans (V_main_arg0 m c)),
      (Pipeline.RDat.FramePost.arr_in h c 5 rfl).trans ((A_eq m c 5).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      (Pipeline.RDat.FramePost.arr_in h c 3 rfl).trans ((A_eq m c 3).trans (V_main_arg4 m c)),
      ((h c).2 main_arg5 (Pipeline.mem_restRefs_of main_arg5 (by decide) (by decide))).trans (V_main_arg5 m c)⟩) (run_main m ρ)

end Cert.Kernel.Hand

end
-- ==== Proof.KIData.lean ====
/-
  The relational proof data of the fused two-layer graph convolution.

  The grid has 50 points: pass 0 (points 0..24) and pass 1 (points 25..49), 25 row slabs of 400 rows each.
  Writing A for the adjacency matrix (window 5, one 400-row slab per point), y, W1, b1, W2, b2 for the other inputs:
    * at point 0 the body stores  s1 = y W1  whole into the first scratch buffer, which it keeps to the end;
    * at point t < 25 it stores rows 400 t .. 400 t + 399 of  h = leaky (A s1 + b1)  into the staging buffer of
      output window 6, whose block is the whole array: the other rows of that buffer stay as they were — before
      point 0 they are whatever the machine left there, so what the buffer holds after a point is a function of what
      it held before, and is stated as a RELATION between the two;
    * at point 25 it reads that buffer whole — by then every slab has been stored, so it is h — and stores
      s2 = h W2  whole into the second scratch buffer;
    * at point t >= 25 it stores the 400-row slab of  softmax (A s2 + b2)  whole into window 7's buffer.
  Window 6 is written back once, after the last point; window 7 after each point of pass 1.
-/
import proofs.«180651_g84250078479004_cont_9to1_m_1348_24_alg».proof.Proof.Gen.KernelIdeal.Frame
import proofs.«180651_g84250078479004_cont_9to1_m_1348_24_alg».proof.Proof.Gen.KernelIdeal.Skeleton
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The first point of pass 0 and the first point of pass 1. -/
abbrev tA : Fin cfg0.N := ⟨0, by decide⟩
abbrev tC : Fin cfg0.N := ⟨25, by decide⟩

/-- The two scratch buffers as memrefs. -/
abbrev scM0 : Memref sig .tc .vmem S10000x64 .f32 := Memref.whole cc0_scratch0
abbrev scM1 : Memref sig .tc .vmem S10000x40 .f32 := Memref.whole cc0_scratch1

/-- s1 = y W1, as the body computes it at point 0 from the blocks of windows 0 and 1 (each the whole array). -/
def s1v (c : Dev nD) : Vec F S10000x64 .f32 := k0_pay1 (iblk m c 0 tA) (iblk m c 1 tA)

/-- The slab of h the body stores at point t of pass 0: leaky (A_t s1 + b1), A_t the adjacency slab fetched there. -/
def hslab (c : Dev nD) (t : Fin cfg0.N) : Vec F S400x64 .f32 := k0_pay2 (iblk m c 5 t) (s1v m c) (iblk m c 2 t)

/-- A 10000 x 64 array with its rows o .. o + 399 replaced by the 400 x 64 slab S: row r of the slab lands on row
    o + r; every other row keeps what Y has. -/
def rowsPut (o : Nat) (Y : Vec F S10000x64 .f32) (S : Vec F S400x64 .f32) : Vec F S10000x64 .f32 :=
  fun y => if h : o ≤ (y 0).val ∧ (y 0).val < o + 400 then
      S (ValueIdx.ix2 (⟨(y 0).val - o, by omega⟩ : Fin 400) (⟨(y 1).val, (y 1).isLt⟩ : Fin 64))
    else Y y

/-- What window 6's buffer holds after point t of pass 0 if it held Y before: rows 400 t .. 400 t + 399 are the
    slab, every other row is as it was. -/
def hstep (c : Dev nD) (t : Fin cfg0.N) (Y : Vec F S10000x64 .f32) : Vec F S10000x64 .f32 :=
  rowsPut (400 * t.val) Y (hslab m c t)

/-- h whole: row r is row r % 400 of the slab stored at point r / 400. -/
def hfull (c : Dev nD) : Vec F S10000x64 .f32 :=
  fun y => hslab m c (⟨(y 0).val / 400, by have h : (y 0).val < 10000 := (y 0).isLt; show (y 0).val / 400 < 50; omega⟩ : Fin cfg0.N)
    (ValueIdx.ix2 (⟨(y 0).val % 400, Nat.mod_lt _ (by decide)⟩ : Fin 400) (⟨(y 1).val, (y 1).isLt⟩ : Fin 64))

/-- s2 = h W2, as the body computes it at point 25. -/
def s2v (c : Dev nD) : Vec F S10000x40 .f32 := k0_pay3 (hfull m c) (iblk m c 3 tC)

/-- The slab of the result the body stores at point t of pass 1: softmax over each row of A_t s2 + b2. -/
def oslab (c : Dev nD) (t : Fin cfg0.N) : Vec F S400x40 .f32 := k0_pay4 (iblk m c 5 t) (s2v m c) (iblk m c 4 t)

/-- The result whole: row r is row r % 400 of the slab stored at point 25 + r / 400. -/
def ofull (c : Dev nD) : Vec F S10000x40 .f32 :=
  fun y => oslab m c (⟨25 + (y 0).val / 400, by have h : (y 0).val < 10000 := (y 0).isLt; show 25 + (y 0).val / 400 < 50; omega⟩ : Fin cfg0.N)
    (ValueIdx.ix2 (⟨(y 0).val % 400, Nat.mod_lt _ (by decide)⟩ : Fin 400) (⟨(y 1).val, (y 1).isLt⟩ : Fin 40))

/-- The body's invariant before point t: the first scratch buffer holds s1 from point 1 on, the second holds s2
    from point 26 on; before that each holds something; and the generator register holds something. -/
def Phi (c : Dev nD) (t : Fin (cfg0.N + 1)) : sProp 𝕄 :=
  iprop((if t.val = 0 then iprop(∃ d, owns (c : Thread nD τ) scM0 fullShare d) else owns (c : Thread nD τ) scM0 fullShare (s1v m c))
    ∗ (if t.val ≤ 25 then iprop(∃ d, owns (c : Thread nD τ) scM1 fullShare d) else owns (c : Thread nD τ) scM1 fullShare (s2v m c))
    ∗ (∃ r, prngReg c r))

/-- The proof data: every input's buffer is left as found; window 6's buffer takes the slab in pass 0 and is left
    as found in pass 1; window 7's is left as found in pass 0 and holds the result's slab in pass 1. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => if t.val < 25 then X = hstep m c t Y else X = Y
    | ⟨7, _⟩ => fun Y X => if t.val < 25 then X = Y else X = oslab m c t
  Φ := Phi m c
  q _ := fullShare
  owed _ := 0

theorem A_eq (c : Dev nD) (w : Fin cfg0.W) : (rdat m c).A w = V m c (Pipeline.arrRef spec0 w) := by
  dsimp only [rdat]

theorem after_in0 (c : Dev nD) (t : Fin cfg0.N) (Y X) : (rdat m c).after 0 t Y X ↔ X = Y := by dsimp only [rdat]; exact Iff.rfl
theorem after_in1 (c : Dev nD) (t : Fin cfg0.N) (Y X) : (rdat m c).after 1 t Y X ↔ X = Y := by dsimp only [rdat]; exact Iff.rfl
theorem after_in2 (c : Dev nD) (t : Fin cfg0.N) (Y X) : (rdat m c).after 2 t Y X ↔ X = Y := by dsimp only [rdat]; exact Iff.rfl
theorem after_in3 (c : Dev nD) (t : Fin cfg0.N) (Y X) : (rdat m c).after 3 t Y X ↔ X = Y := by dsimp only [rdat]; exact Iff.rfl
theorem after_in4 (c : Dev nD) (t : Fin cfg0.N) (Y X) : (rdat m c).after 4 t Y X ↔ X = Y := by dsimp only [rdat]; exact Iff.rfl
theorem after_in5 (c : Dev nD) (t : Fin cfg0.N) (Y X) : (rdat m c).after 5 t Y X ↔ X = Y := by dsimp only [rdat]; exact Iff.rfl
theorem after_6 (c : Dev nD) (t : Fin cfg0.N) (Y X : Vec F S10000x64 .f32) :
    (rdat m c).after 6 t Y X ↔ (if t.val < 25 then X = hstep m c t Y else X = Y) := by dsimp only [rdat]; exact Iff.rfl
theorem after_7 (c : Dev nD) (t : Fin cfg0.N) (Y X : Vec F S400x40 .f32) :
    (rdat m c).after 7 t Y X ↔ (if t.val < 25 then X = Y else X = oslab m c t) := by dsimp only [rdat]; exact Iff.rfl

end Cert.KernelIdeal.Hand

end
-- ==== Proof.KISched.lean ====
/-
  The schedule of the 50 grid points in closed form, each fact decided over the grid.
  Point t has coordinates (t / 25, t % 25). The body's four conditions: "first point of pass 0" holds at t = 0 only,
  "pass 0" at t < 25, "first point of pass 1" at t = 25 only, "pass 1" at 25 <= t. In pass 0 the slab's row offset is
  400 t. Windows 0..4 (whole-array blocks that never move) are fetched at point 0 only; window 5 (the adjacency slab)
  at every point; window 6 (block = whole array) is written back after the last point only; window 7's block index is
  0 through pass 0 and t - 25 in pass 1, so it is written back exactly after the points of pass 1.
-/
import proofs.«180651_g84250078479004_cont_9to1_m_1348_24_alg».proof.Proof.KIData

set_option maxRecDepth 16384

noncomputable section

namespace Cert.KernelIdeal.Hand

open Idealize.ShloMosaic Idealize.ShloMosaic.TcCoe
open Idealize.SL Idealize.SL.Sem
open Cert.KernelIdeal Cert.KernelIdeal.Gen

/-- "First point of pass 0", as the body computes it from the coordinates. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- "First point of pass 1", as the body computes it from the coordinates. -/
abbrev condC (i : grid0.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1

theorem hcondA : ∀ t : Fin cfg0.N, condA (grid0.coords t) ↔ t.val = 0 :=
  (by decide +kernel : ∀ t : Fin grid0.N, condA (grid0.coords t) ↔ t.val = 0)
theorem hcond2 : ∀ t : Fin cfg0.N, k0_cond2 (grid0.coords t) = 1#1 ↔ t.val < 25 :=
  (by decide +kernel : ∀ t : Fin grid0.N, k0_cond2 (grid0.coords t) = 1#1 ↔ t.val < 25)
theorem hcondC : ∀ t : Fin cfg0.N, condC (grid0.coords t) ↔ t.val = 25 :=
  (by decide +kernel : ∀ t : Fin grid0.N, condC (grid0.coords t) ↔ t.val = 25)
theorem hcond4 : ∀ t : Fin cfg0.N, k0_cond4 (grid0.coords t) = 1#1 ↔ 25 ≤ t.val :=
  (by decide +kernel : ∀ t : Fin grid0.N, k0_cond4 (grid0.coords t) = 1#1 ↔ 25 ≤ t.val)

/-- In pass 0 the slab stored at point t starts at row 400 t, column 0. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

/-- The windows' fetches and write-backs. -/
theorem fetch_in : ∀ (w : Fin cfg0.W), w.val < 5 → ∀ t : Fin cfg0.N, (cfg0.win w).fetch t = true ↔ t.val = 0 :=
  (by decide +kernel : ∀ (w : Fin 8), w.val < 5 → ∀ t : Fin grid0.N, (win0 w).fetch t = true ↔ t.val = 0)
theorem fetch_5 : ∀ t : Fin cfg0.N, (cfg0.win 5).fetch t = true := fetch0_5
theorem fetch_6 : ∀ t : Fin cfg0.N, (cfg0.win 6).fetch t = false :=
  (by decide +kernel : ∀ t : Fin grid0.N, win0_6.fetch t = false)
theorem fetch_7 : ∀ t : Fin cfg0.N, (cfg0.win 7).fetch t = false :=
  (by decide +kernel : ∀ t : Fin grid0.N, win0_7.fetch t = false)
theorem flush_6 : ∀ t : Fin cfg0.N, (cfg0.win 6).flush t = true ↔ t.val = 49 :=
  (by decide +kernel : ∀ t : Fin grid0.N, win0_6.flush t = true ↔ t.val = 49)
theorem flush_7 : ∀ t : Fin cfg0.N, (cfg0.win 7).flush t = true ↔ 25 ≤ t.val :=
  (by decide +kernel : ∀ t : Fin grid0.N, win0_7.flush t = true ↔ 25 ≤ t.val)
/-- Window 7's block index: 0 through pass 0, t - 25 in pass 1 (rows 400 (t - 25) .. of the result). -/
theorem index_7 : ∀ t : Fin cfg0.N, (cfg0.win 7).index t = ![t.val - 25, 0] :=
  (by decide +kernel : ∀ t : Fin grid0.N, win0_7.index t = ![t.val - 25, 0])
theorem index_6 : ∀ t : Fin cfg0.N, (cfg0.win 6).index t = ![0, 0] :=
  (by decide +kernel : ∀ t : Fin grid0.N, win0_6.index t = ![0, 0])

end Cert.KernelIdeal.Hand

end
-- ==== Proof.KIFinds.lean ====
/-
  What the body may find in, and leave in, each window's staging buffer, read off the relational proof data.

  An input's relation leaves its buffer as found, so wherever the body is handed it the buffer holds what a fetch there
  would put in it, which for these uncut windows is the window's block: fetched at that point or not, since an
  unfetched window's block index has not moved.
  Window 6's buffer may hold anything before point 0. Each point t of pass 0 replaces rows 400 t .. 400 t + 399 by the
  slab and keeps the rest, and the buffer is neither fetched into nor written back before the last point; so by
  induction on t the rows below 400 t are h's, row r being row r % 400 of the slab of point r / 400. At t = 25 that is
  every row. Pass 1 leaves the buffer as found, so it is h whole at every later point, and so is what the body leaves.
  Window 7's relation in pass 1 names the slab the body stores, whatever it found.
-/
import proofs.«180651_g84250078479004_cont_9to1_m_1348_24_alg».proof.Proof.KISched
import Idealize.ShloMosaic.Lib.Pipeline.FrameBody
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

variable (m : (ℓ : Loc nD τ sig) → Buf (Elt F) ℓ)

/-- An index inside the slab that starts at row o reads the slab there. -/
theorem finds_aux_put_in (o : Nat) (Y : Vec F S10000x64 .f32) (S : Vec F S400x64 .f32) (y : S10000x64.Idx)
    (h : o ≤ (y 0).val ∧ (y 0).val < o + 400) :
    rowsPut o Y S y = S (ValueIdx.ix2 (⟨(y 0).val - o, by omega⟩ : Fin 400) (⟨(y 1).val, (y 1).isLt⟩ : Fin 64)) := by
  unfold rowsPut
  exact dif_pos h

/-- An index outside the slab that starts at row o keeps what the array had. -/
theorem finds_aux_put_out (o : Nat) (Y : Vec F S10000x64 .f32) (S : Vec F S400x64 .f32) (y : S10000x64.Idx)
    (h : ¬ (o ≤ (y 0).val ∧ (y 0).val < o + 400)) : rowsPut o Y S y = Y y := by
  unfold rowsPut
  exact dif_neg h

/-- Row r with 400 t ≤ r < 400 t + 400 of h is row r - 400 t of the slab of point t: r / 400 = t and r % 400 = r - 400 t. -/
theorem finds_aux_slab (c : Dev nD) (t : Fin cfg0.N) (y : S10000x64.Idx) (h1 : 400 * t.val ≤ (y 0).val)
    (h2 : (y 0).val < 400 * t.val + 400) (hlt : (y 0).val - 400 * t.val < 400) :
    hslab m c t (ValueIdx.ix2 (⟨(y 0).val - 400 * t.val, hlt⟩ : Fin 400) (⟨(y 1).val, (y 1).isLt⟩ : Fin 64)) = hfull m c y := by
  unfold hfull
  have h0 : (y 0).val < 10000 := (y 0).isLt
  have e1 : ∀ (p : (y 0).val / 400 < cfg0.N), (⟨(y 0).val / 400, p⟩ : Fin cfg0.N) = t := fun p => Fin.ext (by show (y 0).val / 400 = t.val; omega)
  have e2 : ∀ (p : (y 0).val % 400 < 400), (⟨(y 0).val % 400, p⟩ : Fin 400) = ⟨(y 0).val - 400 * t.val, hlt⟩ :=
    fun p => Fin.ext (by show (y 0).val % 400 = (y 0).val - 400 * t.val; omega)
  rw [e1, e2]

/-- By induction on the point: what window 6's buffer may hold at point n ≤ 25 is h on the rows below 400 n. At point 0
    there is no such row. At point n + 1 the buffer is what the body left at point n: the slab of point n on rows
    400 n .. 400 n + 399 (those rows of h), and on the rows below what it found at point n (the induction hypothesis). -/
theorem finds_aux_rows (c : Dev nD) : ∀ (n : Nat) (t : Fin cfg0.N), t.val = n → n ≤ 25 → ∀ (Y : Vec F S10000x64 .f32),
    (rdat m c).Finds 6 t Y → ∀ y : S10000x64.Idx, (y 0).val < 400 * n → Y y = hfull m c y := by
  intro n
  induction n with
  | zero => intro t _ _ Y _ y hy; omega
  | succ n ih =>
    intro t ht hle Y h y hy
    have hN : t.val < 50 := lt_of_lt_of_eq t.isLt (show cfg0.N = 50 from N_0)
    have key := ((rdat m c).finds_of_pos (fetch_6 t) (by omega) Y).mp h
    generalize ht' : (⟨t.val - 1, Nat.lt_of_le_of_lt (Nat.sub_le _ _) t.isLt⟩ : Fin cfg0.N) = t' at key
    have hv : t'.val = n := by rw [← ht']; show t.val - 1 = n; omega
    rcases key with hfl | ⟨Y', hY', hR⟩
    · have h49 := (flush_6 t').mp hfl
      omega
    · have hR' := (after_6 m c t' Y' Y).mp hR
      rw [if_pos (by omega : t'.val < 25)] at hR'
      rw [hR']
      unfold hstep
      by_cases hin : 400 * t'.val ≤ (y 0).val
      · have hin' : 400 * t'.val ≤ (y 0).val ∧ (y 0).val < 400 * t'.val + 400 := ⟨hin, by omega⟩
        rw [finds_aux_put_in (400 * t'.val) Y' (hslab m c t') y hin']
        exact finds_aux_slab m c t' y hin hin'.2 _
      · rw [finds_aux_put_out (400 * t'.val) Y' (hslab m c t') y (fun hh => hin hh.1)]
        exact ih t' hv (by omega) Y' hY' y (by omega)

/-- From point 25 on window 6's buffer may hold h only: at point 25 every row is below 400 * 25; a later point finds
    what the body left at the point before, which in pass 1 is what it found there. -/
theorem finds_aux_full (c : Dev nD) : ∀ (k : Nat) (t : Fin cfg0.N), t.val = 25 + k → ∀ (Y : Vec F S10000x64 .f32),
    (rdat m c).Finds 6 t Y → Y = hfull m c := by
  intro k
  induction k with
  | zero =>
    intro t ht Y h
    funext y
    have h0 : (y 0).val < 10000 := (y 0).isLt
    exact finds_aux_rows m c 25 t ht (le_refl _) Y h y (by omega)
  | succ k ih =>
    intro t ht Y h
    have hN : t.val < 50 := lt_of_lt_of_eq t.isLt (show cfg0.N = 50 from N_0)
    have key := ((rdat m c).finds_of_pos (fetch_6 t) (by omega) Y).mp h
    generalize ht' : (⟨t.val - 1, Nat.lt_of_le_of_lt (Nat.sub_le _ _) t.isLt⟩ : Fin cfg0.N) = t' at key
    have hv : t'.val = 25 + k := by rw [← ht']; show t.val - 1 = 25 + k; omega
    rcases key with hfl | ⟨Y', hY', hR⟩
    · have h49 := (flush_6 t').mp hfl
      omega
    · have hR' := (after_6 m c t' Y' Y).mp hR
      rw [if_neg (by omega : ¬ t'.val < 25)] at hR'
      rw [hR']
      exact ih t' hv Y' hY'

theorem finds_0 (c : Dev nD) (t : Fin cfg0.N) (Y) (h : (rdat m c).Finds 0 t Y) : Y = iblk m c 0 t := by
  obtain ⟨d, hd⟩ := (rdat m c).finds_in_eq_fetched 0 rfl (fun _ _ _ => rfl) (fun t Y X h => (after_in0 m c t Y X).mp h) t Y h
  rw [hd]; unfold RDat.fetched RDat.blockOf iblk; rw [A_eq]; try rfl

theorem finds_1 (c : Dev nD) (t : Fin cfg0.N) (Y) (h : (rdat m c).Finds 1 t Y) : Y = iblk m c 1 t := by
  obtain ⟨d, hd⟩ := (rdat m c).finds_in_eq_fetched 1 rfl (fun _ _ _ => rfl) (fun t Y X h => (after_in1 m c t Y X).mp h) t Y h
  rw [hd]; unfold RDat.fetched RDat.blockOf iblk; rw [A_eq]; try rfl

theorem finds_2 (c : Dev nD) (t : Fin cfg0.N) (Y) (h : (rdat m c).Finds 2 t Y) : Y = iblk m c 2 t := by
  obtain ⟨d, hd⟩ := (rdat m c).finds_in_eq_fetched 2 rfl (fun _ _ _ => rfl) (fun t Y X h => (after_in2 m c t Y X).mp h) t Y h
  rw [hd]; unfold RDat.fetched RDat.blockOf iblk; rw [A_eq]; try rfl

theorem finds_3 (c : Dev nD) (t : Fin cfg0.N) (Y) (h : (rdat m c).Finds 3 t Y) : Y = iblk m c 3 t := by
  obtain ⟨d, hd⟩ := (rdat m c).finds_in_eq_fetched 3 rfl (fun _ _ _ => rfl) (fun t Y X h => (after_in3 m c t Y X).mp h) t Y h
  rw [hd]; unfold RDat.fetched RDat.blockOf iblk; rw [A_eq]; try rfl

theorem finds_4 (c : Dev nD) (t : Fin cfg0.N) (Y) (h : (rdat m c).Finds 4 t Y) : Y = iblk m c 4 t := by
  obtain ⟨d, hd⟩ := (rdat m c).finds_in_eq_fetched 4 rfl (fun _ _ _ => rfl) (fun t Y X h => (after_in4 m c t Y X).mp h) t Y h
  rw [hd]; unfold RDat.fetched RDat.blockOf iblk; rw [A_eq]; try rfl

theorem finds_5 (c : Dev nD) (t : Fin cfg0.N) (Y) (h : (rdat m c).Finds 5 t Y) : Y = iblk m c 5 t := by
  obtain ⟨d, hd⟩ := (rdat m c).finds_in_eq_fetched 5 rfl (fun _ _ _ => rfl) (fun t Y X h => (after_in5 m c t Y X).mp h) t Y h
  rw [hd]; unfold RDat.fetched RDat.blockOf iblk; rw [A_eq]; try rfl

theorem finds6_rows (c : Dev nD) (t : Fin cfg0.N) (ht : t.val ≤ 25) (Y : Vec F S10000x64 .f32) (h : (rdat m c).Finds 6 t Y) :
    ∀ y : S10000x64.Idx, (y 0).val < 400 * t.val → Y y = hfull m c y := by
  exact finds_aux_rows m c t.val t rfl ht Y h

theorem finds6_full (c : Dev nD) (t : Fin cfg0.N) (ht : 25 ≤ t.val) (Y : Vec F S10000x64 .f32) (h : (rdat m c).Finds 6 t Y) : Y = hfull m c := by
  exact finds_aux_full m c (t.val - 25) t (by omega) Y h

theorem leaves6_full (c : Dev nD) (t : Fin cfg0.N) (ht : 25 ≤ t.val) (X : Vec F S10000x64 .f32) (h : (rdat m c).Leaves 6 t X) : X = hfull m c := by
  obtain ⟨Y, hY, hR⟩ := h
  have hR' := (after_6 m c t Y X).mp hR
  rw [if_neg (by omega : ¬ t.val < 25)] at hR'
  rw [hR']
  exact finds6_full m c t ht Y hY

theorem leaves7 (c : Dev nD) (t : Fin cfg0.N) (ht : 25 ≤ t.val) (X : Vec F S400x40 .f32) (h : (rdat m c).Leaves 7 t X) : X = oslab m c t := by
  obtain ⟨Y, hY, hR⟩ := h
  have hR' := (after_7 m c t Y X).mp hR
  rw [if_neg (by omega : ¬ t.val < 25)] at hR'
  exact hR'

end Cert.KernelIdeal.Hand

end
-- ==== Proof.KIRunP0.lean ====
/-
  The body in its two pass-0 cases, over any whole memrefs.
  At the first point the body stores s1 = y W1 whole into the first scratch buffer and reads it back; at every point
  of pass 0 it stores the 400 x 64 slab leaky (A_t s1 + b1) into rows o .. o + 399 of window 6's 10000 x 64 buffer,
  o the offset it computes from the point. A load through a rectangle that starts at the origin and spans the buffer
  reads the buffer's contents; a store through such a rectangle leaves exactly the stored value. The slab store is
  partial: read back entry by entry, a row inside [o, o + 400) holds the slab's row at the local index, every other
  row what the buffer held before. Window 7's buffer and the second scratch buffer are not touched.
-/
import proofs.«180651_g84250078479004_cont_9to1_m_1348_24_alg».proof.Proof.KISched
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-! The body at a point of pass 0. It loads the adjacency slab, the first scratch buffer and the bias row and stores
the 400 x 64 slab  leaky (A_t s + b1)  into rows o .. o + 399 of the 10000 x 64 staging buffer, o the row offset
computed from the point's second coordinate; the other rows keep what they held. At the first point of pass 0 it first
stores  s1 = y W1  whole into the first scratch buffer, and the slab is computed from that buffer read back, that is
from s1. Every other buffer is left as found. -/

/-- The two zero offsets are the zero offset vector. -/
theorem run_zero2 : (![0, 0] : Fin 2 → ℕ) = fun _ => 0 := by
  funext a; match a with | ⟨0, _⟩ => rfl | ⟨1, _⟩ => rfl

/-- A load of a whole buffer through the whole-shape rectangle at zero offsets reads the contents the buffer holds. -/
theorem run_readAt_whole {S : Shape} {M : Memref sig .tc .vmem S .f32} (h : M.IsWhole) {off : Fin S.rank → ℕ}
    (hz : off = fun _ => 0) (inb : ∀ a, off a + S.size a ≤ S.size a) (x : Vec F S .f32) :
    View.readAt (Elt F) M.view (Rect.unit off S.size inb).toLoadRect (h.unread x) = x := by
  show View.readAt (Elt F) M.view (Rect.unit off S.size inb) (h.unread x) = x
  rw [View.readAt_eq_ld, h.read_unread]
  subst hz
  funext j
  show x ((Rect.whole S).emb j) = x j
  rw [Rect.emb_whole_apply]

/-- A store of a slab of 400 whole rows at row offset o into a whole 10000 x 64 buffer holding Y leaves Y with rows
    o .. o + 399 replaced by the slab. -/
theorem run_read_rowsPut {M : Memref sig .tc .vmem S10000x64 .f32} (h : M.IsWhole) {off : Fin 2 → ℕ}
    (hoff : off = ![off 0, 0]) (inb : ∀ a, off a + S400x64.size a ≤ S10000x64.size a)
    (Y : Vec F S10000x64 .f32) (w : Vec F S400x64 .f32) :
    View.read (Elt F) M.view (M.view.writes (Elt F) (h.unread Y)
        [(⟨Rect.unit (s := S10000x64) off S400x64.size inb, w⟩ : View.Piece (Elt F) S10000x64 .f32)])
      = rowsPut (off 0) Y w := by
  funext y
  rw [View.read_writes_cons_rows M.view (h.unread Y) inb w [] y hoff (W := 400) rfl rfl]
  unfold rowsPut
  by_cases hr : off 0 ≤ (y 0).val ∧ (y 0).val < off 0 + 400
  · rw [dif_pos hr, dif_pos hr]
    congr 1
    funext a
    match a with
    | ⟨0, _⟩ => exact Fin.ext rfl
    | ⟨1, _⟩ => exact Fin.ext (Nat.sub_zero _)
  · rw [dif_neg hr, dif_neg hr, View.writes_nil, h.read_unread]

/-- A store through the whole-shape rectangle at zero offsets leaves its payload, whatever the buffer held. -/
theorem run_read_whole_store {S : Shape} {M : Memref sig .tc .vmem S .f32} {off : Fin S.rank → ℕ}
    (hz : off = fun _ => 0) (inb : ∀ a, off a + S.size a ≤ S.size a) (f : M.view.ty.Contents (Elt F))
    (w : Vec F S .f32) :
    View.read (Elt F) M.view (M.view.writes (Elt F) f
        [(⟨Rect.unit off S.size inb, w⟩ : View.Piece (Elt F) S .f32)]) = w := by
  funext y
  exact View.read_writes_cons_unit_of_mem M.view f inb w [] y y hz fun a => (Nat.zero_add _).symm

set_option maxHeartbeats 1000000 in
theorem runA (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : condA i) (hc1 : k0_cond2 i = 1#1) (hc2 : ¬condC i) (hc3 : ¬(k0_cond4 i = 1#1))
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rowsPut ((k0_off1 i) 0) y6 (k0_pay2 x5 (k0_pay1 x0 x1) x2)) ∗ owns (c : Thread nD τ) arg9 fullShare y7 ∗ owns (c : Thread nD τ) arg10 fullShare (k0_pay1 x0 x1) ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
  intro E K
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    sl_unfold_run_names
    rw [View.readCov_cons_toLoadRect, run_readAt_whole harg7 run_zero2, run_readAt_whole harg2 run_zero2,
      run_readAt_whole harg3 run_zero2, run_readAt_whole harg4 run_zero2]
    exact run_read_rowsPut harg8 (by funext a; match a with | ⟨0, _⟩ => rfl | ⟨1, _⟩ => rfl) _ y6 _
  isplitl [H7]
  · iexists _; isplitr; · ipureintro; exact harg9.read_unread _
    iexact H7
  isplitl [HS0]
  · iexists _; isplitr; swap; · iexact HS0
    ipureintro
    sl_unfold_run_names
    rw [run_readAt_whole harg2 run_zero2, run_readAt_whole harg3 run_zero2]
    exact run_read_whole_store run_zero2 _ fs0 _
  · iexists _, _; isplitr; swap; · iexact HS1
    ipureintro; rfl

set_option maxHeartbeats 1000000 in
theorem runB (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : k0_cond2 i = 1#1) (hc2 : ¬condC i) (hc3 : ¬(k0_cond4 i = 1#1))
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (rowsPut ((k0_off1 i) 0) y6 (k0_pay2 x5 s0 x2)) ∗ owns (c : Thread nD τ) arg9 fullShare y7 ∗ owns (c : Thread nD τ) arg10 fullShare s0 ∗ (∃ d, owns (c : Thread nD τ) arg11 fullShare d)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
  intro E K
  simp only [cc0__gcn_kernel_eq_skeleton]; unfold cc0__gcn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg8.eq_unread hf6; obtain rfl := harg9.eq_unread hf7; obtain rfl := harg10.eq_unread hfs0
  sl_exec (disch := first | exact hc0 | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [run_readAt_whole harg7 run_zero2, run_readAt_whole harg10 run_zero2, run_readAt_whole harg4 run_zero2]
    exact run_read_rowsPut harg8 (by funext a; match a with | ⟨0, _⟩ => rfl | ⟨1, _⟩ => rfl) _ y6 _
  isplitl [H7]
  · iexists _; isplitr; · ipureintro; exact harg9.read_unread _
    iexact H7
  isplitl [HS0]
  · iexists _; isplitr; · ipureintro; exact harg10.read_unread _
    iexact HS0
  · iexists _, _; isplitr; swap; · iexact HS1
    ipureintro; rfl

end Cert.KernelIdeal.Hand

end
-- ==== Proof.KIRunP1.lean ====
/-
  The body in its two pass-1 cases, over any whole memrefs.
  At the first point of pass 1 the body reads window 6's buffer whole (which holds h), stores s2 = h W2 whole into
  the second scratch buffer, reads it back, and stores the result's slab (the row softmax of A_t s2 + b2) whole into
  window 7's buffer; at a later point of pass 1 only the last of these. A load through a rectangle that starts at
  the origin and spans the buffer reads the buffer's contents; a store through such a rectangle leaves exactly the
  stored value, and a load after it reads that value. Window 6's buffer and the first scratch buffer are not stored
  into and are handed back as they were.
-/
import proofs.«180651_g84250078479004_cont_9to1_m_1348_24_alg».proof.Proof.KISched
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The offset vector of a rectangle that starts at row 0, column 0 is the zero vector. -/
theorem runP1_zero2 : (![0, 0] : Fin 2 → ℕ) = fun _ => 0 := by
  funext a
  match a with
  | ⟨0, _⟩ => rfl
  | ⟨1, _⟩ => rfl

/-- A load of a whole buffer through the rectangle of the buffer's own sizes at zero offsets reads exactly what the
    buffer holds: that rectangle's index map is the identity. -/
theorem runP1_readAt_whole {S : Shape} (M : Memref sig .tc .vmem S .f32) (hM : M.IsWhole) {off : Fin S.rank → ℕ}
    (hz : off = fun _ => 0) (inb : ∀ a, off a + S.size a ≤ S.size a) (x : Vec F S .f32) :
    View.readAt (Elt F) M.view (Rect.unit off S.size inb).toLoadRect (hM.unread x) = x := by
  subst hz
  rw [View.readAt_eq_ld, hM.read_unread]
  funext y
  show x ((Rect.whole S).emb y) = x y
  rw [Rect.emb_whole_apply]

/-- One store through the rectangle of the buffer's own sizes at zero offsets replaces everything: whatever the buffer
    held before, index y now reads the stored value at y (its position within the rectangle is y itself). -/
theorem runP1_read_store_whole {S : Shape} (M : Memref sig .tc .vmem S .f32) {off : Fin S.rank → ℕ}
    (hz : off = fun _ => 0) (inb : ∀ a, off a + S.size a ≤ S.size a) (f : M.view.ty.Contents (Elt F))
    (w : Vec F S .f32) :
    View.read (Elt F) M.view (M.view.writes (Elt F) f [⟨Rect.unit off S.size inb, w⟩]) = w := by
  funext y
  exact View.read_writes_cons_unit_of_mem M.view f inb w [] y y hz (fun a => (Nat.zero_add _).symm)

set_option maxHeartbeats 1000000 in
theorem runC (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : ¬(k0_cond2 i = 1#1)) (hc2 : condC i) (hc3 : k0_cond4 i = 1#1)
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay4 x5 (k0_pay3 y6 x3) x4) ∗ owns (c : Thread nD τ) arg10 fullShare s0 ∗ owns (c : Thread nD τ) arg11 fullShare (k0_pay3 y6 x3)) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0
    sl_exec (disch := first | exact hc0 | exact hc1 | exact hc2 | exact hc3)
    sl_step
    iapply Hk
    -- the six inputs, the first result buffer and the first scratch buffer are only read: each is handed back as found
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- the second result buffer: one whole store of the softmax slab, computed from the adjacency slab, from s2 read back
    -- out of the second scratch buffer right after it was stored there, and from the second bias row
    isplitl [H7]
    · iexists _; isplitr; swap; · iexact H7
      ipureintro
      sl_unfold_run_names
      rw [runP1_read_store_whole arg9 runP1_zero2, runP1_readAt_whole arg7 harg7 runP1_zero2, View.readCov_cons_toLoadRect,
        runP1_readAt_whole arg8 harg8 runP1_zero2, runP1_readAt_whole arg5 harg5 runP1_zero2,
        runP1_readAt_whole arg6 harg6 runP1_zero2]
    isplitl [HS0]
    · iexists _; isplitr; · ipureintro; exact harg10.read_unread _
      iexact HS0
    -- the second scratch buffer: one whole store of s2 = h W2 over whatever it held
    iexists _; isplitr; swap; · iexact HS1
    ipureintro
    sl_unfold_run_names
    rw [runP1_read_store_whole arg11 runP1_zero2, runP1_readAt_whole arg8 harg8 runP1_zero2,
      runP1_readAt_whole arg5 harg5 runP1_zero2]

set_option maxHeartbeats 1000000 in
theorem runD (c : Dev nD) (i : grid0.Coords) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x40 .f32) (harg5 : arg5.IsWhole) (arg6 : Memref sig .tc .vmem S1x40 .f32) (harg6 : arg6.IsWhole) (arg7 : Memref sig .tc .vmem S400x10000 .f32) (harg7 : arg7.IsWhole) (arg8 : Memref sig .tc .vmem S10000x64 .f32) (harg8 : arg8.IsWhole) (arg9 : Memref sig .tc .vmem S400x40 .f32) (harg9 : arg9.IsWhole) (arg10 : Memref sig .tc .vmem S10000x64 .f32) (harg10 : arg10.IsWhole) (arg11 : Memref sig .tc .vmem S10000x40 .f32) (harg11 : arg11.IsWhole)
    (hc0 : ¬condA i) (hc1 : ¬(k0_cond2 i = 1#1)) (hc2 : ¬condC i) (hc3 : k0_cond4 i = 1#1)
    (x0 : Vec F S10000x128 .f32) (x1 : Vec F S128x64 .f32) (x2 : Vec F S1x64 .f32) (x3 : Vec F S64x40 .f32) (x4 : Vec F S1x40 .f32) (x5 : Vec F S400x10000 .f32) (y6 : Vec F S10000x64 .f32) (y7 : Vec F S400x40 .f32) (s0 : Vec F S10000x64 .f32) (s1 : Vec F S10000x40 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare y7 ∗ owns (c : Thread nD τ) arg10 fullShare s0 ∗ owns (c : Thread nD τ) arg11 fullShare s1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y6 ∗ owns (c : Thread nD τ) arg9 fullShare (k0_pay4 x5 s1 x4) ∗ owns (c : Thread nD τ) arg10 fullShare s0 ∗ owns (c : Thread nD τ) arg11 fullShare s1) -∗ K ⟨⟩))
          ⊢ wp frame (wpE (defs₀ (F := F)) Variants.none c none) E (cc0__gcn_kernel i arg2 harg2 arg3 harg3 arg4 harg4 arg5 harg5 arg6 harg6 arg7 harg7 arg8 harg8 arg9 harg9 arg10 harg10 arg11 harg11) K := by
    intro E K
    simp only [cc0__gcn_kernel_eq_skeleton]; unfold cc0__gcn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hf7; obtain rfl := harg10.eq_unread hfs0; obtain rfl := harg11.eq_unread hfs1
    sl_exec (disch := first | exact hc0 | exact hc1 | exact hc2 | exact hc3)
    sl_step
    iapply Hk
    -- the six inputs, the first result buffer and the first scratch buffer are only read: each is handed back as found
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    -- the second result buffer: one whole store of the softmax slab, computed from the adjacency slab, from s2 as the
    -- second scratch buffer holds it, and from the second bias row
    isplitl [H7]
    · iexists _; isplitr; swap; · iexact H7
      ipureintro
      rw [runP1_read_store_whole arg9 runP1_zero2, runP1_readAt_whole arg7 harg7 runP1_zero2,
        runP1_readAt_whole arg11 harg11 runP1_zero2, runP1_readAt_whole arg6 harg6 runP1_zero2]
    isplitl [HS0]
    · iexists _; isplitr; · ipureintro; exact harg10.read_unread _
      iexact HS0
    -- the second scratch buffer is only read
    iexists _; isplitr; · ipureintro; exact harg11.read_unread _
    iexact HS1

end Cert.KernelIdeal.Hand

end
-- ==== Proof.KIBody.lean ====
/-
  The body obligation of the relational proof data: at every point t, handed each window's buffer at contents the
  pipeline may then hold there, the body runs to the next point's invariant and leaves each buffer in the stated
  relation to what it was handed.
  What the body is handed: each input buffer holds its block (whatever the point, fetched there or not); window 6's
  buffer holds h whole from point 25 on. Which of the body's four conditions hold is decided by where t lies:
  t = 0 (both pass-0 branches), 0 < t < 25 (the slab store alone), t = 25 (both pass-1 branches), t > 25 (the result
  slab alone). The first scratch buffer holds s1 from point 1 on and the second s2 from point 26 on: point 0 and
  point 25 are where the invariant changes, and there the stored payload is s1 (resp. s2) because the point is the
  one the definition names and, at 25, because the buffer read is h.
-/
import proofs.«180651_g84250078479004_cont_9to1_m_1348_24_alg».proof.Proof.KIFinds
import proofs.«180651_g84250078479004_cont_9to1_m_1348_24_alg».proof.Proof.KIRunP0
import proofs.«180651_g84250078479004_cont_9to1_m_1348_24_alg».proof.Proof.KIRunP1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The invariant before point 0: both scratch buffers hold something. -/
theorem Phi_first (c : Dev nD) (t : Fin (cfg0.N + 1)) (h : t.val = 0) :
    Phi m c t = iprop((∃ d, owns (c : Thread nD τ) scM0 fullShare d) ∗ (∃ d, owns (c : Thread nD τ) scM1 fullShare d) ∗ (∃ r, prngReg c r)) := by
  unfold Phi; rw [if_pos h, if_pos (by omega)]
/-- Before a point 1..25: the first holds s1. -/
theorem Phi_mid (c : Dev nD) (t : Fin (cfg0.N + 1)) (h0 : t.val ≠ 0) (h1 : t.val ≤ 25) :
    Phi m c t = iprop(owns (c : Thread nD τ) scM0 fullShare (s1v m c) ∗ (∃ d, owns (c : Thread nD τ) scM1 fullShare d) ∗ (∃ r, prngReg c r)) := by
  unfold Phi; rw [if_neg h0, if_pos h1]
/-- Before a point past 25: the second holds s2 as well. -/
theorem Phi_late (c : Dev nD) (t : Fin (cfg0.N + 1)) (h1 : 25 < t.val) :
    Phi m c t = iprop(owns (c : Thread nD τ) scM0 fullShare (s1v m c) ∗ owns (c : Thread nD τ) scM1 fullShare (s2v m c) ∗ (∃ r, prngReg c r)) := by
  unfold Phi; rw [if_neg (by omega), if_neg (by omega)]

set_option maxHeartbeats 3200000 in
/-- The body at any point. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
      ∗ owns (c : Thread nD τ) (st0_0 t) fullShare (Y 0)
      ∗ owns (c : Thread nD τ) (st0_1 t) fullShare (Y 1)
      ∗ owns (c : Thread nD τ) (st0_2 t) fullShare (Y 2)
      ∗ owns (c : Thread nD τ) (st0_3 t) fullShare (Y 3)
      ∗ owns (c : Thread nD τ) (st0_4 t) fullShare (Y 4)
      ∗ owns (c : Thread nD τ) (st0_5 t) fullShare (Y 5)
      ∗ owns (c : Thread nD τ) (st0_6 t) fullShare (Y 6)
      ∗ owns (c : Thread nD τ) (st0_7 t) fullShare (Y 7))
    ⊢ wp frame (wpE (defs₀ (F := F)) Variants.none c none) Set.univ (bodyAt0 t) (fun _ =>
      iprop((rdat m c).Φ t.succ ∗ (rdat m c).owesAt () t.succ
      ∗ (∃ X, ⌜(rdat m c).after 0 t (Y 0) X⌝ ∗ owns (c : Thread nD τ) (st0_0 t) fullShare X)
      ∗ (∃ X, ⌜(rdat m c).after 1 t (Y 1) X⌝ ∗ owns (c : Thread nD τ) (st0_1 t) fullShare X)
      ∗ (∃ X, ⌜(rdat m c).after 2 t (Y 2) X⌝ ∗ owns (c : Thread nD τ) (st0_2 t) fullShare X)
      ∗ (∃ X, ⌜(rdat m c).after 3 t (Y 3) X⌝ ∗ owns (c : Thread nD τ) (st0_3 t) fullShare X)
      ∗ (∃ X, ⌜(rdat m c).after 4 t (Y 4) X⌝ ∗ owns (c : Thread nD τ) (st0_4 t) fullShare X)
      ∗ (∃ X, ⌜(rdat m c).after 5 t (Y 5) X⌝ ∗ owns (c : Thread nD τ) (st0_5 t) fullShare X)
      ∗ (∃ X, ⌜(rdat m c).after 6 t (Y 6) X⌝ ∗ owns (c : Thread nD τ) (st0_6 t) fullShare X)
      ∗ (∃ X, ⌜(rdat m c).after 7 t (Y 7) X⌝ ∗ owns (c : Thread nD τ) (st0_7 t) fullShare X))) := by
  unfold bodyAt0
  rw [show (rdat m c).owesAt () t.succ = (rdat m c).owesAt () t.castSucc from rfl]
  rw [show (rdat m c).Φ t.succ = Phi m c t.succ from rfl, show (rdat m c).Φ t.castSucc = Phi m c t.castSucc from rfl]
  have hN : t.val < 50 := lt_of_lt_of_eq t.isLt (show cfg0.N = 50 from N_0)
  have hcs : t.castSucc.val = t.val := rfl
  have hsu : t.succ.val = t.val + 1 := rfl
  rw [finds_0 m c t (Y 0) (hY 0), finds_1 m c t (Y 1) (hY 1), finds_2 m c t (Y 2) (hY 2), finds_3 m c t (Y 3) (hY 3),
    finds_4 m c t (Y 4) (hY 4), finds_5 m c t (Y 5) (hY 5)]
  by_cases h0 : t.val = 0
  · -- point 0: s1 is stored, then the first slab
    obtain rfl : t = tA := Fin.ext h0
    rw [Phi_first m c tA.castSucc rfl, Phi_mid m c tA.succ (by decide) (by decide)]
    iintro ⟨⟨HS0, HS1, Hg⟩, Ho, H0, H1, H2, H3, H4, H5, H6, H7⟩
    iapply ((runA c (grid0.coords tA) _ _ _ _ _ _ _ _ _ _ _ _ _ _ _ _ _ _ _ _ ((hcondA tA).mpr rfl) ((hcond2 tA).mpr (by decide)) (fun h => absurd ((hcondC tA).mp h) (by decide)) (fun h => absurd ((hcond4 tA).mp h) (by decide)) (iblk m c 0 tA) (iblk m c 1 tA) (iblk m c 2 tA) (iblk m c 3 tA) (iblk m c 4 tA) (iblk m c 5 tA) (Y 6) (Y 7)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0]; · iexact HS0
      isplitl [HS1]; · iexact HS1
      iexact Hg
    isplitl [Ho]; · iexact Ho
    isplitl [H0]
    · iexists _; isplitr; · ipureintro; exact (after_in0 m c tA _ _).mpr rfl
      iexact H0
    isplitl [H1]
    · iexists _; isplitr; · ipureintro; exact (after_in1 m c tA _ _).mpr rfl
      iexact H1
    isplitl [H2]
    · iexists _; isplitr; · ipureintro; exact (after_in2 m c tA _ _).mpr rfl
      iexact H2
    isplitl [H3]
    · iexists _; isplitr; · ipureintro; exact (after_in3 m c tA _ _).mpr rfl
      iexact H3
    isplitl [H4]
    · iexists _; isplitr; · ipureintro; exact (after_in4 m c tA _ _).mpr rfl
      iexact H4
    isplitl [H5]
    · iexists _; isplitr; · ipureintro; exact (after_in5 m c tA _ _).mpr rfl
      iexact H5
    isplitl [H6]
    · iexists _; isplitr; swap; · iexact H6
      ipureintro; exact (after_6 m c tA _ _).mpr (by rw [if_pos (by decide)]; unfold hstep hslab s1v; rw [off1_eq tA (by decide)]; rfl)
    iexists _; isplitr; swap; · iexact H7
    ipureintro; exact (after_7 m c tA _ _).mpr (by rw [if_pos (by decide)])
  · by_cases h1 : t.val < 25
    · -- a later point of pass 0: one more slab
      rw [Phi_mid m c t.castSucc h0 (by omega), Phi_mid m c t.succ (by omega) (by omega)]
      iintro ⟨⟨HS0, HS1, Hg⟩, Ho, H0, H1, H2, H3, H4, H5, H6, H7⟩
      iapply ((runB c (grid0.coords t) _ _ _ _ _ _ _ _ _ _ _ _ _ _ _ _ _ _ _ _ (fun h => h0 ((hcondA t).mp h)) ((hcond2 t).mpr h1) (fun h => absurd ((hcondC t).mp h) (by omega)) (fun h => absurd ((hcond4 t).mp h) (by omega)) (iblk m c 0 t) (iblk m c 1 t) (iblk m c 2 t) (iblk m c 3 t) (iblk m c 4 t) (iblk m c 5 t) (Y 6) (Y 7) (s1v m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HS0 HS1 Hg]
      · isplitl [HS0]; · iexact HS0
        isplitl [HS1]; · iexact HS1
        iexact Hg
      isplitl [Ho]; · iexact Ho
      isplitl [H0]
      · iexists _; isplitr; · ipureintro; exact (after_in0 m c t _ _).mpr rfl
        iexact H0
      isplitl [H1]
      · iexists _; isplitr; · ipureintro; exact (after_in1 m c t _ _).mpr rfl
        iexact H1
      isplitl [H2]
      · iexists _; isplitr; · ipureintro; exact (after_in2 m c t _ _).mpr rfl
        iexact H2
      isplitl [H3]
      · iexists _; isplitr; · ipureintro; exact (after_in3 m c t _ _).mpr rfl
        iexact H3
      isplitl [H4]
      · iexists _; isplitr; · ipureintro; exact (after_in4 m c t _ _).mpr rfl
        iexact H4
      isplitl [H5]
      · iexists _; isplitr; · ipureintro; exact (after_in5 m c t _ _).mpr rfl
        iexact H5
      isplitl [H6]
      · iexists _; isplitr; swap; · iexact H6
        ipureintro; exact (after_6 m c t _ _).mpr (by rw [if_pos h1]; unfold hstep hslab; rw [off1_eq t h1]; rfl)
      iexists _; isplitr; swap; · iexact H7
      ipureintro; exact (after_7 m c t _ _).mpr (by rw [if_pos h1])
    · by_cases h2 : t.val = 25
      · -- point 25: the buffer of window 6 is h; s2 is stored, then the first slab of the result
        obtain rfl : t = tC := Fin.ext h2
        have hY6 : Y 6 = hfull m c := finds6_full m c tC (by decide) (Y 6) (hY 6)
        rw [Phi_mid m c tC.castSucc (by decide) (by decide), Phi_late m c tC.succ (by decide)]
        iintro ⟨⟨HS0, HS1, Hg⟩, Ho, H0, H1, H2, H3, H4, H5, H6, H7⟩
        iapply ((runC c (grid0.coords tC) _ _ _ _ _ _ _ _ _ _ _ _ _ _ _ _ _ _ _ _ (fun h => absurd ((hcondA tC).mp h) (by decide)) (fun h => absurd ((hcond2 tC).mp h) (by decide)) ((hcondC tC).mpr rfl) ((hcond4 tC).mpr (by decide)) (iblk m c 0 tC) (iblk m c 1 tC) (iblk m c 2 tC) (iblk m c 3 tC) (iblk m c 4 tC) (iblk m c 5 tC) (Y 6) (Y 7) (s1v m c)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0]; · iexact HS0
          isplitl [HS1]; · (unfold s2v; rw [← hY6]; iexact HS1)
          iexact Hg
        isplitl [Ho]; · iexact Ho
        isplitl [H0]
        · iexists _; isplitr; · ipureintro; exact (after_in0 m c tC _ _).mpr rfl
          iexact H0
        isplitl [H1]
        · iexists _; isplitr; · ipureintro; exact (after_in1 m c tC _ _).mpr rfl
          iexact H1
        isplitl [H2]
        · iexists _; isplitr; · ipureintro; exact (after_in2 m c tC _ _).mpr rfl
          iexact H2
        isplitl [H3]
        · iexists _; isplitr; · ipureintro; exact (after_in3 m c tC _ _).mpr rfl
          iexact H3
        isplitl [H4]
        · iexists _; isplitr; · ipureintro; exact (after_in4 m c tC _ _).mpr rfl
          iexact H4
        isplitl [H5]
        · iexists _; isplitr; · ipureintro; exact (after_in5 m c tC _ _).mpr rfl
          iexact H5
        isplitl [H6]
        · iexists _; isplitr; swap; · iexact H6
          ipureintro; exact (after_6 m c tC _ _).mpr (by rw [if_neg (by decide)])
        iexists _; isplitr; swap; · iexact H7
        ipureintro; exact (after_7 m c tC _ _).mpr (by rw [if_neg (by decide)]; unfold oslab s2v; rw [← hY6])
      · -- a later point of pass 1: one more slab of the result
        rw [Phi_late m c t.castSucc (by omega), Phi_late m c t.succ (by omega)]
        iintro ⟨⟨HS0, HS1, Hg⟩, Ho, H0, H1, H2, H3, H4, H5, H6, H7⟩
        iapply ((runD c (grid0.coords t) _ _ _ _ _ _ _ _ _ _ _ _ _ _ _ _ _ _ _ _ (fun h => h0 ((hcondA t).mp h)) (fun h => h1 ((hcond2 t).mp h)) (fun h => h2 ((hcondC t).mp h)) ((hcond4 t).mpr (by omega)) (iblk m c 0 t) (iblk m c 1 t) (iblk m c 2 t) (iblk m c 3 t) (iblk m c 4 t) (iblk m c 5 t) (Y 6) (Y 7) (s1v m c) (s2v m c)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        iintro ⟨H0, H1, H2, H3, H4, H5, H6, H7, HS0, HS1⟩
        isplitl [HS0 HS1 Hg]
        · isplitl [HS0]; · iexact HS0
          isplitl [HS1]; · iexact HS1
          iexact Hg
        isplitl [Ho]; · iexact Ho
        isplitl [H0]
        · iexists _; isplitr; · ipureintro; exact (after_in0 m c t _ _).mpr rfl
          iexact H0
        isplitl [H1]
        · iexists _; isplitr; · ipureintro; exact (after_in1 m c t _ _).mpr rfl
          iexact H1
        isplitl [H2]
        · iexists _; isplitr; · ipureintro; exact (after_in2 m c t _ _).mpr rfl
          iexact H2
        isplitl [H3]
        · iexists _; isplitr; · ipureintro; exact (after_in3 m c t _ _).mpr rfl
          iexact H3
        isplitl [H4]
        · iexists _; isplitr; · ipureintro; exact (after_in4 m c t _ _).mpr rfl
          iexact H4
        isplitl [H5]
        · iexists _; isplitr; · ipureintro; exact (after_in5 m c t _ _).mpr rfl
          iexact H5
        isplitl [H6]
        · iexists _; isplitr; swap; · iexact H6
          ipureintro; exact (after_6 m c t _ _).mpr (by rw [if_neg h1])
        iexists _; isplitr; swap; · iexact H7
        ipureintro; exact (after_7 m c t _ _).mpr (by rw [if_neg h1]; rfl)

/-- The library's body obligation, at every point. -/
theorem body_obligation (c : Dev nD) : (rdat m c).BodyObligation (defs₀ (F := F)) Variants.none () Set.univ := fun t Y hY => by
  rw [bigSep_W0, bigSep_W0]
  exact sound_body m c t Y hY

end Cert.KernelIdeal.Hand

end
-- ==== Proof.KIRun.lean ====
/-
  The launch. The pipeline's library theorem for relational proof data with an invariant the certificate tracks
  point by point takes: the body obligation; that the class's own invariant (each scratch buffer at something, the
  generator register at something) gives the tracked invariant before point 0 and is given back by it after the last
  point (there the two scratch buffers hold s1 and s2, which is something); full shares; nothing owed. It concludes
  that every weakly fair execution of @main terminates, each windowed array then holding contents the data allow
  after all write-backs and every other buffer what it held when the region was entered. Read at the six argument
  arrays (four of them staged as inputs, never written; two bypassing the region), that is the frame claim.
-/
import proofs.«180651_g84250078479004_cont_9to1_m_1348_24_alg».proof.Proof.KIBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class's invariant spelled over the two scratch memrefs: each owned at something, and the generator register. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point 0 the tracked invariant asks no more than the class's. -/
theorem phi_in (c : Dev nD) : (Pipeline.ΦA spec0 c : sProp 𝕄) ⊢ (rdat m c).Φ 0 := by
  rw [PhiA_eq, show (rdat m c).Φ 0 = Phi m c 0 from rfl, Phi_first m c 0 rfl]
  iintro ⟨⟨H0, H1⟩, Hg⟩
  isplitl [H0]; · iexact H0
  isplitl [H1]; · iexact H1
  iexact Hg

/-- After the last point it gives the class's back: s1 and s2 are contents like any other. -/
theorem phi_out (c : Dev nD) : (rdat m c).Φ (Fin.last cfg0.N) ⊢ (Pipeline.ΦA spec0 c : sProp 𝕄) := by
  rw [PhiA_eq, show (rdat m c).Φ (Fin.last cfg0.N) = Phi m c (Fin.last cfg0.N) from rfl,
    Phi_late m c (Fin.last cfg0.N) (by show 25 < cfg0.N; rw [show cfg0.N = 50 from N_0]; decide)]
  iintro ⟨H0, H1, Hg⟩
  isplitl [H0 H1]
  · isplitl [H0]
    · iexists _; iexact H0
    iexists _; iexact H1
  iexact Hg

set_option backward.isDefEq.respectTransparency.types false in
/-- Every weakly fair execution of @main terminates; each windowed array ends at contents the data allow after every
    write-back, every other unscoped buffer as the region found it. -/
theorem run_main : θ_run defs (onTc (τ := τ) (main (F := F))) (s₀ m ρ) (Pipeline.RDat.FramePost (cfgs 0) (fun c => rdat m c) (V m)) :=
  Pipeline.RDat.θ_run_frame_track cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m)
    (hin := phi_in m) (hout := phi_out m)

/-- The frame claim: the six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((A_eq m c 0).trans (V_main_arg0 m c)),
      (Pipeline.RDat.FramePost.arr_in h c 5 rfl).trans ((A_eq m c 5).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      (Pipeline.RDat.FramePost.arr_in h c 3 rfl).trans ((A_eq m c 3).trans (V_main_arg4 m c)),
      ((h c).2 main_arg5 (Pipeline.mem_restRefs_of main_arg5 (by decide) (by decide))).trans (V_main_arg5 m c)⟩) (run_main m ρ)

end Cert.KernelIdeal.Hand

end
-- ==== Proof.KIArr.lean ====
/-
  What the two output arrays hold after the last point.

  Window 6's block is the whole 10000 x 64 array, written back once, after point 49; the body leaves h whole in
  the staging buffer from point 25 on, so the array ends as h.
  Window 7's block is 400 rows of the 10000 x 40 result; after point t of pass 1 the block with index t - 25
  (rows 400 (t - 25) .. 400 (t - 25) + 399) is written back with the slab the body stored at t. The 25 blocks tile
  the array in row order, so after the write-backs below point n the rows below 400 (n - 25) are final: row r holds
  row r % 400 of the slab stored at point 25 + r / 400.
-/
import proofs.«180651_g84250078479004_cont_9to1_m_1348_24_alg».proof.Proof.KIFinds
import Idealize.ShloMosaic.Lib.Pipeline.FrameBody
import Idealize.ShloMosaic.Lib.Pipeline.Value
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

variable (m : (ℓ : Loc nD τ sig) → Buf (Elt F) ℓ)

/-! ## Window 6: one write-back of the whole array -/

/-- Window 6's block is the whole array at block index (0, 0): written back, it replaces every entry. -/
theorem arr6_write_all (u : Fin cfg0.N) (G₀ : ((cfg0.win 6).blk u).view.ty.Contents (Elt F)) (X : S10000x64.Idx → Elt F .f32)
    (y : S10000x64.Idx) : ((cfg0.win 6).blk u).view.write (Elt F) G₀ X Finset.univ y = X y := by
  have e : ((cfg0.win 6).blk u).view.emb y = y := by
    funext a; apply Fin.ext
    match a with
    | ⟨0, _⟩ =>
      show win0_6.index u (0 : Fin 2) * 10000 + 1 * (y 0).val = (y 0).val
      have hi : win0_6.index u (0 : Fin 2) = 0 := congrFun (index_6 u) (0 : Fin 2)
      omega
    | ⟨1, _⟩ =>
      show win0_6.index u (1 : Fin 2) * 64 + 1 * (y 1).val = (y 1).val
      have hi : win0_6.index u (1 : Fin 2) = 0 := congrFun (index_6 u) (1 : Fin 2)
      omega
  have h := View.write_emb_of_mem (v := ((cfg0.win 6).blk u).view) G₀ X (Finset.mem_univ y)
  rw [e] at h
  exact h.trans (cast_eq _ _)

/-- After the last point window 6's array holds h whole. -/
theorem arrAt6 (c : Dev nD) (G : Buf (Elt F) ((cfg0.win 6).arr.view.loc (c.tc : Thread nD τ))) (h : (rdat m c).ArrAt 6 cfg0.N G) : G = hfull m c := by
  have hN : cfg0.N = 50 := N_0
  obtain ⟨u, hu⟩ : ∃ u : Fin cfg0.N, u.val = 49 := ⟨⟨49, by rw [hN]; decide⟩, rfl⟩
  have e : (rdat m c).ArrAt 6 cfg0.N = (rdat m c).ArrAt 6 (u.val + 1) := congrArg _ (by omega)
  rw [e, RDat.ArrAt_succ, if_pos ((flush_6 u).mpr hu)] at h
  obtain ⟨G₀, X, -, hX, rfl⟩ := h
  have hXe : X = hfull m c := leaves6_full m c u (by omega) X hX
  subst hXe
  refine funext fun (y : S10000x64.Idx) => ?_
  exact arr6_write_all u G₀ (hfull m c) y

/-! ## Window 7: 25 write-backs that tile the array in row order -/

/-- An index of the 10000 x 40 array lies in the block written back after point u iff, on each axis, its
    coordinate lies in the block's range: block index times block size, and the block's size on from there. -/
theorem arr7_mem_blk (u : Fin cfg0.N) (y : S10000x40.Idx) :
    y ∈ ((cfg0.win 7).blk u).view.set ↔ ∀ a : Fin 2, win0_7.index u a * S400x40.size a ≤ (y a).val ∧ (y a).val < win0_7.index u a * S400x40.size a + S400x40.size a := by
  show y ∈ ((View.whole main_v2_1).slice (win0_7.rect u)).set ↔ _
  rw [View.set_slice_whole, Rect.mem_set_unit]
  exact Iff.rfl

/-- Row 400 (u - 25) + r, column k of the array takes entry (r, k) of the slab written back after point u. -/
theorem arr7_write_hit (u : Fin cfg0.N) (G₀ : ((cfg0.win 7).blk u).view.ty.Contents (Elt F)) (X : S400x40.Idx → Elt F .f32)
    (y : S10000x40.Idx) (j : S400x40.Idx) (h0 : (y 0).val = (u.val - 25) * 400 + (j 0).val) (h1 : (y 1).val = (j 1).val) :
    ((cfg0.win 7).blk u).view.write (Elt F) G₀ X Finset.univ y = X j := by
  have e : ((cfg0.win 7).blk u).view.emb j = y := by
    funext a; apply Fin.ext
    match a with
    | ⟨0, _⟩ =>
      show win0_7.index u (0 : Fin 2) * 400 + 1 * (j 0).val = (y 0).val
      have hi : win0_7.index u (0 : Fin 2) = u.val - 25 := congrFun (index_7 u) (0 : Fin 2)
      omega
    | ⟨1, _⟩ =>
      show win0_7.index u (1 : Fin 2) * 40 + 1 * (j 1).val = (y 1).val
      have hi : win0_7.index u (1 : Fin 2) = 0 := congrFun (index_7 u) (1 : Fin 2)
      omega
  have h := View.write_emb_of_mem (v := ((cfg0.win 7).blk u).view) G₀ X (Finset.mem_univ j)
  rw [e] at h
  exact h.trans (cast_eq _ _)

/-- A row outside rows 400 (u - 25) .. 400 (u - 25) + 399 keeps what it held. -/
theorem arr7_write_miss (u : Fin cfg0.N) (G₀ : ((cfg0.win 7).blk u).view.ty.Contents (Elt F)) (X : S400x40.Idx → Elt F .f32)
    (y : S10000x40.Idx) (h : (y 0).val < (u.val - 25) * 400 ∨ (u.val - 25) * 400 + 400 ≤ (y 0).val) :
    ((cfg0.win 7).blk u).view.write (Elt F) G₀ X Finset.univ y = G₀ y := by
  refine View.write_of_not_mem _ _ _ fun hm => ?_
  have hm' : y ∈ ((cfg0.win 7).blk u).view.set := hm
  have h0 := (arr7_mem_blk u y).mp hm' (0 : Fin 2)
  have h0' : win0_7.index u (0 : Fin 2) * 400 ≤ (y 0).val ∧ (y 0).val < win0_7.index u (0 : Fin 2) * 400 + 400 := h0
  have hi : win0_7.index u (0 : Fin 2) = u.val - 25 := congrFun (index_7 u) (0 : Fin 2)
  omega

/-- One point: if the rows below 400 (u - 25) are final before point u's write-back, the rows below
    400 (u + 1 - 25) are final after it. In pass 0 nothing is written back and nothing is claimed. -/
theorem arr7_step (c : Dev nD) (u : Fin cfg0.N)
    (ih : ∀ G : Buf (Elt F) ((cfg0.win 7).arr.view.loc (c.tc : Thread nD τ)), (rdat m c).ArrAt 7 u.val G →
      ∀ y : S10000x40.Idx, (y 0).val < 400 * (u.val - 25) → G y = ofull m c y)
    (G : Buf (Elt F) ((cfg0.win 7).arr.view.loc (c.tc : Thread nD τ))) (h : (rdat m c).ArrAt 7 (u.val + 1) G)
    (y : S10000x40.Idx) (hy : (y 0).val < 400 * (u.val + 1 - 25)) : G y = ofull m c y := by
  rw [RDat.ArrAt_succ] at h
  by_cases h25 : 25 ≤ u.val
  · rw [if_pos ((flush_7 u).mpr h25)] at h
    obtain ⟨G₀, X, hG₀, hX, rfl⟩ := h
    have hXe : X = oslab m c u := leaves7 m c u h25 X hX
    subst hXe
    have y1 : (y 1).val < 40 := (y 1).isLt
    by_cases hlt : (y 0).val < 400 * (u.val - 25)
    · exact (arr7_write_miss u G₀ _ y (Or.inl (by omega))).trans (ih G₀ hG₀ y hlt)
    · have hq : 25 + (y 0).val / 400 = u.val := by omega
      have hb : 25 + (y 0).val / 400 < cfg0.N := by rw [hq]; exact u.isLt
      have eu : (⟨25 + (y 0).val / 400, hb⟩ : Fin cfg0.N) = u := Fin.ext hq
      refine (arr7_write_hit u G₀ (oslab m c u) y
        (ValueIdx.ix2 (⟨(y 0).val % 400, Nat.mod_lt _ (by decide)⟩ : Fin 400) (⟨(y 1).val, y1⟩ : Fin 40)) ?_ rfl).trans ?_
      · show (y 0).val = (u.val - 25) * 400 + (y 0).val % 400
        omega
      · show oslab m c u _ = oslab m c ⟨25 + (y 0).val / 400, _⟩ _
        rw [eu]
  · rw [if_neg (fun hf => h25 ((flush_7 u).mp hf))] at h
    exact absurd hy (by omega)

/-- After the write-backs of the points below n the rows below 400 (n - 25) are final. -/
theorem arr7_inv (c : Dev nD) : ∀ n, n ≤ 50 → ∀ G : Buf (Elt F) ((cfg0.win 7).arr.view.loc (c.tc : Thread nD τ)),
    (rdat m c).ArrAt 7 n G → ∀ y : S10000x40.Idx, (y 0).val < 400 * (n - 25) → G y = ofull m c y := by
  intro n
  induction n with
  | zero => intro _ G _ y hy; exact absurd hy (by omega)
  | succ n ih =>
    intro hn G h y hy
    have hu : n < cfg0.N := by rw [show cfg0.N = 50 from N_0]; omega
    exact arr7_step m c ⟨n, hu⟩ (ih (by omega)) G h y hy

/-- After the last point window 7's array holds the result whole. -/
theorem arrAt7 (c : Dev nD) (G : Buf (Elt F) ((cfg0.win 7).arr.view.loc (c.tc : Thread nD τ))) (h : (rdat m c).ArrAt 7 cfg0.N G) : G = ofull m c := by
  have hN : cfg0.N = 50 := N_0
  have e : (rdat m c).ArrAt 7 cfg0.N = (rdat m c).ArrAt 7 50 := congrArg _ hN
  rw [e] at h
  refine funext fun (y : S10000x40.Idx) => ?_
  have y0 : (y 0).val < 10000 := (y 0).isLt
  exact arr7_inv m c 50 (le_refl _) G h y (by omega)

end Cert.KernelIdeal.Hand

end
-- ==== Proof.KIPure.lean ====
/-
  The kernel's two results as functions of plain arrays.

  Row r of the adjacency matrix A belongs to slab r / 400, at row r % 400 of that slab. With s1 = y W1 (the body's
  first payload) the body's second payload on slab i is leaky (A_i s1 + b1), so
      h r = (leaky (A_(r / 400) (y W1) + b1)) (r % 400),
  and with s2 = h W2 (third payload) the fourth payload on slab i is the row softmax of A_i s2 + b2, so
      out r = (softmax (A_(r / 400) (h W2) + b2)) (r % 400).
  The bias rows enter as 1 x 64 and 1 x 40 arrays, which is how the program hands them to the kernel.
-/
import proofs.«180651_g84250078479004_cont_9to1_m_1348_24_alg».proof.Proof.Gen.KernelIdeal.Skeleton
import Idealize.ShloMosaic.Lib.ValueIdx

noncomputable section

namespace Cert.KernelIdeal.Hand

open Idealize.ShloMosaic Idealize.SL.Sem
open Cert.KernelIdeal Cert.KernelIdeal.Gen

variable {F : FTy → Type} [FloatOps F]

/-- Slab i of the adjacency matrix: its rows 400 i .. 400 i + 399 (i < 25). -/
def adjSlab (adj : Vec F S10000x10000 .f32) (i : Nat) (hi : i < 25) : Vec F S400x10000 .f32 :=
  fun x => adj (ValueIdx.ix2 (⟨400 * i + (x 0).val, by have h : (x 0).val < 400 := (x 0).isLt; omega⟩ : Fin 10000)
    (⟨(x 1).val, (x 1).isLt⟩ : Fin 10000))

/-- h as a function of y, A, W1 and the 1 x 64 bias row. -/
def pureH (y : Vec F S10000x128 .f32) (adj : Vec F S10000x10000 .f32) (W1 : Vec F S128x64 .f32) (b1row : Vec F S1x64 .f32) :
    Vec F S10000x64 .f32 :=
  fun j => k0_pay2 (adjSlab adj ((j 0).val / 400) (by have h : (j 0).val < 10000 := (j 0).isLt; omega)) (k0_pay1 y W1) b1row
    (ValueIdx.ix2 (⟨(j 0).val % 400, Nat.mod_lt _ (by decide)⟩ : Fin 400) (⟨(j 1).val, (j 1).isLt⟩ : Fin 64))

/-- out as a function of h, A, W2 and the 1 x 40 bias row. -/
def pureOut (h : Vec F S10000x64 .f32) (adj : Vec F S10000x10000 .f32) (W2 : Vec F S64x40 .f32) (b2row : Vec F S1x40 .f32) :
    Vec F S10000x40 .f32 :=
  fun j => k0_pay4 (adjSlab adj ((j 0).val / 400) (by have h : (j 0).val < 10000 := (j 0).isLt; omega)) (k0_pay3 h W2) b2row
    (ValueIdx.ix2 (⟨(j 0).val % 400, Nat.mod_lt _ (by decide)⟩ : Fin 400) (⟨(j 1).val, (j 1).isLt⟩ : Fin 40))

end Cert.KernelIdeal.Hand

end
-- ==== Proof.KIBlocks.lean ====
/-
  The windows' blocks as plain arrays, and the two assembled results as plain-array functions.

  An element x of window w's block at point t sits in the window's array, on each axis a, at
      (block index of w at t on a) * (block size on a) + x a.
  Windows 0 .. 4 have one block, the whole array, at block index (0, 0) at every point: the element sits at x itself,
  so the block IS the array. For windows 0, 1, 3 the array is an argument (y, W1, W2), which nothing before the kernel
  writes. For windows 2 and 4 the array is the bias vector b1 (b2) reshaped from [64] to [1, 64] (from [40] to
  [1, 40]) just before the kernel, so the block is that reshape.
  Window 5's block index at point t is (t % 25, 0) with 400 x 10000 blocks: element x sits at row 400 (t % 25) + x 0,
  column x 1 of the adjacency matrix, which is slab t % 25.

  Row r < 10000 of h comes from the slab stored at point r / 400 < 25, whose adjacency slab is (r / 400) % 25 = r / 400;
  row r of the result comes from point 25 + r / 400, whose adjacency slab is (25 + r / 400) % 25 = r / 400. With the
  blocks replaced by the arrays, the assembled results are the plain-array functions term by term.
-/
import proofs.«180651_g84250078479004_cont_9to1_m_1348_24_alg».proof.Proof.KISched
import proofs.«180651_g84250078479004_cont_9to1_m_1348_24_alg».proof.Proof.KIPure
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat RDat Cfg Window cellOf)
open Cert.KernelIdeal Cert.KernelIdeal.Gen

variable {F : FTy → Type} [FloatOps F]

variable (m : (ℓ : Loc nD τ sig) → Buf (Elt F) ℓ)

/-! ## The block indices, decided once over the 50 points -/

theorem blk_aux_idx0 : ∀ t : Fin cfg0.N, win0_0.index t = ![0, 0] :=
  (by decide +kernel : ∀ t : Fin grid0.N, win0_0.index t = ![0, 0])
theorem blk_aux_idx1 : ∀ t : Fin cfg0.N, win0_1.index t = ![0, 0] :=
  (by decide +kernel : ∀ t : Fin grid0.N, win0_1.index t = ![0, 0])
theorem blk_aux_idx2 : ∀ t : Fin cfg0.N, win0_2.index t = ![0, 0] :=
  (by decide +kernel : ∀ t : Fin grid0.N, win0_2.index t = ![0, 0])
theorem blk_aux_idx3 : ∀ t : Fin cfg0.N, win0_3.index t = ![0, 0] :=
  (by decide +kernel : ∀ t : Fin grid0.N, win0_3.index t = ![0, 0])
theorem blk_aux_idx4 : ∀ t : Fin cfg0.N, win0_4.index t = ![0, 0] :=
  (by decide +kernel : ∀ t : Fin grid0.N, win0_4.index t = ![0, 0])
/-- The adjacency window's block index: slab t % 25, the one column block. -/
theorem blk_aux_idx5 : ∀ t : Fin cfg0.N, win0_5.index t = ![t.val % 25, 0] :=
  (by decide +kernel : ∀ t : Fin grid0.N, win0_5.index t = ![t.val % 25, 0])

/-! ## The two bias rows: what the reshapes before the kernel leave -/

/-- The [1, 64] array the kernel finds is the reshape of b1. -/
theorem blk_aux_v0 (c : Dev nD) : (V m c main_v0 : S1x64.Idx → Elt F .f32) = shapeCast S1x64 (m ((c : Thread nD τ).loc main_arg3)) shapeCasts_S64_S1x64 := by
  dsimp only [Gen.V, Gen.hostOps0]
  after_results
  rfl

/-- The [1, 40] array the kernel finds is the reshape of b2. -/
theorem blk_aux_v1 (c : Dev nD) : (V m c main_v1 : S1x40.Idx → Elt F .f32) = shapeCast S1x40 (m ((c : Thread nD τ).loc main_arg5)) shapeCasts_S40_S1x40 := by
  dsimp only [Gen.V, Gen.hostOps0]
  after_results
  rfl

/-- Two slabs of one matrix at equal slab numbers are equal. -/
theorem blk_aux_slab_congr (adj : Vec F S10000x10000 .f32) {i j : Nat} (h : i = j) (hi : i < 25) (hj : j < 25) :
    adjSlab adj i hi = adjSlab adj j hj := by
  subst h; rfl

/-! ## The blocks -/

/-- Window 0's block is y. -/
theorem blk0 (c : Dev nD) (t : Fin cfg0.N) : iblk m c 0 t = (m ((c : Thread nD τ).loc main_arg0)) := by
  unfold iblk
  funext x
  rw [View.read_apply]
  show V m c main_arg0 (((cfg0.win 0).blk t).view.emb x) = m ((c : Thread nD τ).loc main_arg0) x
  rw [V_main_arg0]
  congr 1
  funext a
  apply Fin.ext
  match a with
  | ⟨0, _⟩ =>
    show win0_0.index t (0 : Fin 2) * 10000 + 1 * (x 0).val = (x 0).val
    rw [blk_aux_idx0 t]
    show (0 : Nat) * 10000 + 1 * (x 0).val = (x 0).val
    omega
  | ⟨1, _⟩ =>
    show win0_0.index t (1 : Fin 2) * 128 + 1 * (x 1).val = (x 1).val
    rw [blk_aux_idx0 t]
    show (0 : Nat) * 128 + 1 * (x 1).val = (x 1).val
    omega

/-- Window 1's block is W1. -/
theorem blk1 (c : Dev nD) (t : Fin cfg0.N) : iblk m c 1 t = (m ((c : Thread nD τ).loc main_arg2)) := by
  unfold iblk
  funext x
  rw [View.read_apply]
  show V m c main_arg2 (((cfg0.win 1).blk t).view.emb x) = m ((c : Thread nD τ).loc main_arg2) x
  rw [V_main_arg2]
  congr 1
  funext a
  apply Fin.ext
  match a with
  | ⟨0, _⟩ =>
    show win0_1.index t (0 : Fin 2) * 128 + 1 * (x 0).val = (x 0).val
    rw [blk_aux_idx1 t]
    show (0 : Nat) * 128 + 1 * (x 0).val = (x 0).val
    omega
  | ⟨1, _⟩ =>
    show win0_1.index t (1 : Fin 2) * 64 + 1 * (x 1).val = (x 1).val
    rw [blk_aux_idx1 t]
    show (0 : Nat) * 64 + 1 * (x 1).val = (x 1).val
    omega

/-- Window 2's block is b1 as a 1 x 64 row. -/
theorem blk2 (c : Dev nD) (t : Fin cfg0.N) : iblk m c 2 t = (shapeCast S1x64 (m ((c : Thread nD τ).loc main_arg3)) shapeCasts_S64_S1x64) := by
  rw [← blk_aux_v0 m c]
  unfold iblk
  funext x
  rw [View.read_apply]
  show V m c main_v0 (((cfg0.win 2).blk t).view.emb x) = V m c main_v0 x
  congr 1
  funext a
  apply Fin.ext
  match a with
  | ⟨0, _⟩ =>
    show win0_2.index t (0 : Fin 2) * 1 + 1 * (x 0).val = (x 0).val
    rw [blk_aux_idx2 t]
    show (0 : Nat) * 1 + 1 * (x 0).val = (x 0).val
    omega
  | ⟨1, _⟩ =>
    show win0_2.index t (1 : Fin 2) * 64 + 1 * (x 1).val = (x 1).val
    rw [blk_aux_idx2 t]
    show (0 : Nat) * 64 + 1 * (x 1).val = (x 1).val
    omega

/-- Window 3's block is W2. -/
theorem blk3 (c : Dev nD) (t : Fin cfg0.N) : iblk m c 3 t = (m ((c : Thread nD τ).loc main_arg4)) := by
  unfold iblk
  funext x
  rw [View.read_apply]
  show V m c main_arg4 (((cfg0.win 3).blk t).view.emb x) = m ((c : Thread nD τ).loc main_arg4) x
  rw [V_main_arg4]
  congr 1
  funext a
  apply Fin.ext
  match a with
  | ⟨0, _⟩ =>
    show win0_3.index t (0 : Fin 2) * 64 + 1 * (x 0).val = (x 0).val
    rw [blk_aux_idx3 t]
    show (0 : Nat) * 64 + 1 * (x 0).val = (x 0).val
    omega
  | ⟨1, _⟩ =>
    show win0_3.index t (1 : Fin 2) * 40 + 1 * (x 1).val = (x 1).val
    rw [blk_aux_idx3 t]
    show (0 : Nat) * 40 + 1 * (x 1).val = (x 1).val
    omega

/-- Window 4's block is b2 as a 1 x 40 row. -/
theorem blk4 (c : Dev nD) (t : Fin cfg0.N) : iblk m c 4 t = (shapeCast S1x40 (m ((c : Thread nD τ).loc main_arg5)) shapeCasts_S40_S1x40) := by
  rw [← blk_aux_v1 m c]
  unfold iblk
  funext x
  rw [View.read_apply]
  show V m c main_v1 (((cfg0.win 4).blk t).view.emb x) = V m c main_v1 x
  congr 1
  funext a
  apply Fin.ext
  match a with
  | ⟨0, _⟩ =>
    show win0_4.index t (0 : Fin 2) * 1 + 1 * (x 0).val = (x 0).val
    rw [blk_aux_idx4 t]
    show (0 : Nat) * 1 + 1 * (x 0).val = (x 0).val
    omega
  | ⟨1, _⟩ =>
    show win0_4.index t (1 : Fin 2) * 40 + 1 * (x 1).val = (x 1).val
    rw [blk_aux_idx4 t]
    show (0 : Nat) * 40 + 1 * (x 1).val = (x 1).val
    omega

/-- Window 5's block at point t is slab t % 25 of the adjacency matrix: rows 400 (t % 25) .. 400 (t % 25) + 399. -/
theorem blk5 (c : Dev nD) (t : Fin cfg0.N) : iblk m c 5 t = adjSlab (m ((c : Thread nD τ).loc main_arg1)) (t.val % 25) (Nat.mod_lt _ (by decide)) := by
  unfold iblk adjSlab
  funext x
  rw [View.read_apply]
  show V m c main_arg1 (((cfg0.win 5).blk t).view.emb x) = m ((c : Thread nD τ).loc main_arg1) _
  rw [V_main_arg1]
  congr 1
  funext a
  apply Fin.ext
  match a with
  | ⟨0, _⟩ =>
    show win0_5.index t (0 : Fin 2) * 400 + 1 * (x 0).val = 400 * (t.val % 25) + (x 0).val
    rw [blk_aux_idx5 t]
    show (t.val % 25) * 400 + 1 * (x 0).val = 400 * (t.val % 25) + (x 0).val
    omega
  | ⟨1, _⟩ =>
    show win0_5.index t (1 : Fin 2) * 10000 + 1 * (x 1).val = (x 1).val
    rw [blk_aux_idx5 t]
    show (0 : Nat) * 10000 + 1 * (x 1).val = (x 1).val
    omega

/-! ## The assembled results -/

/-- h, row by row: row r is row r % 400 of leaky (A_(r / 400) (y W1) + b1). -/
theorem hfull_eq (c : Dev nD) : hfull m c = pureH (m ((c : Thread nD τ).loc main_arg0)) (m ((c : Thread nD τ).loc main_arg1)) (m ((c : Thread nD τ).loc main_arg2)) (shapeCast S1x64 (m ((c : Thread nD τ).loc main_arg3)) shapeCasts_S64_S1x64) := by
  funext y
  have h0 : (y 0).val < 10000 := (y 0).isLt
  have hk : (y 0).val / 400 % 25 = (y 0).val / 400 := Nat.mod_eq_of_lt (by omega)
  unfold hfull hslab s1v pureH
  rw [blk0, blk1, blk2, blk5]
  exact congrArg (fun S => k0_pay2 S _ _ _) (blk_aux_slab_congr _ hk _ _)

/-- The result, row by row: row r is row r % 400 of softmax (A_(r / 400) (h W2) + b2). -/
theorem ofull_eq (c : Dev nD) : ofull m c = pureOut (hfull m c) (m ((c : Thread nD τ).loc main_arg1)) (m ((c : Thread nD τ).loc main_arg4)) (shapeCast S1x40 (m ((c : Thread nD τ).loc main_arg5)) shapeCasts_S40_S1x40) := by
  funext y
  have h0 : (y 0).val < 10000 := (y 0).isLt
  have hk : (25 + (y 0).val / 400) % 25 = (y 0).val / 400 := by omega
  unfold ofull oslab s2v pureOut
  rw [blk3, blk4, blk5]
  exact congrArg (fun S => k0_pay4 S _ _ _) (blk_aux_slab_congr _ hk _ _)

end Cert.KernelIdeal.Hand

end
-- ==== Proof.KIValue.lean ====
/-
  The kernel's run with its two results named. After every write-back window 7's array is the result assembled from
  its 25 slabs and window 6's array is h; each slab is a payload of blocks of the argument arrays, and the blocks are
  the arrays themselves (the adjacency matrix by 400-row slabs, the two bias vectors as one-row matrices). So the two
  results are the plain-array functions pureOut (pureH ..) .. and pureH .. of the six arguments, which end unchanged.
-/
import proofs.«180651_g84250078479004_cont_9to1_m_1348_24_alg».proof.Proof.KIRun
import proofs.«180651_g84250078479004_cont_9to1_m_1348_24_alg».proof.Proof.KIArr
import proofs.«180651_g84250078479004_cont_9to1_m_1348_24_alg».proof.Proof.KIBlocks

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat RDat Cfg Window cellOf)
open Cert.KernelIdeal Cert.KernelIdeal.Gen

variable {F : FTy → Type} [FloatOps F]

variable (m : (ℓ : Loc nD τ sig) → Buf (Elt F) ℓ) (ρ : Dev nD → PrngReg)

/-- Every weakly fair execution of @main terminates with the second result h, the first result the row softmax of
    A (h W2) + b2, each as the plain-array function of the arguments, and the arguments unchanged. -/
theorem run_values : θ_run defs (onTc (τ := τ) (main (F := F))) ⟨m, fun _ => 0, ρ⟩ (fun r => ∀ c : Dev nD,
      r.2.mem ((c.tc : Thread nD τ).loc main_v2_1) = (pureOut (pureH (m ((c.tc : Thread nD τ).loc main_arg0)) (m ((c.tc : Thread nD τ).loc main_arg1)) (m ((c.tc : Thread nD τ).loc main_arg2)) (shapeCast S1x64 (m ((c.tc : Thread nD τ).loc main_arg3)) shapeCasts_S64_S1x64)) (m ((c.tc : Thread nD τ).loc main_arg1)) (m ((c.tc : Thread nD τ).loc main_arg4)) (shapeCast S1x40 (m ((c.tc : Thread nD τ).loc main_arg5)) shapeCasts_S40_S1x40))
      ∧ r.2.mem ((c.tc : Thread nD τ).loc main_v2_0) = (pureH (m ((c.tc : Thread nD τ).loc main_arg0)) (m ((c.tc : Thread nD τ).loc main_arg1)) (m ((c.tc : Thread nD τ).loc main_arg2)) (shapeCast S1x64 (m ((c.tc : Thread nD τ).loc main_arg3)) shapeCasts_S64_S1x64))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(arrAt7 m c _ ((h c).1 7)).trans ((ofull_eq m c).trans (by rw [hfull_eq])),
      (arrAt6 m c _ ((h c).1 6)).trans (hfull_eq m c),
      (Pipeline.RDat.FramePost.arr_in h c 0 rfl).trans ((A_eq m c 0).trans (V_main_arg0 m c)),
      (Pipeline.RDat.FramePost.arr_in h c 5 rfl).trans ((A_eq m c 5).trans (V_main_arg1 m c)),
      (Pipeline.RDat.FramePost.arr_in h c 1 rfl).trans ((A_eq m c 1).trans (V_main_arg2 m c)),
      ((h c).2 main_arg3 (Pipeline.mem_restRefs_of main_arg3 (by decide) (by decide))).trans (V_main_arg3 m c),
      (Pipeline.RDat.FramePost.arr_in h c 3 rfl).trans ((A_eq m c 3).trans (V_main_arg4 m c)),
      ((h c).2 main_arg5 (Pipeline.mem_restRefs_of main_arg5 (by decide) (by decide))).trans (V_main_arg5 m c)⟩) (run_main m ρ)

end Cert.KernelIdeal.Hand

end
-- ==== Proof.RefSpec.lean ====
/-
  The reference's two results as pure terms of its argument arrays, operation by operation as @main applies them
  (the two outlined functions, the leaky rectifier and its select, inlined at their call):
    h   = select (z1 >= 0) z1 (0.01 z1),            z1 = A (y W1) + b1   (b1 broadcast over the rows)
    out = e / rowsum e,  e = exp (z2 - rowmax z2),  z2 = A (h W2) + b2   (b2 broadcast over the rows)
  with rowmax taken from -inf and once more against a row of -inf, rowsum taken from 0.
-/
import proofs.«180651_g84250078479004_cont_9to1_m_1348_24_alg».proof.Proof.Gen.ReferenceIdeal

noncomputable section

namespace Cert.ReferenceIdeal.Hand

open Cert.ReferenceIdeal Cert.ReferenceIdeal.Gen Idealize.ShloMosaic Idealize.SL.Sem

variable {F : FTy → Type} [FloatOps F]

/-- z1 = A (y W1) + b1. -/
def refZ1 (y : FVec F S10000x128 .f32) (adj : FVec F S10000x10000 .f32) (W1 : FVec F S128x64 .f32) (b1 : FVec F S64 .f32) :
    FVec F S10000x64 .f32 :=
  addf (Host.dotGeneral dot_S10000x10000_S10000x64_S10000x64_1_0_0_1_n_n none adj
      (Host.dotGeneral dot_S10000x128_S128x64_S10000x64_1_0_0_1_n_n none y W1))
    (broadcastInDim S10000x64 ![0, 1] bcast_S1x64_S10000x64_0_1 (broadcastInDim S1x64 ![1] bcast_S64_S1x64_1 b1))

/-- The leaky rectifier with slope f32(0.01), entry by entry: z where z >= 0, slope * z elsewhere. -/
def refLeaky (z : FVec F S10000x64 .f32) : FVec F S10000x64 .f32 :=
  select (cmpf .oge z (broadcastInDim S10000x64 ![] bcast_S_S10000x64 (constant (F := F) S_ .f32 0x00000000#32))) z
    (mulf (broadcastInDim S10000x64 ![] bcast_S_S10000x64 (id (constant (F := F) S_ .f32 0x3C23D70A#32))) z)

/-- h, the reference's second result. -/
def refH (y : FVec F S10000x128 .f32) (adj : FVec F S10000x10000 .f32) (W1 : FVec F S128x64 .f32) (b1 : FVec F S64 .f32) :
    FVec F S10000x64 .f32 :=
  refLeaky (refZ1 y adj W1 b1)

/-- z2 = A (h W2) + b2. -/
def refZ2 (h : FVec F S10000x64 .f32) (adj : FVec F S10000x10000 .f32) (W2 : FVec F S64x40 .f32) (b2 : FVec F S40 .f32) :
    FVec F S10000x40 .f32 :=
  addf (Host.dotGeneral dot_S10000x10000_S10000x40_S10000x40_1_0_0_1_n_n none adj
      (Host.dotGeneral dot_S10000x64_S64x40_S10000x40_1_0_0_1_n_n none h W2))
    (broadcastInDim S10000x40 ![0, 1] bcast_S1x40_S10000x40_0_1 (broadcastInDim S1x40 ![1] bcast_S40_S1x40_1 b2))

/-- The row maximum the softmax subtracts: the maximum over each row from -inf, then once more against -inf. -/
def refRowMax (z : FVec F S10000x40 .f32) : FVec F S10000 .f32 :=
  maximumf (broadcastInDim S10000 ![] bcast_S_S10000 (constant (F := F) S_ .f32 0xFF800000#32))
    (Host.reduce FloatOps.maximumf z (constant (F := F) S_ .f32 0xFF800000#32) reducesTo_S10000x40_S10000_d1 h_S_)

/-- e = exp (z - rowmax z), the row maximum broadcast back over the row. -/
def refExp (z : FVec F S10000x40 .f32) : FVec F S10000x40 .f32 :=
  Host.exp (subf z (broadcastInDim S10000x40 ![0, 1] bcast_S10000x1_S10000x40_0_1
    (broadcastInDim S10000x1 ![0] bcast_S10000_S10000x1_0 (refRowMax z))))

/-- The row softmax: e over its row sum (from 0), the sum broadcast back over the row. -/
def refSoftmax (z : FVec F S10000x40 .f32) : FVec F S10000x40 .f32 :=
  Host.divf (refExp z) (broadcastInDim S10000x40 ![0, 1] bcast_S10000x1_S10000x40_0_1
    (broadcastInDim S10000x1 ![0] bcast_S10000_S10000x1_0
      (Host.reduceAdd (refExp z) (constant (F := F) S_ .f32 0x00000000#32) reducesTo_S10000x40_S10000_d1 h_S_)))

/-- out, the reference's first result. -/
def refOut (y : FVec F S10000x128 .f32) (adj : FVec F S10000x10000 .f32) (W1 : FVec F S128x64 .f32) (b1 : FVec F S64 .f32)
    (W2 : FVec F S64x40 .f32) (b2 : FVec F S40 .f32) : FVec F S10000x40 .f32 :=
  refSoftmax (refZ2 (refH y adj W1 b1) adj W2 b2)

end Cert.ReferenceIdeal.Hand

end
-- ==== Proof.RefRun.lean ====
/-
  The run of the reference program, read back as pure terms of its arguments.

  @main is a straight line of host operations once its one call is read at the call site: the leaky rectifier's six
  operations (the zero and its broadcast, the comparison z >= 0, the slope converted and broadcast, the product
  slope * z) and then the single select of the function it calls in turn, each over the buffers that call names.
  Thirty-two operations in all: six before the call (z1 = A (y W1) + b1, and the slope constant), the seven of the
  call (h = select (z1 >= 0) z1 (slope * z1)), nineteen after it (z2 = A (h W2) + b2, then the row softmax
  e / rowsum e with e = exp (z2 - rowmax z2)).

  Every weakly fair execution of that line terminates, and each buffer then holds the fold of the operations'
  results over the contents at launch. Read at the two result buffers, the fold is the operations' composed term
  of the six argument arrays: out at %21 and h at %5. No operation writes an argument's buffer, so the
  arguments end as they began.
-/
import proofs.«180651_g84250078479004_cont_9to1_m_1348_24_alg».proof.Proof.RefSpec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's thirty-two operations in order, the call read where it stands: operations 7 to 12 are the leaky
    rectifier's over its call's buffers (its first argument z1 = %4, its second the slope constant), operation 13 the
    select it calls (the comparison's mask, z1, slope * z1), whose result buffer is %5. -/
abbrev hostOps : List (HloOp τ sig (Elt F)) :=
  [ binary main_arg0 main_arg2 main_v0 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v0 main_v1 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    unary main_arg3 main_v2 (broadcastInDim S1x64 ![1] bcast_S64_S1x64_1 : (⟨S64, .f32⟩ : BufTy).Contents (Elt F) → (⟨S1x64, .f32⟩ : BufTy).Contents (Elt F)),
    unary main_v2 main_v3 (broadcastInDim S10000x64 ![0, 1] bcast_S1x64_S10000x64_0_1 : (⟨S1x64, .f32⟩ : BufTy).Contents (Elt F) → (⟨S10000x64, .f32⟩ : BufTy).Contents (Elt F)),
    binary main_v1 main_v3 main_v4 (addf : (⟨S10000x64, .f32⟩ : BufTy).Contents (Elt F) → (⟨S10000x64, .f32⟩ : BufTy).Contents (Elt F) → (⟨S10000x64, .f32⟩ : BufTy).Contents (Elt F)),
    nullary main_cst (constant S_ .f32 0x3C23D70A#32),
    TRef.nullary main_call0.cst (constant S_ .f32 0x00000000#32),
    TRef.unary main_call0.cst main_call0.v0 (broadcastInDim S10000x64 ![] bcast_S_S10000x64),
    TRef.binary (.of main_v4 : TRef sig ⟨S10000x64, .f32⟩) main_call0.v0 main_call0.v1 (cmpf .oge),
    TRef.unary (.of main_cst : TRef sig ⟨S_, .f32⟩) main_call0.v2 id,
    TRef.unary main_call0.v2 main_call0.v3 (broadcastInDim S10000x64 ![] bcast_S_S10000x64),
    TRef.binary main_call0.v3 (.of main_v4 : TRef sig ⟨S10000x64, .f32⟩) main_call0.v4 mulf,
    TRef.ternary main_call0.v1 (.of main_v4 : TRef sig ⟨S10000x64, .f32⟩) main_call0.v4 main_call0.call0.v0 select,
    binary main_v5 main_arg4 main_v6 ((fun l r => Host.dotGeneral dot_S10000x64_S64x40_S10000x40_1_0_0_1_n_n none l r) : (⟨S10000x64, .f32⟩ : BufTy).Contents (Elt F) → (⟨S64x40, .f32⟩ : BufTy).Contents (Elt F) → (⟨S10000x40, .f32⟩ : BufTy).Contents (Elt F)),
    binary main_arg1 main_v6 main_v7 ((fun l r => Host.dotGeneral dot_S10000x10000_S10000x40_S10000x40_1_0_0_1_n_n none l r) : (⟨S10000x10000, .f32⟩ : BufTy).Contents (Elt F) → (⟨S10000x40, .f32⟩ : BufTy).Contents (Elt F) → (⟨S10000x40, .f32⟩ : BufTy).Contents (Elt F)),
    unary main_arg5 main_v8 (broadcastInDim S1x40 ![1] bcast_S40_S1x40_1 : (⟨S40, .f32⟩ : BufTy).Contents (Elt F) → (⟨S1x40, .f32⟩ : BufTy).Contents (Elt F)),
    unary main_v8 main_v9 (broadcastInDim S10000x40 ![0, 1] bcast_S1x40_S10000x40_0_1 : (⟨S1x40, .f32⟩ : BufTy).Contents (Elt F) → (⟨S10000x40, .f32⟩ : BufTy).Contents (Elt F)),
    binary main_v7 main_v9 main_v10 (addf : (⟨S10000x40, .f32⟩ : BufTy).Contents (Elt F) → (⟨S10000x40, .f32⟩ : BufTy).Contents (Elt F) → (⟨S10000x40, .f32⟩ : BufTy).Contents (Elt F)),
    nullary main_cst_0 (constant S_ .f32 0xFF800000#32),
    binary main_v10 main_cst_0 main_v11 ((fun x v => Host.reduce FloatOps.maximumf x v reducesTo_S10000x40_S10000_d1 h_S_) : (⟨S10000x40, .f32⟩ : BufTy).Contents (Elt F) → (⟨S_, .f32⟩ : BufTy).Contents (Elt F) → (⟨S10000, .f32⟩ : BufTy).Contents (Elt F)),
    nullary main_cst_1 (constant S_ .f32 0xFF800000#32),
    unary main_cst_1 main_v12 (broadcastInDim S10000 ![] bcast_S_S10000 : (⟨S_, .f32⟩ : BufTy).Contents (Elt F) → (⟨S10000, .f32⟩ : BufTy).Contents (Elt F)),
    binary main_v12 main_v11 main_v13 (maximumf : (⟨S10000, .f32⟩ : BufTy).Contents (Elt F) → (⟨S10000, .f32⟩ : BufTy).Contents (Elt F) → (⟨S10000, .f32⟩ : BufTy).Contents (Elt F)),
    unary main_v13 main_v14 (broadcastInDim S10000x1 ![0] bcast_S10000_S10000x1_0 : (⟨S10000, .f32⟩ : BufTy).Contents (Elt F) → (⟨S10000x1, .f32⟩ : BufTy).Contents (Elt F)),
    unary main_v14 main_v15 (broadcastInDim S10000x40 ![0, 1] bcast_S10000x1_S10000x40_0_1 : (⟨S10000x1, .f32⟩ : BufTy).Contents (Elt F) → (⟨S10000x40, .f32⟩ : BufTy).Contents (Elt F)),
    binary main_v10 main_v15 main_v16 (subf : (⟨S10000x40, .f32⟩ : BufTy).Contents (Elt F) → (⟨S10000x40, .f32⟩ : BufTy).Contents (Elt F) → (⟨S10000x40, .f32⟩ : BufTy).Contents (Elt F)),
    unary main_v16 main_v17 (Host.exp : (⟨S10000x40, .f32⟩ : BufTy).Contents (Elt F) → (⟨S10000x40, .f32⟩ : BufTy).Contents (Elt F)),
    nullary main_cst_2 (constant S_ .f32 0x00000000#32),
    binary main_v17 main_cst_2 main_v18 ((fun x v => Host.reduceAdd x v reducesTo_S10000x40_S10000_d1 h_S_) : (⟨S10000x40, .f32⟩ : BufTy).Contents (Elt F) → (⟨S_, .f32⟩ : BufTy).Contents (Elt F) → (⟨S10000, .f32⟩ : BufTy).Contents (Elt F)),
    unary main_v18 main_v19 (broadcastInDim S10000x1 ![0] bcast_S10000_S10000x1_0 : (⟨S10000, .f32⟩ : BufTy).Contents (Elt F) → (⟨S10000x1, .f32⟩ : BufTy).Contents (Elt F)),
    unary main_v19 main_v20 (broadcastInDim S10000x40 ![0, 1] bcast_S10000x1_S10000x40_0_1 : (⟨S10000x1, .f32⟩ : BufTy).Contents (Elt F) → (⟨S10000x40, .f32⟩ : BufTy).Contents (Elt F)),
    binary main_v17 main_v20 main_v21 (Host.divf : (⟨S10000x40, .f32⟩ : BufTy).Contents (Elt F) → (⟨S10000x40, .f32⟩ : BufTy).Contents (Elt F) → (⟨S10000x40, .f32⟩ : BufTy).Contents (Elt F)) ]

-- thirty-two binds re-associated after the two bodies are unfolded at their calls
set_option maxRecDepth 1024 in
/-- @main is that straight line: with the two functions' bodies unfolded at their calls and sequencing
    re-associated, both sides are one chain of the same steps. -/
theorem main_eq_hostOps (c : Dev nD) : main (F := F) c = seq hostOps := by
  simp only [main, fn_leaky_relu.body, fn_where.body, seq, bind_assoc, pure_bind]

/-- The signature scopes no TensorCore buffer and no semaphore: every buffer is a tensor value. -/
theorem noScopedRefs : (Finset.univ.filter fun b : Ref sig .tc => b.isScoped) = ∅ := by decide
theorem noScopedSems : (Finset.univ.filter fun sm : SemLoc sig => sm.isScoped .tc) = ∅ := by decide

/-- Every operation touches TensorCore buffers only. -/
theorem hostOps_sub : (hostOps : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., binary_bufs_sub ..⟩

/-! ## The fold at the result buffers

The fold unrolled, each operation's result read at its own buffer and passed over at every other, leaves the
operations' composed term. The callee's values come wrapped in the transport between a value's type and its
buffer's type; at these literal buffers the two types are the same and the transport is the identity. What is left
is the specification's term, definition by definition. -/

/-- At %5 the fold is h: the leaky rectifier of z1 = A (y W1) + b1. -/
theorem after_h (V : Valuation τ sig (Elt F)) :
    after hostOps V (main_v5 : DevRef τ sig)
      = refH (V (main_arg0 : DevRef τ sig)) (V (main_arg1 : DevRef τ sig)) (V (main_arg2 : DevRef τ sig))
          (V (main_arg3 : DevRef τ sig)) := by
  after_results_simp
  simp only [TRef.ofBuf, TRef.toBuf, cast_eq]
  rfl

/-- At %21 the fold is out: the row softmax of z2 = A (h W2) + b2. -/
theorem after_out (V : Valuation τ sig (Elt F)) :
    after hostOps V (main_v21 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  simp only [TRef.ofBuf, TRef.toBuf, cast_eq]
  rfl

/-! ## The arguments: no operation writes them -/

theorem after_arg0 (V : Valuation τ sig (Elt F)) :
    after hostOps V (main_arg0 : DevRef τ sig) = V (main_arg0 : DevRef τ sig) := by
  after_results_simp

theorem after_arg1 (V : Valuation τ sig (Elt F)) :
    after hostOps V (main_arg1 : DevRef τ sig) = V (main_arg1 : DevRef τ sig) := by
  after_results_simp

theorem after_arg2 (V : Valuation τ sig (Elt F)) :
    after hostOps V (main_arg2 : DevRef τ sig) = V (main_arg2 : DevRef τ sig) := by
  after_results_simp

theorem after_arg3 (V : Valuation τ sig (Elt F)) :
    after hostOps V (main_arg3 : DevRef τ sig) = V (main_arg3 : DevRef τ sig) := by
  after_results_simp

theorem after_arg4 (V : Valuation τ sig (Elt F)) :
    after hostOps V (main_arg4 : DevRef τ sig) = V (main_arg4 : DevRef τ sig) := by
  after_results_simp

theorem after_arg5 (V : Valuation τ sig (Elt F)) :
    after hostOps V (main_arg5 : DevRef τ sig) = V (main_arg5 : DevRef τ sig) := by
  after_results_simp

/-! ## The run -/

/-- On every device, for any float values, from any memory with zero counters: every weakly fair execution of
    @main terminates with out at %21 and h at %5, each the specification's term of the arguments' contents at
    launch, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v5) = refH (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v21).trans (after_out _), (h c main_v5).trans (after_h _),
      (h c main_arg0).trans (after_arg0 _), (h c main_arg1).trans (after_arg1 _), (h c main_arg2).trans (after_arg2 _),
      (h c main_arg3).trans (after_arg3 _), (h c main_arg4).trans (after_arg4 _), (h c main_arg5).trans (after_arg5 _)⟩)
    (run_seq noScopedRefs noScopedSems defs main (fun _ => hostOps) main_eq_hostOps (fun _ => hostOps_sub) m ρ)

end Cert.ReferenceIdeal.Hand

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibBroadcastInDim.lean ====
/-
  A host `broadcast_in_dim` between a vector, a one-row or one-column matrix and a matrix, read at an entry (general
  in the sizes): a vector laid along the columns of a one-row matrix or along the rows of a one-column matrix, and a
  one-row or one-column matrix spread over all rows or all columns. Each reads the operand at the coordinate that
  survives.
-/
import Idealize.ShloMosaic.Lib.Pipeline.Value
import Idealize.ShloMosaic.Lib.ValueIdx

namespace Idealize.ShloMosaic.ValueLayout

open Idealize.ShloMosaic.ValueIdx

variable {α : Type}

/-- A vector `[n]` laid as the one row of `[1, n]` reads, at `(u, i)`, the vector at `i`. -/
theorem bcast_n_1n_apply {n : ℕ} (h : (⟨1, ![n]⟩ : Shape).BroadcastsInDim ⟨2, ![1, n]⟩ (![1] : Fin 1 → Fin 2))
    (x : (⟨1, ![n]⟩ : Shape).Idx → α) (u : Fin 1) (i : Fin n) :
    broadcastInDim ⟨2, ![1, n]⟩ ![1] h x (ix2 u i) = x (ix1 i) :=
  broadcastInDim_apply _ h x _ _ (fun a => by
    match a with
    | ⟨0, _⟩ =>
      show i.val = if n = 1 then 0 else i.val
      split
      · have := i.isLt; omega
      · rfl)

/-- A vector `[n]` laid as the one column of `[n, 1]` reads, at `(i, u)`, the vector at `i`. -/
theorem bcast_n_n1_apply {n : ℕ} (h : (⟨1, ![n]⟩ : Shape).BroadcastsInDim ⟨2, ![n, 1]⟩ (![0] : Fin 1 → Fin 2))
    (x : (⟨1, ![n]⟩ : Shape).Idx → α) (i : Fin n) (u : Fin 1) :
    broadcastInDim ⟨2, ![n, 1]⟩ ![0] h x (ix2 i u) = x (ix1 i) :=
  broadcastInDim_apply _ h x _ _ (fun a => by
    match a with
    | ⟨0, _⟩ =>
      show i.val = if n = 1 then 0 else i.val
      split
      · have := i.isLt; omega
      · rfl)

/-- A one-row matrix `[1, n]` spread over `r` rows reads, at `(p, i)`, the row at `i`. -/
theorem bcast_1n_rn_apply {r n : ℕ} (h : (⟨2, ![1, n]⟩ : Shape).BroadcastsInDim ⟨2, ![r, n]⟩ (![0, 1] : Fin 2 → Fin 2))
    (x : (⟨2, ![1, n]⟩ : Shape).Idx → α) (p : Fin r) (i : Fin n) :
    broadcastInDim ⟨2, ![r, n]⟩ ![0, 1] h x (ix2 p i) = x (ix2 (0 : Fin 1) i) :=
  broadcastInDim_apply _ h x _ _ (fun a => by
    match a with
    | ⟨0, _⟩ => show (0 : ℕ) = if (1 : ℕ) = 1 then 0 else p.val; rw [if_pos rfl]
    | ⟨1, _⟩ =>
      show i.val = if n = 1 then 0 else i.val
      split
      · have := i.isLt; omega
      · rfl)

/-- A one-column matrix `[r, 1]` spread over `n` columns reads, at `(p, i)`, the column at `p`. -/
theorem bcast_r1_rn_apply {r n : ℕ} (h : (⟨2, ![r, 1]⟩ : Shape).BroadcastsInDim ⟨2, ![r, n]⟩ (![0, 1] : Fin 2 → Fin 2))
    (x : (⟨2, ![r, 1]⟩ : Shape).Idx → α) (p : Fin r) (i : Fin n) :
    broadcastInDim ⟨2, ![r, n]⟩ ![0, 1] h x (ix2 p i) = x (ix2 p (0 : Fin 1)) :=
  broadcastInDim_apply _ h x _ _ (fun a => by
    match a with
    | ⟨0, _⟩ =>
      show p.val = if r = 1 then 0 else p.val
      split
      · have := p.isLt; omega
      · rfl
    | ⟨1, _⟩ => show (0 : ℕ) = if (1 : ℕ) = 1 then 0 else i.val; rw [if_pos rfl])

end Idealize.ShloMosaic.ValueLayout
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.BridgeH.lean ====
/-
  At the ideal instance the kernel's h, as a function of plain arrays, is the reference's.

  Entry (j, q) of either is  leaky (sum over k of A (j, k) * (sum over l of y (k, l) * W1 (l, q)) + b1 q),  leaky z being
  z where z >= 0 and slope * z elsewhere with the one slope word both programs carry. On the kernel's side row j is
  row j % 400 of slab j / 400, and 400 (j / 400) + j % 400 = j; its two matrix products run into a zero accumulator
  and read as the plain sums, its same-shape casts are identities, its bias row [1, 64] is broadcast down the slab's
  rows. On the reference's side the two host products read as the same sums and the bias vector is broadcast to a row
  and then over the rows. No step uses that an entry is finite.
-/
import proofs.«180651_g84250078479004_cont_9to1_m_1348_24_alg».proof.Proof.KIPure
import proofs.«180651_g84250078479004_cont_9to1_m_1348_24_alg».proof.Proof.RefSpec
import proofs.«180651_g84250078479004_cont_9to1_m_1348_24_alg».proof.Proof.LibPlainDot
import proofs.«180651_g84250078479004_cont_9to1_m_1348_24_alg».proof.Proof.LibBroadcastInDim
import proofs.«180651_g84250078479004_cont_9to1_m_1348_24_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Idealize.SL.Sem
open scoped BigOperators

/-- The kernel's first product, y W1, has the plain dimension numbers. -/
theorem bh_plain_k1 : PlainDot.IsPlain (R := 10000) (K := 128) (N := 64) Cert.KernelIdeal.dot_S10000x128_S128x64_S10000x64_1_0_0_1_n_n :=
  ⟨rfl, rfl, rfl, rfl, rfl, rfl⟩

/-- The kernel's second product, a slab of A times y W1, has the plain dimension numbers. -/
theorem bh_plain_k2 : PlainDot.IsPlain (R := 400) (K := 10000) (N := 64) Cert.KernelIdeal.dot_S400x10000_S10000x64_S400x64_1_0_0_1_n_n :=
  ⟨rfl, rfl, rfl, rfl, rfl, rfl⟩

/-- The reference's first product, y W1, has the plain dimension numbers. -/
theorem bh_plain_r1 : PlainDot.IsPlain (R := 10000) (K := 128) (N := 64) Cert.ReferenceIdeal.dot_S10000x128_S128x64_S10000x64_1_0_0_1_n_n :=
  ⟨rfl, rfl, rfl, rfl, rfl, rfl⟩

/-- The reference's second product, A times y W1, has the plain dimension numbers. -/
theorem bh_plain_r2 : PlainDot.IsPlain (R := 10000) (K := 10000) (N := 64) Cert.ReferenceIdeal.dot_S10000x10000_S10000x64_S10000x64_1_0_0_1_n_n :=
  ⟨rfl, rfl, rfl, rfl, rfl, rfl⟩

/-- The leaky rectifier at one entry: z where z >= 0, slope * z elsewhere, the slope kept as its word. -/
def bh_leaky (z : EReal) : EReal :=
  Scalar.select (FloatOps.cmpf (F := Ideal) (φ := .f32) .oge z (Ideal.ofBits .f32 0x00000000#32)) z
    (Ideal.ofBits .f32 0x3C23D70A#32 * z)

/-- A slab's product into the zero accumulator at (r, q): the sum over k of A (r, k) * s (k, q). -/
theorem bh_matmul_k2 (A : FVec Ideal Cert.KernelIdeal.S400x10000 .f32) (s : FVec Ideal Cert.KernelIdeal.S10000x64 .f32)
    (r : Fin 400) (q : Fin 64) :
    matmul Cert.KernelIdeal.dot_S400x10000_S10000x64_S400x64_1_0_0_1_n_n none A s
        (constant (F := Ideal) Cert.KernelIdeal.S400x64 .f32 0x00000000#32) (ix2 r q)
      = ∑ k : Fin 10000, A (ix2 r k) * s (ix2 k q) :=
  PlainDot.matmul_zero_apply bh_plain_k2 none A s r q

/-- The reference's y W1 at (p, q): the sum over l of y (p, l) * W1 (l, q). -/
theorem bh_dot_r1 (y : FVec Ideal Cert.ReferenceIdeal.S10000x128 .f32) (W1 : FVec Ideal Cert.ReferenceIdeal.S128x64 .f32)
    (p : Fin 10000) (q : Fin 64) :
    Host.dotGeneral (F := Ideal) Cert.ReferenceIdeal.dot_S10000x128_S128x64_S10000x64_1_0_0_1_n_n none y W1 (ix2 p q)
      = ∑ l : Fin 128, y (ix2 p l) * W1 (ix2 l q) :=
  PlainDot.dotGeneral_apply bh_plain_r1 none .single y W1 p q

/-- The reference's A s at (p, q): the sum over k of A (p, k) * s (k, q). -/
theorem bh_dot_r2 (adj : FVec Ideal Cert.ReferenceIdeal.S10000x10000 .f32) (s : FVec Ideal Cert.ReferenceIdeal.S10000x64 .f32)
    (p : Fin 10000) (q : Fin 64) :
    Host.dotGeneral (F := Ideal) Cert.ReferenceIdeal.dot_S10000x10000_S10000x64_S10000x64_1_0_0_1_n_n none adj s (ix2 p q)
      = ∑ k : Fin 10000, adj (ix2 p k) * s (ix2 k q) :=
  PlainDot.dotGeneral_apply bh_plain_r2 none .single adj s p q

/-- A scalar spread over a matrix reads the scalar at every entry. -/
theorem bh_bcast_scalar {α : Type} {r n : ℕ} (h : (⟨0, ![]⟩ : Shape).BroadcastsInDim ⟨2, ![r, n]⟩ (![] : Fin 0 → Fin 2))
    (x : (⟨0, ![]⟩ : Shape).Idx → α) (j : (⟨2, ![r, n]⟩ : Shape).Idx) :
    broadcastInDim ⟨2, ![r, n]⟩ ![] h x j = x ix0 :=
  broadcastInDim_apply _ h x _ _ (fun a => a.elim0)

/-- The kernel's first payload at (p, q): (y W1) (p, q), the same-shape cast being the identity. -/
theorem bh_pay1_apply (y : FVec Ideal Cert.KernelIdeal.S10000x128 .f32) (W1 : FVec Ideal Cert.KernelIdeal.S128x64 .f32)
    (p : Fin 10000) (q : Fin 64) :
    Cert.KernelIdeal.Gen.k0_pay1 (F := Ideal) y W1 (ix2 p q) = ∑ l : Fin 128, y (ix2 p l) * W1 (ix2 l q) := by
  unfold Cert.KernelIdeal.Gen.k0_pay1
  rw [shapeCast_self]
  exact PlainDot.matmul_zero_apply bh_plain_k1 none y W1 p q

/-- The kernel's second payload at (r, q): leaky ((A s) (r, q) + b (0, q)), the bias row read at its one row. -/
theorem bh_pay2_apply (A : FVec Ideal Cert.KernelIdeal.S400x10000 .f32) (s : FVec Ideal Cert.KernelIdeal.S10000x64 .f32)
    (brow : FVec Ideal Cert.KernelIdeal.S1x64 .f32) (r : Fin 400) (q : Fin 64) :
    Cert.KernelIdeal.Gen.k0_pay2 (F := Ideal) A s brow (ix2 r q)
      = bh_leaky ((∑ k : Fin 10000, A (ix2 r k) * s (ix2 k q)) + brow (ix2 (0 : Fin 1) q)) := by
  unfold Cert.KernelIdeal.Gen.k0_pay2
  rw [select_apply, cmpf_apply, mulf_apply, addf_apply, broadcast_apply, broadcast_apply,
    bh_matmul_k2, broadcastTo_1b_ab_apply, shapeCast_self]
  rfl

/-- The reference's h at (p, q): leaky (Σ_k A (p, k) * (Σ_l y (k, l) * W1 (l, q)) + b1 q). -/
theorem bh_refH_apply (y : FVec Ideal Cert.KernelIdeal.S10000x128 .f32) (adj : FVec Ideal Cert.KernelIdeal.S10000x10000 .f32)
    (W1 : FVec Ideal Cert.KernelIdeal.S128x64 .f32) (b1 : FVec Ideal Cert.KernelIdeal.S64 .f32) (p : Fin 10000) (q : Fin 64) :
    Cert.ReferenceIdeal.Hand.refH (F := Ideal) y adj W1 b1 (ix2 p q)
      = bh_leaky ((∑ k : Fin 10000, adj (ix2 p k) * (∑ l : Fin 128, y (ix2 k l) * W1 (ix2 l q))) + b1 (ix1 q)) := by
  unfold Cert.ReferenceIdeal.Hand.refH Cert.ReferenceIdeal.Hand.refLeaky Cert.ReferenceIdeal.Hand.refZ1
  rw [select_apply, cmpf_apply, mulf_apply, addf_apply, bh_dot_r2, bh_bcast_scalar, bh_bcast_scalar,
    ValueLayout.bcast_1n_rn_apply, ValueLayout.bcast_n_1n_apply]
  simp only [bh_dot_r1]
  rfl

/-- The kernel's h at (p, q): row p lies in slab p / 400 at row p % 400, and 400 * (p / 400) + p % 400 = p, so the
    slab's row is A's row p: leaky (Σ_k A (p, k) * (Σ_l y (k, l) * W1 (l, q)) + b (0, q)). -/
theorem bh_pureH_apply (y : FVec Ideal Cert.KernelIdeal.S10000x128 .f32) (adj : FVec Ideal Cert.KernelIdeal.S10000x10000 .f32)
    (W1 : FVec Ideal Cert.KernelIdeal.S128x64 .f32) (brow : FVec Ideal Cert.KernelIdeal.S1x64 .f32) (p : Fin 10000) (q : Fin 64) :
    Cert.KernelIdeal.Hand.pureH (F := Ideal) y adj W1 brow (ix2 p q)
      = bh_leaky ((∑ k : Fin 10000, adj (ix2 p k) * (∑ l : Fin 128, y (ix2 k l) * W1 (ix2 l q))) + brow (ix2 (0 : Fin 1) q)) := by
  unfold Cert.KernelIdeal.Hand.pureH
  refine (bh_pay2_apply _ _ _ _ _).trans ?_
  refine congrArg bh_leaky ?_
  refine congrArg₂ (· + ·) ?_ rfl
  refine Finset.sum_congr rfl fun k _ => ?_
  rw [bh_pay1_apply]
  refine congrArg₂ (· * ·) ?_ rfl
  unfold Cert.KernelIdeal.Hand.adjSlab
  refine congrArg adj ?_
  exact congrArg₂ ix2 (Fin.ext (Nat.div_add_mod p.val 400)) rfl

theorem pureH_eq_refH (y : FVec Ideal Cert.KernelIdeal.S10000x128 .f32) (adj : FVec Ideal Cert.KernelIdeal.S10000x10000 .f32)
    (W1 : FVec Ideal Cert.KernelIdeal.S128x64 .f32) (b1 : FVec Ideal Cert.KernelIdeal.S64 .f32) :
    Cert.KernelIdeal.Hand.pureH (F := Ideal) y adj W1 (shapeCast Cert.KernelIdeal.S1x64 b1 Cert.KernelIdeal.Gen.shapeCasts_S64_S1x64)
      = Cert.ReferenceIdeal.Hand.refH (F := Ideal) y adj W1 b1 := by
  funext j
  obtain ⟨p, q, rfl⟩ : ∃ (p : Fin 10000) (q : Fin 64), j = ix2 p q := ⟨j 0, j 1, eq_ix2 j⟩
  rw [bh_refH_apply, bh_pureH_apply, shapeCast_a_1a_apply]

end Cert.Bridge

end
-- ==== Proof.BridgeOut.lean ====
/-
  At the ideal instance the kernel's second layer, as a function of plain arrays, is the reference's row softmax.

  With z (j, q) = sum over k of A (j, k) * (sum over l of h (k, l) * W2 (l, q)) + b2 q, entry (j, q) of either side is
  e (j, q) / (sum over q' of e (j, q')),  e (j, q) = exp (z (j, q) - max over q' of z (j, q')).  On the kernel's side row
  j is row j % 400 of slab j / 400; its products run into a zero accumulator and read as the plain sums; its lane
  maximum is the fold of max over the row's 40 entries from minus infinity and its lane sum the sum from zero; the
  [400] -> [400, 1] casts and the broadcasts back over the row put each row's maximum and sum beside every entry of
  that row. On the reference's side the host reductions are the same fold and the same sum, the second maximum
  against a row of minus infinity changes nothing because minus infinity is the least extended real, and the two
  broadcasts do what the cast and broadcast do. Exponential and quotient are one function on both sides. No step uses
  that an entry is finite.
-/
import proofs.«180651_g84250078479004_cont_9to1_m_1348_24_alg».proof.Proof.KIPure
import proofs.«180651_g84250078479004_cont_9to1_m_1348_24_alg».proof.Proof.RefSpec
import proofs.«180651_g84250078479004_cont_9to1_m_1348_24_alg».proof.Proof.LibPlainDot
import proofs.«180651_g84250078479004_cont_9to1_m_1348_24_alg».proof.Proof.LibBroadcastInDim
import proofs.«180651_g84250078479004_cont_9to1_m_1348_24_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Idealize.SL.Sem
open scoped BigOperators

open Idealize.ShloMosaic.ValueLayout Idealize.ShloMosaic.PlainDot

/-! ## The row softmax on the extended reals -/

/-- The maximum of a row of forty entries, folded from -∞. -/
def bo_max (z : Fin 40 → EReal) : EReal := (Finset.univ : Finset (Fin 40)).fold max ⊥ z

/-- Entry `q` of the softmax of a row: `exp (z q - max z)` over the sum of these along the row. -/
def bo_soft (z : Fin 40 → EReal) (q : Fin 40) : EReal :=
  Ideal.div (Ideal.exp (z q - bo_max z)) (∑ q' : Fin 40, Ideal.exp (z q' - bo_max z))

/-- The f32 word of -∞ denotes `⊥`. -/
theorem bo_neg_inf : Ideal.ofBits .f32 0xFF800000#32 = ⊥ := by
  simp [Ideal.ofBits, Ideal.ieee]

/-- In a matrix reduced along its rows, the index over row `p` with the coordinate `k` put back is `(p, k)`. -/
theorem bo_lift {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-! ## The kernel's lane reductions -/

/-- The lane maximum of a 400 x 40 slab from -∞, at row `p`: the maximum of that row. -/
theorem bo_kmax_apply (z : FVec Ideal Cert.KernelIdeal.S400x40 .f32)
    (h : Cert.KernelIdeal.S400x40.Reduces [1] Cert.KernelIdeal.S400) (hφ : FKind.Formats .f32)
    (hacc : (0xFF800000#32 : BitVec 32) = FKind.maximumf.neutral .f32 hφ) (p : Fin 400) :
    multiReduction .maximumf [1] Cert.KernelIdeal.S400 z 0xFF800000#32 h hφ hacc (ix1 p) = bo_max fun q => z (ix2 p q) := by
  refine (Ideal.multiReduction_maximumf_single z _ h hφ hacc (ix1 p)).trans ?_
  show (Finset.univ : Finset (Fin 40)).fold max (Ideal.ofBits .f32 0xFF800000#32) (fun k => z (h.lift (ix1 p) k)) = _
  rw [bo_neg_inf]
  have hf : (fun k : Fin 40 => z (h.lift (ix1 p) k)) = fun q => z (ix2 p q) := funext fun k => by rw [bo_lift]
  exact congrArg (fun f : Fin 40 → EReal => (Finset.univ : Finset (Fin 40)).fold max ⊥ f) hf

/-- The lane sum of a 400 x 40 slab from 0, at row `p`: the sum of that row. -/
theorem bo_ksum_apply (e : FVec Ideal Cert.KernelIdeal.S400x40 .f32)
    (h : Cert.KernelIdeal.S400x40.Reduces [1] Cert.KernelIdeal.S400) (hφ : FKind.Formats .f32)
    (hacc : (0x00000000#32 : BitVec 32) = FKind.add.neutral .f32 hφ) (p : Fin 400) :
    multiReduction .add [1] Cert.KernelIdeal.S400 e 0x00000000#32 h hφ hacc (ix1 p) = ∑ q : Fin 40, e (ix2 p q) := by
  refine (Ideal.multiReduction_add_single e _ h hφ hacc (ix1 p)).trans ?_
  show ∑ k : Fin 40, e (h.lift (ix1 p) k) = _
  exact Finset.sum_congr rfl fun k _ => by rw [bo_lift]

/-! ## The reference's reductions and broadcasts -/

/-- A scalar broadcast over a vector reads the scalar everywhere. -/
theorem bo_bcast_scalar {α : Type} {n : ℕ} (h : (⟨0, ![]⟩ : Shape).BroadcastsInDim ⟨1, ![n]⟩ (![] : Fin 0 → Fin 1))
    (x : (⟨0, ![]⟩ : Shape).Idx → α) (i : Fin n) : broadcastInDim ⟨1, ![n]⟩ ![] h x (ix1 i) = x ix0 :=
  broadcastInDim_apply _ h x _ _ (fun a => a.elim0)

/-- The reference's row maximum (from -∞, then once more against -∞) at row `r`: the maximum of that row. -/
theorem bo_refRowMax_apply (z : FVec Ideal Cert.ReferenceIdeal.S10000x40 .f32) (r : Fin 10000) :
    Cert.ReferenceIdeal.Hand.refRowMax (F := Ideal) z (ix1 r) = bo_max fun q => z (ix2 r q) := by
  have hred : Cert.ReferenceIdeal.S10000x40.Reduces [1] Cert.ReferenceIdeal.S10000 := by decide
  unfold Cert.ReferenceIdeal.Hand.refRowMax
  rw [maximumf_apply, bo_bcast_scalar, constant_apply, bo_neg_inf, max_bot_left,
    Host.reduce_eq_fold_single FloatOps.maximumf z _ _ hred _ (ix1 r), constant_apply, bo_neg_inf]
  show (Finset.univ : Finset (Fin 40)).fold max ⊥ (fun k => z (hred.lift (ix1 r) k)) = _
  have hf : (fun k : Fin 40 => z (hred.lift (ix1 r) k)) = fun q => z (ix2 r q) := funext fun k => by rw [bo_lift]
  exact congrArg (fun f : Fin 40 → EReal => (Finset.univ : Finset (Fin 40)).fold max ⊥ f) hf

/-- The reference's row sum from 0, at row `r`: the sum of that row. -/
theorem bo_refRowSum_apply (e : FVec Ideal Cert.ReferenceIdeal.S10000x40 .f32)
    (h' : Cert.ReferenceIdeal.S10000x40.ReducesTo [1] Cert.ReferenceIdeal.S10000) (hu : 0 < Cert.ReferenceIdeal.S_.numel)
    (r : Fin 10000) :
    Host.reduceAdd (F := Ideal) e (constant (F := Ideal) Cert.ReferenceIdeal.S_ .f32 0x00000000#32) h' hu (ix1 r)
      = ∑ q : Fin 40, e (ix2 r q) := by
  have hred : Cert.ReferenceIdeal.S10000x40.Reduces [1] Cert.ReferenceIdeal.S10000 := by decide
  show Ideal.hostReduceAdd h' e (Ideal.ofBits .f32 0x00000000#32) (ix1 r) = _
  rw [Ideal.hostReduceAdd_single h' hred, Ideal.ofBits_zero_f32, zero_add]
  show ∑ k : Fin 40, e (hred.lift (ix1 r) k) = _
  exact Finset.sum_congr rfl fun k _ => by rw [bo_lift]

/-- The reference's `exp (z - rowmax z)` at `(r, q)`. -/
theorem bo_refExp_apply (z : FVec Ideal Cert.ReferenceIdeal.S10000x40 .f32) (r : Fin 10000) (q : Fin 40) :
    Cert.ReferenceIdeal.Hand.refExp (F := Ideal) z (ix2 r q) = Ideal.exp (z (ix2 r q) - bo_max fun q' => z (ix2 r q')) := by
  unfold Cert.ReferenceIdeal.Hand.refExp
  show Ideal.exp (subf z _ (ix2 r q)) = _
  rw [subf_apply, bcast_r1_rn_apply, bcast_n_n1_apply, bo_refRowMax_apply]

/-- The reference's row softmax at `(r, q)`: the softmax of row `r` at `q`. -/
theorem bo_refSoftmax_apply (z : FVec Ideal Cert.ReferenceIdeal.S10000x40 .f32) (r : Fin 10000) (q : Fin 40) :
    Cert.ReferenceIdeal.Hand.refSoftmax (F := Ideal) z (ix2 r q) = bo_soft (fun q' => z (ix2 r q')) q := by
  unfold Cert.ReferenceIdeal.Hand.refSoftmax
  show Ideal.div (Cert.ReferenceIdeal.Hand.refExp (F := Ideal) z (ix2 r q)) (broadcastInDim _ _ _ _ (ix2 r q)) = _
  rw [bcast_r1_rn_apply, bcast_n_n1_apply, bo_refRowSum_apply, bo_refExp_apply]
  unfold bo_soft
  exact congrArg _ (Finset.sum_congr rfl fun q' _ => bo_refExp_apply z r q')

/-! ## The two matrix products and the bias row -/

/-- Entry `(r, q)` of `z2 = A (h W2) + b2`. -/
def bo_z (h : FVec Ideal Cert.KernelIdeal.S10000x64 .f32) (adj : FVec Ideal Cert.KernelIdeal.S10000x10000 .f32)
    (W2 : FVec Ideal Cert.KernelIdeal.S64x40 .f32) (b2 : FVec Ideal Cert.KernelIdeal.S40 .f32) (r : Fin 10000) (q : Fin 40) : EReal :=
  (∑ k : Fin 10000, adj (ix2 r k) * ∑ l : Fin 64, h (ix2 k l) * W2 (ix2 l q)) + b2 (ix1 q)

theorem bo_plain_ref_outer : IsPlain Cert.ReferenceIdeal.dot_S10000x10000_S10000x40_S10000x40_1_0_0_1_n_n :=
  ⟨rfl, rfl, rfl, rfl, rfl, rfl⟩
theorem bo_plain_ref_inner : IsPlain Cert.ReferenceIdeal.dot_S10000x64_S64x40_S10000x40_1_0_0_1_n_n :=
  ⟨rfl, rfl, rfl, rfl, rfl, rfl⟩
theorem bo_plain_ker_outer : IsPlain Cert.KernelIdeal.dot_S400x10000_S10000x40_S400x40_1_0_0_1_n_n :=
  ⟨rfl, rfl, rfl, rfl, rfl, rfl⟩
theorem bo_plain_ker_inner : IsPlain Cert.KernelIdeal.dot_S10000x64_S64x40_S10000x40_1_0_0_1_n_n :=
  ⟨rfl, rfl, rfl, rfl, rfl, rfl⟩

/-- The reference's `z2` at `(r, q)`. -/
theorem bo_refZ2_apply (h : FVec Ideal Cert.KernelIdeal.S10000x64 .f32) (adj : FVec Ideal Cert.KernelIdeal.S10000x10000 .f32)
    (W2 : FVec Ideal Cert.KernelIdeal.S64x40 .f32) (b2 : FVec Ideal Cert.KernelIdeal.S40 .f32) (r : Fin 10000) (q : Fin 40) :
    Cert.ReferenceIdeal.Hand.refZ2 (F := Ideal) h adj W2 b2 (ix2 r q) = bo_z h adj W2 b2 r q := by
  unfold Cert.ReferenceIdeal.Hand.refZ2 bo_z
  rw [addf_apply, bcast_1n_rn_apply, bcast_n_1n_apply]
  simp only [Host.dotGeneral]
  rw [PlainDot.dotGeneral_apply bo_plain_ref_outer]
  exact congrArg (· + b2 (ix1 q)) (Finset.sum_congr rfl fun k _ => by rw [PlainDot.dotGeneral_apply bo_plain_ref_inner])

/-- The kernel's product `h W2` (its third payload) at `(k, q)`. -/
theorem bo_pay3_apply (h : FVec Ideal Cert.KernelIdeal.S10000x64 .f32) (W2 : FVec Ideal Cert.KernelIdeal.S64x40 .f32)
    (k : Fin 10000) (q : Fin 40) :
    Cert.KernelIdeal.Gen.k0_pay3 (F := Ideal) h W2 (ix2 k q) = ∑ l : Fin 64, h (ix2 k l) * W2 (ix2 l q) := by
  show shapeCast _ (FloatOps.matmul Cert.KernelIdeal.dot_S10000x64_S64x40_S10000x40_1_0_0_1_n_n none (shapeCast _ h _) W2
    (constant _ .f32 0x00000000#32)) _ (ix2 k q) = _
  rw [shapeCast_self, shapeCast_self]
  exact PlainDot.matmul_zero_apply bo_plain_ker_inner none h W2 k q

/-- Row `r % 400` of slab `r / 400` of the adjacency matrix is its row `r`. -/
theorem bo_adjSlab_apply (adj : FVec Ideal Cert.KernelIdeal.S10000x10000 .f32) (r : Fin 10000) (hi : r.val / 400 < 25)
    (hm : r.val % 400 < 400) (k : Fin 10000) :
    Cert.KernelIdeal.Hand.adjSlab (F := Ideal) adj (r.val / 400) hi (ix2 (⟨r.val % 400, hm⟩ : Fin 400) k) = adj (ix2 r k) := by
  unfold Cert.KernelIdeal.Hand.adjSlab
  exact congrArg adj (funext fun c => Fin.ext (by
    match c with
    | ⟨0, _⟩ => exact Nat.div_add_mod r.val 400
    | ⟨1, _⟩ => rfl))

/-! ## The kernel's fourth payload -/

theorem bo_fmt : FKind.Formats .f32 := .inl rfl
theorem bo_hmax : (0xFF800000#32 : BitVec 32) = FKind.maximumf.neutral .f32 bo_fmt := rfl
theorem bo_hadd : (0x00000000#32 : BitVec 32) = FKind.add.neutral .f32 bo_fmt := rfl

/-- `A s2 + b` on a slab, the bias row spread over the 400 rows. -/
def bo_kz (A : FVec Ideal Cert.KernelIdeal.S400x10000 .f32) (s2 : FVec Ideal Cert.KernelIdeal.S10000x40 .f32)
    (brow : FVec Ideal Cert.KernelIdeal.S1x40 .f32) : FVec Ideal Cert.KernelIdeal.S400x40 .f32 :=
  addf (FloatOps.matmul Cert.KernelIdeal.dot_S400x10000_S10000x40_S400x40_1_0_0_1_n_n none A s2
      (constant Cert.KernelIdeal.S400x40 .f32 0x00000000#32))
    (broadcastTo Cert.KernelIdeal.S400x40 (shapeCast Cert.KernelIdeal.S1x40 brow Cert.KernelIdeal.Gen.shapeCasts_S1x40_S1x40)
      Cert.KernelIdeal.Gen.broadcasts_S1x40_S400x40)

/-- `exp (z - lane maximum of z)` on a slab, the maximum kept as a column and spread back over the lanes. -/
def bo_kexp (z : FVec Ideal Cert.KernelIdeal.S400x40 .f32) : FVec Ideal Cert.KernelIdeal.S400x40 .f32 :=
  exp (subf z (broadcastTo Cert.KernelIdeal.S400x40
    (shapeCast Cert.KernelIdeal.S400x1
      (multiReduction .maximumf [1] Cert.KernelIdeal.S400 z 0xFF800000#32 Cert.KernelIdeal.Gen.reduces_S400x40_S400 bo_fmt bo_hmax)
      Cert.KernelIdeal.Gen.shapeCasts_S400_S400x1)
    Cert.KernelIdeal.Gen.broadcasts_S400x1_S400x40))

/-- The slab's softmax as the kernel's vector operations compute it: `e` over its lane sum. -/
def bo_ksoft (z : FVec Ideal Cert.KernelIdeal.S400x40 .f32) : FVec Ideal Cert.KernelIdeal.S400x40 .f32 :=
  divf (bo_kexp z) (broadcastTo Cert.KernelIdeal.S400x40
    (shapeCast Cert.KernelIdeal.S400x1
      (multiReduction .add [1] Cert.KernelIdeal.S400 (bo_kexp z) 0x00000000#32 Cert.KernelIdeal.Gen.reduces_S400x40_S400 bo_fmt bo_hadd)
      Cert.KernelIdeal.Gen.shapeCasts_S400_S400x1)
    Cert.KernelIdeal.Gen.broadcasts_S400x1_S400x40)

/-- The fourth payload is that softmax of `A s2 + b`. -/
theorem bo_pay4_eq (A : FVec Ideal Cert.KernelIdeal.S400x10000 .f32) (s2 : FVec Ideal Cert.KernelIdeal.S10000x40 .f32)
    (brow : FVec Ideal Cert.KernelIdeal.S1x40 .f32) :
    Cert.KernelIdeal.Gen.k0_pay4 (F := Ideal) A s2 brow = bo_ksoft (bo_kz A s2 brow) := rfl

theorem bo_kz_apply (A : FVec Ideal Cert.KernelIdeal.S400x10000 .f32) (s2 : FVec Ideal Cert.KernelIdeal.S10000x40 .f32)
    (brow : FVec Ideal Cert.KernelIdeal.S1x40 .f32) (p : Fin 400) (q : Fin 40) :
    bo_kz A s2 brow (ix2 p q) = (∑ k : Fin 10000, A (ix2 p k) * s2 (ix2 k q)) + brow (ix2 (0 : Fin 1) q) := by
  unfold bo_kz
  rw [addf_apply, broadcastTo_1b_ab_apply, shapeCast_self, PlainDot.matmul_zero_apply bo_plain_ker_outer]

theorem bo_kexp_apply (z : FVec Ideal Cert.KernelIdeal.S400x40 .f32) (p : Fin 400) (q : Fin 40) :
    bo_kexp z (ix2 p q) = Ideal.exp (z (ix2 p q) - bo_max fun q' => z (ix2 p q')) := by
  unfold bo_kexp
  show Ideal.exp (subf z _ (ix2 p q)) = _
  rw [subf_apply, broadcastTo_a1_ab_apply (by decide), shapeCast_a_a1_apply, bo_kmax_apply]

theorem bo_ksoft_apply (z : FVec Ideal Cert.KernelIdeal.S400x40 .f32) (p : Fin 400) (q : Fin 40) :
    bo_ksoft z (ix2 p q) = bo_soft (fun q' => z (ix2 p q')) q := by
  unfold bo_ksoft
  rw [divf_apply, broadcastTo_a1_ab_apply (by decide), shapeCast_a_a1_apply, bo_ksum_apply, bo_kexp_apply]
  unfold bo_soft
  exact congrArg _ (Finset.sum_congr rfl fun q' _ => bo_kexp_apply z p q')

/-- The fourth payload at `(p, q)`: the softmax of row `p` of `A s2 + b`, at `q`. -/
theorem bo_pay4_apply (A : FVec Ideal Cert.KernelIdeal.S400x10000 .f32) (s2 : FVec Ideal Cert.KernelIdeal.S10000x40 .f32)
    (brow : FVec Ideal Cert.KernelIdeal.S1x40 .f32) (p : Fin 400) (q : Fin 40) :
    Cert.KernelIdeal.Gen.k0_pay4 (F := Ideal) A s2 brow (ix2 p q)
      = bo_soft (fun q' => (∑ k : Fin 10000, A (ix2 p k) * s2 (ix2 k q')) + brow (ix2 (0 : Fin 1) q')) q := by
  rw [bo_pay4_eq, bo_ksoft_apply]
  exact congrArg (fun f => bo_soft f q) (funext fun q' => bo_kz_apply A s2 brow p q')

/-! ## Both sides are the row softmax of `z2` -/

theorem pureOut_eq_ref (h : FVec Ideal Cert.KernelIdeal.S10000x64 .f32) (adj : FVec Ideal Cert.KernelIdeal.S10000x10000 .f32)
    (W2 : FVec Ideal Cert.KernelIdeal.S64x40 .f32) (b2 : FVec Ideal Cert.KernelIdeal.S40 .f32) :
    Cert.KernelIdeal.Hand.pureOut (F := Ideal) h adj W2 (shapeCast Cert.KernelIdeal.S1x40 b2 Cert.KernelIdeal.Gen.shapeCasts_S40_S1x40)
      = Cert.ReferenceIdeal.Hand.refSoftmax (F := Ideal) (Cert.ReferenceIdeal.Hand.refZ2 (F := Ideal) h adj W2 b2) := by
  funext j
  obtain ⟨r, q, rfl⟩ : ∃ (r : Fin 10000) (q : Fin 40), j = ix2 r q := ⟨j 0, j 1, eq_ix2 j⟩
  rw [bo_refSoftmax_apply]
  unfold Cert.KernelIdeal.Hand.pureOut
  rw [bo_pay4_apply]
  refine congrArg (fun f => bo_soft f q) (funext fun q' => ?_)
  rw [bo_refZ2_apply, shapeCast_a_1a_apply]
  unfold bo_z
  exact congrArg (· + b2 (ix1 q')) (Finset.sum_congr rfl fun k _ => by
    rw [bo_pay3_apply]
    exact congrArg (· * ∑ l : Fin 64, h (ix2 k l) * W2 (ix2 l q')) (bo_adjSlab_apply adj r _ _ k))

end Cert.Bridge

end
-- ==== Proof.lean ====
/-
  The five claims of the fused two-layer graph convolution against its reference.

  Both programs compute  h = leaky (A (y W1) + b1)  and  out = row softmax of A (h W2) + b2,  the leaky rectifier with
  the one slope literal both sides carry. The kernel computes them on a grid of 50 points in two passes over 25 row
  slabs of the adjacency matrix A: pass 0 stores h slab by slab into one staging buffer that holds the whole array,
  pass 1 reads that buffer whole, forms h W2 once, and stores the result slab by slab. Because a slab store leaves the
  rest of the buffer as it was, and before the first point the buffer holds whatever the machine left there, what the
  buffer holds is stated as a relation between what the body is handed and what it leaves; the rows already stored
  are then h's by induction over the points, and all of them are by the first point of pass 1.

  The three frames: each program terminates on every weakly fair execution with its argument arrays unchanged - for
  the two kernel programs from the pipeline's launch theorem over that relational data (one proof, the same text at
  the word-level and the ideal instance), for the reference from its run read back operation by operation.
  The idealization rewrote nothing, so the preservation claim is the trivial one.
  The algebraic claim: at the ideal instance the kernel's two result arrays are, entry by entry, the reference's - a
  matrix product into a zero accumulator is the plain sum the host's product is, a lane reduction is the host's
  reduction, the same-shape casts are identities, the host's second maximum against minus infinity changes nothing -
  and no step uses that the inputs are finite.
-/
import proofs.«180651_g84250078479004_cont_9to1_m_1348_24_alg».proof.Defs
import proofs.«180651_g84250078479004_cont_9to1_m_1348_24_alg».proof.Proof.Gen.Kernel
import proofs.«180651_g84250078479004_cont_9to1_m_1348_24_alg».proof.Proof.Gen.KernelIdeal
import proofs.«180651_g84250078479004_cont_9to1_m_1348_24_alg».proof.Proof.Gen.ReferenceIdeal
import proofs.«180651_g84250078479004_cont_9to1_m_1348_24_alg».proof.Proof.Gen.Pre_finite_inputs
import proofs.«180651_g84250078479004_cont_9to1_m_1348_24_alg».proof.Proof.KRun
import proofs.«180651_g84250078479004_cont_9to1_m_1348_24_alg».proof.Proof.KIValue
import proofs.«180651_g84250078479004_cont_9to1_m_1348_24_alg».proof.Proof.RefRun
import proofs.«180651_g84250078479004_cont_9to1_m_1348_24_alg».proof.Proof.BridgeH
import proofs.«180651_g84250078479004_cont_9to1_m_1348_24_alg».proof.Proof.BridgeOut
import Idealize.ShloMosaic.Adequacy
import Idealize.ShloMosaic.Init

noncomputable section

namespace Cert.Proof

open Idealize.ShloMosaic Idealize.ShloMosaic.TcCoe Idealize.SL.Sem

/-- The word-level kernel terminates with its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run, the two results dropped. -/
theorem frame_ri : Cert.frame_ReferenceIdeal := fun m ρ _ =>
  (θ_run Cert.ReferenceIdeal.defs _ _).mono (fun _ h c => (h c).2.2) (Cert.ReferenceIdeal.Hand.run (F := Ideal) m ρ)

/-- At the ideal instance the kernel's two results are the reference's, from memories that agree on the arguments. -/
theorem algebraic : Cert.algebraic_KernelIdeal_ReferenceIdeal := by
  intro m ρ m' ρ' _ hagree
  refine ⟨fun c => Cert.KernelIdeal.Hand.pureOut (F := Ideal) (Cert.KernelIdeal.Hand.pureH (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (shapeCast Cert.KernelIdeal.S1x64 (m ((c.tc : Thread Cert.KernelIdeal.nD Cert.KernelIdeal.τ).loc Cert.KernelIdeal.main_arg3)) Cert.KernelIdeal.Gen.shapeCasts_S64_S1x64)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (shapeCast Cert.KernelIdeal.S1x40 (m ((c.tc : Thread Cert.KernelIdeal.nD Cert.KernelIdeal.τ).loc Cert.KernelIdeal.main_arg5)) Cert.KernelIdeal.Gen.shapeCasts_S40_S1x40),
    fun c => Cert.KernelIdeal.Hand.pureH (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (shapeCast Cert.KernelIdeal.S1x64 (m ((c.tc : Thread Cert.KernelIdeal.nD Cert.KernelIdeal.τ).loc Cert.KernelIdeal.main_arg3)) Cert.KernelIdeal.Gen.shapeCasts_S64_S1x64),
    Cert.KernelIdeal.Hand.run_values (F := Ideal) m ρ, ?_⟩
  refine (θ_run Cert.ReferenceIdeal.defs _ _).mono (fun _ h c => ?_) (Cert.ReferenceIdeal.Hand.run (F := Ideal) m' ρ')
  obtain ⟨ho, hh, ha⟩ := h c
  obtain ⟨e0, e1, e2, e3, e4, e5⟩ := hagree c
  refine ⟨ho.trans ?_, hh.trans ?_, ha⟩
  · rw [e0, e1, e2, e3, e4, e5]
    unfold Cert.ReferenceIdeal.Hand.refOut
    rw [← Cert.Bridge.pureH_eq_refH]
    exact (Cert.Bridge.pureOut_eq_ref _ _ _ _).symm
  · rw [e0, e1, e2, e3]
    exact (Cert.Bridge.pureH_eq_refH _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
